-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S1x512x256 : Shape := ⟨3, ![1, 512, 256]⟩
abbrev S768x50000 : Shape := ⟨2, ![768, 50000]⟩
abbrev S768x256 : Shape := ⟨2, ![768, 256]⟩
abbrev S768 : Shape := ⟨1, ![768]⟩
abbrev S50000x256 : Shape := ⟨2, ![50000, 256]⟩
abbrev S50000 : Shape := ⟨1, ![50000]⟩
abbrev S_ : Shape := ⟨0, ![]⟩

class Facts : Prop where
  bcast_S_S1x512x256 : S_.BroadcastsInDim S1x512x256 (![] : Fin 0 → Fin S1x512x256.rank)
  reducesTo_S1x512x256_S_d0_1_2 : S1x512x256.ReducesTo [0, 1, 2] S_
  h_S_ : 0 < S_.numel
  bcast_S_S768x50000 : S_.BroadcastsInDim S768x50000 (![] : Fin 0 → Fin S768x50000.rank)
  reducesTo_S768x50000_S_d0_1 : S768x50000.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S50000x256 : S_.BroadcastsInDim S50000x256 (![] : Fin 0 → Fin S50000x256.rank)
  reducesTo_S50000x256_S_d0_1 : S50000x256.ReducesTo [0, 1] S_
  bcast_S_S50000 : S_.BroadcastsInDim S50000 (![] : Fin 0 → Fin S50000.rank)
  reducesTo_S50000_S_d0 : S50000.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg0 : IVec S512 32) (main_v33 : IVec S_ 1) : IVec S_ 1 :=
  let main_c_12 : IVec S_ 32 := constantI S_ 32 0#32
  let main_v34 : IVec S512 32 := broadcastInDim S512 ![] bcast_S_S512 main_c_12
  let main_v35 : IVec S512 1 := cmpi .sge main_arg0 main_v34
  let main_c_13 : IVec S_ 1 := constantI S_ 1 1#1
  let main_v36 : IVec S_ 1 := (fun x v => Host.reduce IntOp.andi x v reducesTo_S512_S_d0 h_S_) main_v35 main_c_13
  let main_v37 : IVec S_ 1 := andi main_v33 main_v36
  let main_c_14 : IVec S_ 32 := constantI S_ 32 50000#32
  let main_v38 : IVec S512 32 := broadcastInDim S512 ![] bcast_S_S512 main_c_14
  let main_v39 : IVec S512 1 := cmpi .slt main_arg0 main_v38
  let main_c_15 : IVec S_ 1 := constantI S_ 1 1#1
  let main_v40 : IVec S_ 1 := (fun x v => Host.reduce IntOp.andi x v reducesTo_S512_S_d0 h_S_) main_v39 main_c_15
  let main_v41 : IVec S_ 1 := andi main_v37 main_v40
  main_v41

def fn_part1 {F : FTy → Type} [FloatOps F] (main_arg0 : IVec S512 32) (main_arg5 : FVec F S768 .f32) (main_arg6 : FVec F S50000x256 .f32) (main_arg7 : FVec F S50000 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S50000x256 .f32 := Host.absf main_arg6
  let main_cst_8 : FVec F S_ .f32 := constant S_ .f32 0x7F800000#32
  let main_v25 : FVec F S50000x256 .f32 := broadcastInDim S50000x256 ![] bcast_S_S50000x256 main_cst_8
  let main_v26 : IVec S50000x256 1 := cmpf .olt main_v24 main_v25
  let main_c_9 : IVec S_ 1 := constantI S_ 1 1#1
  let main_v27 : IVec S_ 1 := (fun x v => Host.reduce IntOp.andi x v reducesTo_S50000x256_S_d0_1 h_S_) main_v26 main_c_9
  let main_v28 : IVec S_ 1 := andi main_v23 main_v27
  let main_v29 : FVec F S50000 .f32 := Host.absf main_arg7
  let main_cst_10 : FVec F S_ .f32 := constant S_ .f32 0x7F800000#32
  let main_v30 : FVec F S50000 .f32 := broadcastInDim S50000 ![] bcast_S_S50000 main_cst_10
  let main_v31 : IVec S50000 1 := cmpf .olt main_v29 main_v30
  let main_c_11 : IVec S_ 1 := constantI S_ 1 1#1
  let main_v32 : IVec S_ 1 := (fun x v => Host.reduce IntOp.andi x v reducesTo_S50000_S_d0 h_S_) main_v31 main_c_11
  let main_v33 : IVec S_ 1 := andi main_v28 main_v32
  fn_part2 (F := F) main_arg0 main_v33

def fn {F : FTy → Type} [FloatOps F] (main_arg0 : IVec S512 32) (main_arg1 : FVec F S1x512x256 .f32) (main_arg2 : FVec F S768x50000 .f32) (main_arg3 : FVec F S768x256 .f32) (main_arg4 : FVec F S768 .f32) (main_arg5 : FVec F S768 .f32) (main_arg6 : FVec F S50000x256 .f32) (main_arg7 : FVec F S50000 .f32) : IVec S_ 1 :=
  let main_v0 : FVec F S1x512x256 .f32 := Host.absf main_arg1
  let main_cst : FVec F S_ .f32 := constant S_ .f32 0x7F800000#32
  let main_v1 : FVec F S1x512x256 .f32 := broadcastInDim S1x512x256 ![] bcast_S_S1x512x256 main_cst
  let main_v2 : IVec S1x512x256 1 := cmpf .olt main_v0 main_v1
  let main_c : IVec S_ 1 := constantI S_ 1 1#1
  let main_v3 : IVec S_ 1 := (fun x v => Host.reduce IntOp.andi x v reducesTo_S1x512x256_S_d0_1_2 h_S_) main_v2 main_c
  let main_v4 : FVec F S768x50000 .f32 := Host.absf main_arg2
  let main_cst_0 : FVec F S_ .f32 := constant S_ .f32 0x7F800000#32
  let main_v5 : FVec F S768x50000 .f32 := broadcastInDim S768x50000 ![] bcast_S_S768x50000 main_cst_0
  let main_v6 : IVec S768x50000 1 := cmpf .olt main_v4 main_v5
  let main_c_1 : IVec S_ 1 := constantI S_ 1 1#1
  let main_v7 : IVec S_ 1 := (fun x v => Host.reduce IntOp.andi x v reducesTo_S768x50000_S_d0_1 h_S_) main_v6 main_c_1
  let main_v8 : IVec S_ 1 := andi main_v3 main_v7
  let main_v9 : FVec F S768x256 .f32 := Host.absf main_arg3
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg0 main_arg5 main_arg6 main_arg7 main_v13 main_v16
-- ==== Kernel.lean ====
abbrev S512 : Shape := ⟨1, ![512]⟩
abbrev S1x512x256 : Shape := ⟨3, ![1, 512, 256]⟩
abbrev S768x50000 : Shape := ⟨2, ![768, 50000]⟩
abbrev S768x256 : Shape := ⟨2, ![768, 256]⟩
abbrev S768 : Shape := ⟨1, ![768]⟩
abbrev S50000x256 : Shape := ⟨2, ![50000, 256]⟩
abbrev S50000 : Shape := ⟨1, ![50000]⟩
abbrev S512x1 : Shape := ⟨2, ![512, 1]⟩
abbrev S512x256 : Shape := ⟨2, ![512, 256]⟩
abbrev S_ : Shape := ⟨0, ![]⟩
abbrev S768x50048 : Shape := ⟨2, ![768, 50048]⟩
abbrev S1x768 : Shape := ⟨2, ![1, 768]⟩
abbrev S50048x256 : Shape := ⟨2, ![50048, 256]⟩
abbrev S50048 : Shape := ⟨1, ![50048]⟩
abbrev S1x50048 : Shape := ⟨2, ![1, 50048]⟩
abbrev S768x2176 : Shape := ⟨2, ![768, 2176]⟩
abbrev S512x768 : Shape := ⟨2, ![512, 768]⟩
abbrev S512x2176 : Shape := ⟨2, ![512, 2176]⟩
abbrev S512x50048 : Shape := ⟨2, ![512, 50048]⟩
abbrev S2176x256 : Shape := ⟨2, ![2176, 256]⟩
abbrev S1x2176 : Shape := ⟨2, ![1, 2176]⟩
abbrev S512x50000 : Shape := ⟨2, ![512, 50000]⟩

abbrev nBuf : Space → Nat
  | .hbm => 26
  | .vmem => 16
  | .smem => 0
  | _ => 0

abbrev bufTy : (tb : Table) → Fin (tcTables nBuf tb) → BufTy
  | .hbm, ⟨0, _⟩ => ⟨S512, .i32⟩
  | .hbm, ⟨1, _⟩ => ⟨S1x512x256, .f32⟩
  | .hbm, ⟨2, _⟩ => ⟨S768x50000, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S50000x256, .f32⟩
  | .hbm, ⟨7, _⟩ => ⟨S50000, .f32⟩
  | .hbm, ⟨8, _⟩ => ⟨S512x1, .i32⟩
  | .hbm, ⟨9, _⟩ => ⟨S512x256, .f32⟩
  | .hbm, ⟨10, _⟩ => ⟨S_, .i32⟩
  | .hbm, ⟨11, _⟩ => ⟨S_, .f32⟩
  | .hbm, ⟨12, _⟩ => ⟨S768x50048, .f32⟩
  | .hbm, ⟨13, _⟩ => ⟨S1x768, .f32⟩
  | .hbm, ⟨14, _⟩ => ⟨S1x768, .f32⟩
  | .hbm, ⟨15, _⟩ => ⟨S_, .i32⟩
  | .hbm, ⟨16, _⟩ => ⟨S_, .f32⟩
  | .hbm, ⟨17, _⟩ => ⟨S50048x256, .f32⟩
  | .hbm, ⟨18, _⟩ => ⟨S_, .i32⟩
  | .hbm, ⟨19, _⟩ => ⟨S_, .f32⟩
  | .hbm, ⟨20, _⟩ => ⟨S50048, .f32⟩
  | .hbm, ⟨21, _⟩ => ⟨S1x50048, .f32⟩
  | .hbm, ⟨22, _⟩ => ⟨S512x256, .f32⟩
  | .hbm, ⟨23, _⟩ => ⟨S512x50048, .f32⟩
  | .hbm, ⟨24, _⟩ => ⟨S512x50000, .f32⟩
  | .hbm, ⟨25, _⟩ => ⟨S1x512x256, .f32⟩
  | .local _ .vmem, ⟨0, _⟩ => ⟨S512x1, .i32⟩
  | .local _ .vmem, ⟨1, _⟩ => ⟨S768x2176, .f32⟩
  | .local _ .vmem, ⟨2, _⟩ => ⟨S768x2176, .f32⟩
  | .local _ .vmem, ⟨3, _⟩ => ⟨S1x768, .f32⟩
  | .local _ .vmem, ⟨4, _⟩ => ⟨S512x256, .f32⟩
  | .local _ .vmem, ⟨5, _⟩ => ⟨S768x256, .f32⟩
  | .local _ .vmem, ⟨6, _⟩ => ⟨S1x768, .f32⟩
  | .local _ .vmem, ⟨7, _⟩ => ⟨S512x256, .f32⟩
  | .local _ .vmem, ⟨8, _⟩ => ⟨S512x768, .f32⟩
  | .local _ .vmem, ⟨9, _⟩ => ⟨S512x256, .f32⟩
  | .local _ .vmem, ⟨10, _⟩ => ⟨S2176x256, .f32⟩
  | .local _ .vmem, ⟨11, _⟩ => ⟨S2176x256, .f32⟩
  | .local _ .vmem, ⟨12, _⟩ => ⟨S1x2176, .f32⟩
  | .local _ .vmem, ⟨13, _⟩ => ⟨S1x2176, .f32⟩
  | .local _ .vmem, ⟨14, _⟩ => ⟨S512x2176, .f32⟩
  | .local _ .vmem, ⟨15, _⟩ => ⟨S512x2176, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_c_1 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![23], ![false]⟩

def k0_cond2 (i : grid0.Coords) : BitVec 1 :=
  let arg0 : BitVec 32 := BitVec.ofNat 32 (i 0).val
  let c22_i32 : BitVec 32 := 22#32
  let v23 : BitVec 1 := Scalar.cmpi .eq arg0 c22_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![23], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2176x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2176 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2176 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S512_S512x1 : S512.ShapeCasts S512x1
  shapeCasts_S1x512x256_S512x256 : S1x512x256.ShapeCasts S512x256
  pads_S768x50000_S768x50048_000_0480 : S768x50000.Pads (![0, 0] : Fin 2 → Nat) ![0, 48] ![0, 0] S768x50048
  h_S_ : 0 < S_.numel
  shapeCasts_S768_S1x768 : S768.ShapeCasts S1x768
  pads_S50000x256_S50048x256_0480_000 : S50000x256.Pads (![0, 0] : Fin 2 → Nat) ![48, 0] ![0, 0] S50048x256
  pads_S50000_S50048_0480 : S50000.Pads (![0] : Fin 1 → Nat) ![48] ![0] S50048
  shapeCasts_S50048_S1x50048 : S50048.ShapeCasts S1x50048
  inb_S512x768_S512x768_0_0 : ∀ a, (![0, 0] : Fin 2 → Nat) a + S512x768.size a ≤ S512x768.size a
  h_S512x768 : 0 < S512x768.numel
  shapeCasts_S512x768_S512x768 : S512x768.ShapeCasts S512x768
  iota_S512x2176_d1_w32 : S512x2176.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2176 : S512x1.Broadcasts S512x2176
  natLt_1_32 : 1 < 32
  bitsLt_bf16_f32 : FTy.bits .bf16 < FTy.bits .f32
  inb_S768x2176_S768x2176_0_0 : ∀ a, (![0, 0] : Fin 2 → Nat) a + S768x2176.size a ≤ S768x2176.size a
  h_S768x2176 : 0 < S768x2176.numel
  shapeCasts_S768x2176_S768x2176 : S768x2176.ShapeCasts S768x2176
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S768x256_S768x256_0_0 : ∀ a, (![0, 0] : Fin 2 → Nat) a + S768x256.size a ≤ S768x256.size a
  h_S768x256 : 0 < S768x256.numel
  slices_S512x768_o0_0_S512x256 : S512x768.Slices ![0, 0] S512x256
  slices_S512x768_o0_256_S512x256 : S512x768.Slices ![0, 256] S512x256
  slices_S512x768_o0_512_S512x256 : S512x768.Slices ![0, 512] S512x256
  inb_S2176x256_S2176x256_0_0 : ∀ a, (![0, 0] : Fin 2 → Nat) a + S2176x256.size a ≤ S2176x256.size a
  h_S2176x256 : 0 < S2176x256.numel
  shapeCasts_S2176x256_S2176x256 : S2176x256.ShapeCasts S2176x256
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  broadcasts_S1x2176_S512x2176 : S1x2176.Broadcasts S512x2176
  inb_S512x2176_S512x2176_0_0 : ∀ a, (![0, 0] : Fin 2 → Nat) a + S512x2176.size a ≤ S512x2176.size a
  h_S512x2176 : 0 < S512x2176.numel
  slices_S512x50048_S512x50000_0_0 : S512x50048.Slices ![0, 0] S512x50000
  bcast_S512x256_S1x512x256_1_2 : S512x256.BroadcastsInDim S1x512x256 (![1, 2] : Fin 2 → Fin S1x512x256.rank)
  dot_S512x2176_S768x2176_S512x768_1_1_0_0_n_n_wf : DotDims.WF S512x2176 S768x2176 S512x768 [1] [1] [0] [0] [] []
  dot_S512x256_S768x256_S512x768_1_1_0_0_n_n_wf : DotDims.WF S512x256 S768x256 S512x768 [1] [1] [0] [0] [] []
  dot_S512x256_S2176x256_S512x2176_1_1_0_0_n_n_wf : DotDims.WF S512x256 S2176x256 S512x2176 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S512x1.size a
  hwx0_0 : ∀ i : grid0.Coords, EltTy.bits .i32 = 32 ∨ (Rect.block (s := S512x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x2176.size a ≤ S768x50048.size a
  hwx0_1 : ∀ i : grid0.Coords, EltTy.bits .f32 = 32 ∨ (Rect.block (s := S768x50048) S768x2176.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x256.size a ≤ S768x256.size a
  hwx0_4 : ∀ i : grid0.Coords, EltTy.bits .f32 = 32 ∨ (Rect.block (s := S768x256) S768x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S512x256.size a
  hwx1_0 : ∀ i : grid1.Coords, EltTy.bits .f32 = 32 ∨ (Rect.block (s := S512x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2176x256.size a ≤ S50048x256.size a
  hwx1_1 : ∀ i : grid1.Coords, EltTy.bits .f32 = 32 ∨ (Rect.block (s := S50048x256) S2176x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2176.size a ≤ S1x50048.size a
  hwx1_2 : ∀ i : grid1.Coords, EltTy.bits .f32 = 32 ∨ (Rect.block (s := S1x50048) S1x2176.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2176.size a ≤ S512x50048.size a
  hwx1_3 : ∀ i : grid1.Coords, EltTy.bits .f32 = 32 ∨ (Rect.block (s := S512x50048) S512x2176.size (cc1_transform_3 i) (hinb1_3 i)).WholeWords (EltTy.packing .f32)

variable [Facts₀]

def dot_S512x2176_S768x2176_S512x768_1_1_0_0_n_n : DotDims S512x2176 S768x2176 S512x768 where
  lhsContracting := [1]
  rhsContracting := [1]
  lhsNonContracting := [0]
  rhsNonContracting := [0]
  lhsBatch := []
  rhsBatch := []
  wf := dot_S512x2176_S768x2176_S512x768_1_1_0_0_n_n_wf
def dot_S512x256_S768x256_S512x768_1_1_0_0_n_n : DotDims S512x256 S768x256 S512x768 where
  lhsContracting := [1]
  rhsContracting := [1]
  lhsNonContracting := [0]
  rhsNonContracting := [0]
  lhsBatch := []
  rhsBatch := []
  wf := dot_S512x256_S768x256_S512x768_1_1_0_0_n_n_wf
def dot_S512x256_S2176x256_S512x2176_1_1_0_0_n_n : DotDims S512x256 S2176x256 S512x2176 where
  lhsContracting := [1]
  rhsContracting := [1]
  lhsNonContracting := [0]
  rhsNonContracting := [0]
  lhsBatch := []
  rhsBatch := []
  wf := dot_S512x256_S2176x256_S512x2176_1_1_0_0_n_n_wf

abbrev win0_0 : Pipeline.Window sig grid0 :=
  Pipeline.Window.ofSpec (Memref.whole main_v0) S512x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2176.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S768x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v8) S512x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2176x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2176.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x2176.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512 : Shape := ⟨1, ![512]⟩
abbrev S1x512x256 : Shape := ⟨3, ![1, 512, 256]⟩
abbrev S768x50000 : Shape := ⟨2, ![768, 50000]⟩
abbrev S768x256 : Shape := ⟨2, ![768, 256]⟩
abbrev S768 : Shape := ⟨1, ![768]⟩
abbrev S50000x256 : Shape := ⟨2, ![50000, 256]⟩
abbrev S50000 : Shape := ⟨1, ![50000]⟩
abbrev S_ : Shape := ⟨0, ![]⟩
abbrev S512x50000 : Shape := ⟨2, ![512, 50000]⟩
abbrev S512x1 : Shape := ⟨2, ![512, 1]⟩
abbrev S512x2 : Shape := ⟨2, ![512, 2]⟩
abbrev S512x256 : Shape := ⟨2, ![512, 256]⟩
abbrev S50000x768 : Shape := ⟨2, ![50000, 768]⟩
abbrev S512x768 : Shape := ⟨2, ![512, 768]⟩
abbrev S1x768 : Shape := ⟨2, ![1, 768]⟩
abbrev S256x768 : Shape := ⟨2, ![256, 768]⟩
abbrev S256x50000 : Shape := ⟨2, ![256, 50000]⟩
abbrev S1x50000 : Shape := ⟨2, ![1, 50000]⟩

abbrev nBuf : Space → Nat
  | .hbm => 82
  | .vmem => 0
  | .smem => 0
  | _ => 0

abbrev bufTy : (tb : Table) → Fin (tcTables nBuf tb) → BufTy
  | .hbm, ⟨0, _⟩ => ⟨S512, .i32⟩
  | .hbm, ⟨1, _⟩ => ⟨S1x512x256, .f32⟩
  | .hbm, ⟨2, _⟩ => ⟨S768x50000, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S50000x256, .f32⟩
  | .hbm, ⟨7, _⟩ => ⟨S50000, .f32⟩
  | .hbm, ⟨8, _⟩ => ⟨S_, .f32⟩
  | .hbm, ⟨9, _⟩ => ⟨S512x50000, .f32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S512x1, .i32⟩
  | .hbm, ⟨27, _⟩ => ⟨S512x2, .i32⟩
  | .hbm, ⟨28, _⟩ => ⟨S_, .f32⟩
  | .hbm, ⟨29, _⟩ => ⟨S512, .f32⟩
  | .hbm, ⟨30, _⟩ => ⟨S512x50000, .f32⟩
  | .hbm, ⟨31, _⟩ => ⟨S512x256, .f32⟩
  | .hbm, ⟨32, _⟩ => ⟨S50000x768, .f32⟩
  | .hbm, ⟨33, _⟩ => ⟨S512x768, .f32⟩
  | .hbm, ⟨34, _⟩ => ⟨S1x768, .f32⟩
  | .hbm, ⟨35, _⟩ => ⟨S512x768, .f32⟩
  | .hbm, ⟨36, _⟩ => ⟨S512x768, .f32⟩
  | .hbm, ⟨37, _⟩ => ⟨S256x768, .f32⟩
  | .hbm, ⟨38, _⟩ => ⟨S512x768, .f32⟩
  | .hbm, ⟨39, _⟩ => ⟨S1x768, .f32⟩
  | .hbm, ⟨40, _⟩ => ⟨S512x768, .f32⟩
  | .hbm, ⟨41, _⟩ => ⟨S512x768, .f32⟩
  | .hbm, ⟨42, _⟩ => ⟨S512x256, .f32⟩
  | .hbm, ⟨43, _⟩ => ⟨S512x256, .f32⟩
  | .hbm, ⟨44, _⟩ => ⟨S512x256, .f32⟩
  | .hbm, ⟨45, _⟩ => ⟨S512x256, .f32⟩
  | .hbm, ⟨46, _⟩ => ⟨S512x256, .f32⟩
  | .hbm, ⟨47, _⟩ => ⟨S512x256, .f32⟩
  | .hbm, ⟨48, _⟩ => ⟨S512x256, .f32⟩
  | .hbm, ⟨49, _⟩ => ⟨S512x256, .f32⟩
  | .hbm, ⟨50, _⟩ => ⟨S512x256, .f32⟩
  | .hbm, ⟨51, _⟩ => ⟨S_, .f32⟩
  | .hbm, ⟨52, _⟩ => ⟨S512x256, .f32⟩
  | .hbm, ⟨53, _⟩ => ⟨S512x256, .f32⟩
  | .hbm, ⟨54, _⟩ => ⟨S_, .f32⟩
  | .hbm, ⟨55, _⟩ => ⟨S512x256, .f32⟩
  | .hbm, ⟨56, _⟩ => ⟨S512x256, .f32⟩
  | .hbm, ⟨57, _⟩ => ⟨S512x256, .f32⟩
  | .hbm, ⟨58, _⟩ => ⟨S512x256, .f32⟩
  | .hbm, ⟨59, _⟩ => ⟨S512x256, .f32⟩
  | .hbm, ⟨60, _⟩ => ⟨S_, .f32⟩
  | .hbm, ⟨61, _⟩ => ⟨S512x256, .f32⟩
  | .hbm, ⟨62, _⟩ => ⟨S512x256, .f32⟩
  | .hbm, ⟨63, _⟩ => ⟨S_, .f32⟩
  | .hbm, ⟨64, _⟩ => ⟨S512x256, .f32⟩
  | .hbm, ⟨65, _⟩ => ⟨S512x256, .f32⟩
  | .hbm, ⟨66, _⟩ => ⟨S512x256, .f32⟩
  | .hbm, ⟨67, _⟩ => ⟨S512x256, .f32⟩
  | .hbm, ⟨68, _⟩ => ⟨S512x256, .f32⟩
  | .hbm, ⟨69, _⟩ => ⟨S_, .f32⟩
  | .hbm, ⟨70, _⟩ => ⟨S512x256, .f32⟩
  | .hbm, ⟨71, _⟩ => ⟨S512x256, .f32⟩
  | .hbm, ⟨72, _⟩ => ⟨S512x256, .f32⟩
  | .hbm, ⟨73, _⟩ => ⟨S512x256, .f32⟩
  | .hbm, ⟨74, _⟩ => ⟨S512x256, .f32⟩
  | .hbm, ⟨75, _⟩ => ⟨S256x50000, .f32⟩
  | .hbm, ⟨76, _⟩ => ⟨S512x50000, .f32⟩
  | .hbm, ⟨77, _⟩ => ⟨S1x50000, .f32⟩
  | .hbm, ⟨78, _⟩ => ⟨S512x50000, .f32⟩
  | .hbm, ⟨79, _⟩ => ⟨S512x50000, .f32⟩
  | .hbm, ⟨80, _⟩ => ⟨S512x50000, .f32⟩
  | .hbm, ⟨81, _⟩ => ⟨S1x512x256, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]

class Facts₀ : Prop where
  bcast_S_S512x50000 : S_.BroadcastsInDim S512x50000 (![] : Fin 0 → Fin S512x50000.rank)
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  shapeCasts_S1x512x256_S512x256 : S1x512x256.ShapeCasts S512x256
  transposes_S768x50000_S50000x768_1_0 : S768x50000.Transposes [1, 0] S50000x768
  bcast_S768_S1x768_1 : S768.BroadcastsInDim S1x768 (![1] : Fin 1 → Fin S1x768.rank)
  bcast_S1x768_S512x768_0_1 : S1x768.BroadcastsInDim S512x768 (![0, 1] : Fin 2 → Fin S512x768.rank)
  transposes_S768x256_S256x768_1_0 : S768x256.Transposes [1, 0] S256x768
  slices_S512x768_S512x256_0_0 : S512x768.Slices ![0, 0] S512x256
  slices_S512x768_S512x256_0_256 : S512x768.Slices ![0, 256] S512x256
  slices_S512x768_S512x256_0_512 : S512x768.Slices ![0, 512] S512x256
  bcast_S_S512x256 : S_.BroadcastsInDim S512x256 (![] : Fin 0 → Fin S512x256.rank)
  transposes_S50000x256_S256x50000_1_0 : S50000x256.Transposes [1, 0] S256x50000
  bcast_S50000_S1x50000_1 : S50000.BroadcastsInDim S1x50000 (![1] : Fin 1 → Fin S1x50000.rank)
  bcast_S1x50000_S512x50000_0_1 : S1x50000.BroadcastsInDim S512x50000 (![0, 1] : Fin 2 → Fin S512x50000.rank)
  bcast_S512x256_S1x512x256_1_2 : S512x256.BroadcastsInDim S1x512x256 (![1, 2] : Fin 2 → Fin S1x512x256.rank)
  scatter_S512x50000_S512x2_S512_n_01_01_1_wf : ScatterDims.WF S512x50000 S512x2 S512 [] [0, 1] [0, 1] 1
  dot_S512x50000_S50000x768_S512x768_1_0_0_1_n_n_wf : DotDims.WF S512x50000 S50000x768 S512x768 [1] [0] [0] [1] [] []
  dot_S512x256_S256x768_S512x768_1_0_0_1_n_n_wf : DotDims.WF S512x256 S256x768 S512x768 [1] [0] [0] [1] [] []
  dot_S512x256_S256x50000_S512x50000_1_0_0_1_n_n_wf : DotDims.WF S512x256 S256x50000 S512x50000 [1] [0] [0] [1] [] []

variable [Facts₀]

def scatter_S512x50000_S512x2_S512_n_01_01_1 : ScatterDims S512x50000 S512x2 S512 where
  updateWindowDims := []
  insertedWindowDims := [0, 1]
  scatterDimsToOperandDims := [0, 1]
  indexVectorDim := 1
  wf := scatter_S512x50000_S512x2_S512_n_01_01_1_wf
def dot_S512x50000_S50000x768_S512x768_1_0_0_1_n_n : DotDims S512x50000 S50000x768 S512x768 where
  lhsContracting := [1]
  rhsContracting := [0]
  lhsNonContracting := [0]
  rhsNonContracting := [1]
  lhsBatch := []
  rhsBatch := []
  wf := dot_S512x50000_S50000x768_S512x768_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S256x50000_S512x50000_1_0_0_1_n_n : DotDims S512x256 S256x50000 S512x50000 where
  lhsContracting := [1]
  rhsContracting := [0]
  lhsNonContracting := [0]
  rhsNonContracting := [1]
  lhsBatch := []
  rhsBatch := []
  wf := dot_S512x256_S256x50000_S512x50000_1_0_0_1_n_n_wf

class Facts : Prop extends Facts₀ where

variable [Facts]
-- ==== Proof.KData.lean ====
/-
  The proof data of the two pallas_calls of the GRU-step program, at any float instance.

  Call 0 walks the padded vocabulary in 23 column blocks of 2176. A 512×768 scratch accumulator is
  cleared at the first block, receives at every block the product of the block's one-hot rows (built
  from the item ids by comparing with the block's column numbers) with the block of the input-to-hidden
  weights, and at the last block feeds the gate arithmetic whose result is the new hidden state.  So
  between two blocks the only thing carried is the accumulator: `acc0 n` below is its contents after
  block `n`, by recursion on the block, and the region invariant names the scratch at that value.

  Call 1 is one matrix product per block of 2176 output columns: the new hidden state against a block of
  the hidden-to-output weights, plus the bias block, through tanh.  Nothing is carried.
-/
import proofs.«408627_j69286412419116_1_alg».proof.Proof.Gen.Kernel.Launch
import proofs.«408627_j69286412419116_1_alg».proof.Proof.Gen.Kernel.Skeleton
import proofs.«408627_j69286412419116_1_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contents of a core's TensorCore buffers when a region is entered. -/
abbrev Entry (F : FTy → Type) [FloatOps F] : Type :=
  (c : Dev nD) → (b : Ref sig .tc) → Buf (Elt F) ((c : Thread nD τ).loc b)

variable (V : Entry F)

/-! ## Call 0 -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after block `n`: the cleared buffer plus the first block's product at `n = 0`, the
    previous contents plus block `n`'s product afterwards. -/
def acc0 (c : Dev nD) : (n : ℕ) → n < cfg0.N → Vec F S512x768 .f32
  | 0, h => k0_pay2 (grid0.coords ⟨0, h⟩) (iblk0 V c 0 ⟨0, h⟩) (iblk0 V c 1 ⟨0, h⟩) (k0_pay1 (F := F))
  | n + 1, h => k0_pay2 (grid0.coords ⟨n + 1, h⟩) (iblk0 V c 0 ⟨n + 1, h⟩) (iblk0 V c 1 ⟨n + 1, h⟩) (acc0 c n (Nat.lt_of_succ_lt h))

/-- The gate arithmetic over the accumulator after block `t` and the four small operands' blocks there (the
    new hidden state when `t` is the last block; the output window is idle at the other blocks). -/
def hid0 (c : Dev nD) (t : Fin cfg0.N) : Vec F S512x256 .f32 :=
  k0_pay3 (acc0 V c t.val t.isLt) (iblk0 V c 2 t) (iblk0 V c 3 t) (iblk0 V c 4 t) (iblk0 V c 5 t)

/-- The scratch accumulator as the kernel is handed it. -/
abbrev scr0 : Memref sig .tc .vmem S512x768 .f32 := Memref.whole cc0_scratch0

/-- The core's scoped buffers that call 0 neither stages through nor keeps its accumulator in (the other call's
    staging buffers), each at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before block `n`: before the first block the accumulator holds anything; before block
    `n + 1` it holds `acc0 n`. The other scoped buffers and the generator register ride along untouched. -/
def inv0 (c : Dev nD) : (n : ℕ) → n ≤ cfg0.N → sProp 𝕄
  | 0, _ => iprop((∃ d, owns (c : Thread nD τ) scr0 fullShare d) ∗ others0 (F := F) c ∗ (∃ r, prngReg c r))
  | n + 1, hn => iprop(owns (c : Thread nD τ) scr0 fullShare (acc0 V c n hn) ∗ others0 (F := F) c ∗ (∃ r, prngReg c r))

/-- Call 0's proof data on core `c`: the arrays as the region finds them; after the body each input window's
    buffer at its block and the output window's at the gate arithmetic over the accumulator; the invariant
    `inv0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => hid0 V c t
  Φ t := inv0 V c t.val (Nat.le_of_lt_succ t.isLt)
  q _ := fullShare
  owed _ := 0

/-! ## Call 1 -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of output columns call 1 computes at point `t`. -/
def logit1 (c : Dev nD) (t : Fin cfg1.N) : Vec F S512x2176 .f32 :=
  k1_pay1 (iblk1 V c 0 t) (iblk1 V c 1 t) (iblk1 V c 2 t)

/-- Call 1's proof data on core `c`: the arrays as the region finds them; each input window's buffer at its block
    and the output window's at the computed block; the plain invariant (scoped rest and generator register
    untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => logit1 V c t
  Φ _ := Pipeline.ΦA spec1 c
  q _ := fullShare
  owed _ := 0

end Cert.Kernel.Hand

end
-- ==== Proof.KVals.lean ====
/-
  The buffers of a core at each boundary between the items of the program, as a fold from the launch
  memory: the seven host stretches that reshape and zero-pad the operands, call 0 (which leaves the new
  hidden state in its result array), call 1 (which leaves the padded logits in its result array) and the
  closing stretch that cuts the padding off and adds a unit axis to the hidden state.
-/
import proofs.«408627_j69286412419116_1_alg».proof.Proof.KData
import proofs.«408627_j69286412419116_1_alg».proof.Proof.Gen.Kernel.Regions
import Idealize.ShloMosaic.Lib.Pipeline.FrameSuffix
import Idealize.ShloMosaic.Lib.Pipeline.Value
import Idealize.ShloMosaic.Lib.ValueIdx

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx (ix2)

variable {F : FTy → Type} [FloatOps F]

variable (m : (ℓ : Loc nD τ sig) → Buf (Elt F) ℓ)

/-- Core `c`'s buffers when call 0 is entered: the launch memory after the seven host stretches. -/
abbrev W7 (c : Dev nD) : Valuation τ sig (Elt F) := Gen.V7 m c
/-- The same read at the TensorCore's references. -/
abbrev E7 : Entry F := fun c b => W7 m c b
/-- What call 0 leaves in its result array: the write-backs of all its grid points. -/
def out8 (c : Dev nD) : Buf (Elt F) ((c : Thread nD τ).loc main_v8) := (dat0 (E7 m) c).arrAt 6 cfg0.N
/-- Core `c`'s buffers when call 0 returns: its result array at what the write-back leaves, the rest as entered. -/
abbrev W8 (c : Dev nD) : Valuation τ sig (Elt F) := Function.update (W7 m c) main_v8 (out8 m c)
/-- The same read at the TensorCore's references: what call 1 is entered from. -/
abbrev E8 : Entry F := fun c b => W8 m c b
/-- What call 1 leaves in its result array. -/
def out9 (c : Dev nD) : Buf (Elt F) ((c : Thread nD τ).loc main_v9) := (dat1 (E8 m) c).arrAt 3 cfg1.N
/-- Core `c`'s buffers when call 1 returns. -/
abbrev W9 (c : Dev nD) : Valuation τ sig (Elt F) := Function.update (W8 m c) main_v9 (out9 m c)
/-- Core `c`'s buffers at the end: after the closing host stretch. -/
abbrev W10 (c : Dev nD) : Valuation τ sig (Elt F) := StableHlo.after hostOps2 (W9 m c)

/-- What the two calls leave, as the family the boundary valuations are written over. -/
def outs : Gen.Outs (F := F) := fun j r c => if j = 8 then W8 m c (Proc.devRef .tc r) else W9 m c (Proc.devRef .tc r)

theorem V8_eq (c : Dev nD) : Gen.V8 m (outs m) c = W8 m c := by
  show Function.update (Gen.V7 m c) main_v8 (outs m 8 main_v8 c) = _
  have : outs m 8 main_v8 c = out8 m c := by
    unfold outs; rw [if_pos rfl]; exact Function.update_self ..
  rw [this]
theorem V9_eq (c : Dev nD) : Gen.V9 m (outs m) c = W9 m c := by
  show Function.update (Gen.V8 m (outs m) c) main_v9 (outs m 9 main_v9 c) = _
  have : outs m 9 main_v9 c = out9 m c := by
    unfold outs; rw [if_neg (by decide)]; exact Function.update_self ..
  rw [this, V8_eq]
theorem V10_eq (c : Dev nD) : Gen.V10 m (outs m) c = W10 m c := by
  show StableHlo.after hostOps2 (Gen.V9 m (outs m) c) = _
  rw [V9_eq]

theorem W8_v8 (c : Dev nD) : W8 m c (Proc.devRef .tc main_v8) = out8 m c := Function.update_self ..
theorem W8_of_ne (c : Dev nD) (b : Ref sig .tc) (hb : b ≠ main_v8) :
    W8 m c (Proc.devRef .tc b) = W7 m c (Proc.devRef .tc b) :=
  Function.update_of_ne (StableHlo.devRef_ne_of_ne hb) ..
theorem W9_v9 (c : Dev nD) : W9 m c (Proc.devRef .tc main_v9) = out9 m c := Function.update_self ..
theorem W9_of_ne (c : Dev nD) (b : Ref sig .tc) (hb : b ≠ main_v9) :
    W9 m c (Proc.devRef .tc b) = W8 m c (Proc.devRef .tc b) :=
  Function.update_of_ne (StableHlo.devRef_ne_of_ne hb) ..

end Cert.Kernel.Hand

end
-- ==== Proof.KBody0.lean ====
/-
  Call 0's body at every block of the vocabulary: it clears the accumulator at the first block, adds the
  block's one-hot-times-weights product at every block, and at the last block stores the gate arithmetic
  into the output window.  Three cases by the block's position; in each the body's loads find the operand
  blocks, the accumulator is handed over at what the block before left, and comes back at `acc0` of this
  block.
-/
import proofs.«408627_j69286412419116_1_alg».proof.Proof.KData
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

/-! ## Where a block stands in the walk over the vocabulary -/

/-- The body's first test, as it computes it from the block number: is this the first block? -/
private abbrev atFirst (i : grid0.Coords) : Prop :=
  Scalar.cmpi .ne (Scalar.extui (Scalar.cmpi .eq (BitVec.ofNat 32 (i 0).val) 0#32)) 0#32 = 1#1

/-- The body's second test: is this the last block? -/
private abbrev atLast (i : grid0.Coords) : Prop := k0_cond2 i = 1#1

/-- The first test holds at block 0 and nowhere else. -/
private theorem atFirst_iff : ∀ t : Fin cfg0.N, atFirst (grid0.coords t) ↔ t.val = 0 :=
  (by decide +kernel : ∀ t : Fin grid0.N, atFirst (grid0.coords t) ↔ t.val = 0)

/-- The second test holds at block 22 and nowhere else. -/
private theorem atLast_iff : ∀ t : Fin cfg0.N, atLast (grid0.coords t) ↔ t.val = 22 :=
  (by decide +kernel : ∀ t : Fin grid0.N, atLast (grid0.coords t) ↔ t.val = 22)

/-- Before the last block the new hidden state is not yet computed: its window is idle, -/
private theorem hidden_idle : ∀ t : Fin cfg0.N, ¬atLast (grid0.coords t) → cfg0.idle 6 (grid0.coords t) = true := by
  decide +kernel
/-- and nothing of it is written back. -/
private theorem hidden_kept : ∀ t : Fin cfg0.N, ¬atLast (grid0.coords t) → (cfg0.win 6).flush t = false := by
  decide +kernel
/-- At the last block it is live. -/
private theorem hidden_live : ∀ t : Fin cfg0.N, atLast (grid0.coords t) → cfg0.idle 6 (grid0.coords t) = false := by
  decide +kernel

variable (V : Entry F)

/-! ## What the body finds in the operand windows -/

/-- The proof data's arrays are the arrays as the region finds them. -/
private theorem arr0 (c : Dev nD) (w : Fin cfg0.W) : (dat0 V c).A w = V c (Pipeline.arrRef spec0 w) := by
  dsimp only [dat0]

/-- What the body leaves in each window's buffer: an operand window's block, untouched; the output window's gate
    arithmetic. -/
private theorem after0_ids (c : Dev nD) (t : Fin cfg0.N) : (dat0 V c).after 0 t = iblk0 V c 0 t := by dsimp only [dat0]
private theorem after0_wih (c : Dev nD) (t : Fin cfg0.N) : (dat0 V c).after 1 t = iblk0 V c 1 t := by dsimp only [dat0]
private theorem after0_bih (c : Dev nD) (t : Fin cfg0.N) : (dat0 V c).after 2 t = iblk0 V c 2 t := by dsimp only [dat0]
private theorem after0_hprev (c : Dev nD) (t : Fin cfg0.N) : (dat0 V c).after 3 t = iblk0 V c 3 t := by dsimp only [dat0]
private theorem after0_whh (c : Dev nD) (t : Fin cfg0.N) : (dat0 V c).after 4 t = iblk0 V c 4 t := by dsimp only [dat0]
private theorem after0_bhh (c : Dev nD) (t : Fin cfg0.N) : (dat0 V c).after 5 t = iblk0 V c 5 t := by dsimp only [dat0]
private theorem after0_hid (c : Dev nD) (t : Fin cfg0.N) : (dat0 V c).after 6 t = hid0 V c t := by dsimp only [dat0]

/-- The item ids' buffer holds their block at every block of the walk (fetched once, never moved). -/
private theorem found_ids (c : Dev nD) (t : Fin cfg0.N) (d) : (dat0 V c).before 0 t d = iblk0 V c 0 t :=
  ((dat0 V c).before_in_eq_fetched 0 rfl (fun _ => rfl) (fun _ _ _ => rfl)
    (fun t => by rw [after0_ids]; unfold Dat.blockOf iblk0; rw [arr0]; try rfl) t d).trans
    (by unfold Dat.fetched Dat.blockOf iblk0; rw [arr0]; try rfl)

/-- The input-to-hidden weights' buffer holds the block of the current 2176 columns. -/
private theorem found_wih (c : Dev nD) (t : Fin cfg0.N) (d) : (dat0 V c).before 1 t d = iblk0 V c 1 t :=
  ((dat0 V c).before_in_eq_fetched 1 rfl (fun _ => rfl) (fun _ _ _ => rfl)
    (fun t => by rw [after0_wih]; unfold Dat.blockOf iblk0; rw [arr0]; try rfl) t d).trans
    (by unfold Dat.fetched Dat.blockOf iblk0; rw [arr0]; try rfl)

/-- The input-side bias row, -/
private theorem found_bih (c : Dev nD) (t : Fin cfg0.N) (d) : (dat0 V c).before 2 t d = iblk0 V c 2 t :=
  ((dat0 V c).before_in_eq_fetched 2 rfl (fun _ => rfl) (fun _ _ _ => rfl)
    (fun t => by rw [after0_bih]; unfold Dat.blockOf iblk0; rw [arr0]; try rfl) t d).trans
    (by unfold Dat.fetched Dat.blockOf iblk0; rw [arr0]; try rfl)

/-- the previous hidden state, -/
private theorem found_hprev (c : Dev nD) (t : Fin cfg0.N) (d) : (dat0 V c).before 3 t d = iblk0 V c 3 t :=
  ((dat0 V c).before_in_eq_fetched 3 rfl (fun _ => rfl) (fun _ _ _ => rfl)
    (fun t => by rw [after0_hprev]; unfold Dat.blockOf iblk0; rw [arr0]; try rfl) t d).trans
    (by unfold Dat.fetched Dat.blockOf iblk0; rw [arr0]; try rfl)

/-- the hidden-to-hidden weights -/
private theorem found_whh (c : Dev nD) (t : Fin cfg0.N) (d) : (dat0 V c).before 4 t d = iblk0 V c 4 t :=
  ((dat0 V c).before_in_eq_fetched 4 rfl (fun _ => rfl) (fun _ _ _ => rfl)
    (fun t => by rw [after0_whh]; unfold Dat.blockOf iblk0; rw [arr0]; try rfl) t d).trans
    (by unfold Dat.fetched Dat.blockOf iblk0; rw [arr0]; try rfl)

/-- and the hidden-side bias row are each one block, fetched at the first block and found in place at every later one. -/
private theorem found_bhh (c : Dev nD) (t : Fin cfg0.N) (d) : (dat0 V c).before 5 t d = iblk0 V c 5 t :=
  ((dat0 V c).before_in_eq_fetched 5 rfl (fun _ => rfl) (fun _ _ _ => rfl)
    (fun t => by rw [after0_bhh]; unfold Dat.blockOf iblk0; rw [arr0]; try rfl) t d).trans
    (by unfold Dat.fetched Dat.blockOf iblk0; rw [arr0]; try rfl)

/-! ## The invariant, block by block -/

/-- Before the first block the accumulator holds anything. -/
private theorem inv0_zero (c : Dev nD) (n : ℕ) (h : n ≤ cfg0.N) (hz : n = 0) :
    inv0 V c n h = iprop((∃ d, owns (c : Thread nD τ) scr0 fullShare d) ∗ others0 (F := F) c ∗ (∃ r, prngReg c r)) := by
  subst hz; rfl

/-- After block `n` it holds `acc0 n`. -/
private theorem inv0_succ (c : Dev nD) (n : ℕ) (h : n < cfg0.N) :
    inv0 V c (n + 1) h = iprop(owns (c : Thread nD τ) scr0 fullShare (acc0 V c n h) ∗ others0 (F := F) c ∗ (∃ r, prngReg c r)) := rfl

/-- Before a block that is not the first it holds what the block before left. -/
private theorem inv0_pos (c : Dev nD) (n : ℕ) (h : n ≤ cfg0.N) (hz : n ≠ 0) :
    inv0 V c n h = iprop(owns (c : Thread nD τ) scr0 fullShare (acc0 V c (n - 1) (by omega)) ∗ others0 (F := F) c ∗ (∃ r, prngReg c r)) := by
  cases n with
  | zero => exact absurd rfl hz
  | succ n => rfl

/-- The invariant at a block's start, at the block's number. -/
private theorem inv0_at (c : Dev nD) (t : Fin cfg0.N) :
    (dat0 V c).Φ t.castSucc = inv0 V c t.val (Nat.le_of_lt t.isLt) := by
  dsimp only [dat0]; simp only [Fin.coe_castSucc]

/-- The accumulator's recursion at a block after the first. -/
private theorem acc0_pos (c : Dev nD) (t : Fin cfg0.N) (hz : t.val ≠ 0) :
    acc0 V c t.val t.isLt = k0_pay2 (grid0.coords t) (iblk0 V c 0 t) (iblk0 V c 1 t) (acc0 V c (t.val - 1) (by omega)) := by
  obtain ⟨n, hn⟩ := t
  cases n with
  | zero => exact absurd rfl hz
  | succ n => rfl

/-- At the first block it is the block's product added to the cleared buffer. -/
private theorem acc0_first (c : Dev nD) (t : Fin cfg0.N) (hz : t.val = 0) :
    acc0 V c t.val t.isLt = k0_pay2 (grid0.coords t) (iblk0 V c 0 t) (iblk0 V c 1 t) (k0_pay1 (F := F)) := by
  obtain ⟨n, hn⟩ := t
  cases n with
  | zero => rfl
  | succ n => exact absurd hz (Nat.succ_ne_zero n)

/-- The region's plain invariant with the accumulator as a memref owned at some contents. -/
private theorem plain0_eq (c : Dev nD) :
    (Pipeline.ΦA spec0 c : sProp 𝕄)
      = iprop(((∃ d, owns (c : Thread nD τ) scr0 fullShare d) ∗ others0 (F := F) c) ∗ (∃ r, prngReg c r)) := by
  unfold Pipeline.ΦA others0; rw [scopedRest0_eq]; simp only [scr0, owns_whole]; try rfl

/-! ## Whole-buffer loads and stores

Every access of the body is through the rectangle of the buffer's own sizes at the origin: a load through it reads the
contents, and a store through it, made last, leaves its payload whatever was stored before. -/

/-- The origin of a matrix. -/
private theorem origin2 : (![0, 0] : Fin 2 → ℕ) = fun _ => 0 := by
  funext a; fin_cases a <;> rfl

/-- A buffer whose last store was of the whole buffer reads as that store's payload. -/
private theorem read_whole_store {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-! ## The body at a block, in three positions -/

set_option maxHeartbeats 4000000 in
/-- A block strictly between the first and the last: the accumulator, handed over at `acc`, comes back with the
    block's product added; the ids and the weights' block are only read. -/
private theorem sound_mid (c : Dev nD) (E : Set ℕ) (i : grid0.Coords) (arg1 : Memref sig .tc .vmem S512x1 .i32) (harg1 : arg1.IsWhole) (arg2 : Memref sig .tc .vmem S768x2176 .f32) (harg2 : arg2.IsWhole) (arg3 : Memref sig .tc .vmem S1x768 .f32) (harg3 : arg3.IsWhole) (arg4 : Memref sig .tc .vmem S512x256 .f32) (harg4 : arg4.IsWhole) (arg5 : Memref sig .tc .vmem S768x256 .f32) (harg5 : arg5.IsWhole) (arg6 : Memref sig .tc .vmem S1x768 .f32) (harg6 : arg6.IsWhole) (arg7 : Memref sig .tc .vmem S512x256 .f32) (harg7 : arg7.IsWhole) (arg8 : Memref sig .tc .vmem S512x768 .f32) (harg8 : arg8.IsWhole)
    (hfirst : ¬atFirst i) (hlast : ¬atLast i)
    (ids : Vec F S512x1 .i32) (wih : Vec F S768x2176 .f32) (acc : Vec F S512x768 .f32) (K : PUnit → sProp 𝕄) :
    iprop(owns (c : Thread nD τ) arg1 fullShare ids ∗ owns (c : Thread nD τ) arg2 fullShare wih ∗ owns (c : Thread nD τ) arg8 fullShare acc
        ∗ (iprop(owns (c : Thread nD τ) arg1 fullShare ids ∗ owns (c : Thread nD τ) arg2 fullShare wih
            ∗ owns (c : Thread nD τ) arg8 fullShare (k0_pay2 i ids wih acc)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  unfold owns
  iintro ⟨⟨%f1, %hf1, H1⟩, ⟨%f2, %hf2, H2⟩, ⟨%f8, %hf8, H8⟩, Hk⟩
  subst hf1; subst hf2; subst hf8
  sl_exec (disch := first | exact hfirst | exact hlast)
  sl_step
  iapply Hk
  isplitl [H1]
  · iexists f1; isplitr; · ipureintro; rfl
    iexact H1
  isplitl [H2]
  · iexists f2; isplitr; · ipureintro; rfl
    iexact H2
  iexists _; isplitr
  swap; · iexact H8
  ipureintro
  rw [read_whole_store arg8.view f8 origin2 inb_S512x768_S512x768_0_0 _ []]
  simp only [View.readAt_eq_ld, View.ld_unit_zero (S := S512x1) origin2, View.ld_unit_zero (S := S768x2176) origin2, View.ld_unit_zero (S := S512x768) origin2]

set_option maxHeartbeats 4000000 in
/-- The first block: whatever the accumulator held, it is cleared, and comes back at the block's product added to
    the cleared buffer. -/
private theorem sound_first (c : Dev nD) (E : Set ℕ) (i : grid0.Coords) (arg1 : Memref sig .tc .vmem S512x1 .i32) (harg1 : arg1.IsWhole) (arg2 : Memref sig .tc .vmem S768x2176 .f32) (harg2 : arg2.IsWhole) (arg3 : Memref sig .tc .vmem S1x768 .f32) (harg3 : arg3.IsWhole) (arg4 : Memref sig .tc .vmem S512x256 .f32) (harg4 : arg4.IsWhole) (arg5 : Memref sig .tc .vmem S768x256 .f32) (harg5 : arg5.IsWhole) (arg6 : Memref sig .tc .vmem S1x768 .f32) (harg6 : arg6.IsWhole) (arg7 : Memref sig .tc .vmem S512x256 .f32) (harg7 : arg7.IsWhole) (arg8 : Memref sig .tc .vmem S512x768 .f32) (harg8 : arg8.IsWhole)
    (hfirst : atFirst i) (hlast : ¬atLast i)
    (ids : Vec F S512x1 .i32) (wih : Vec F S768x2176 .f32) (K : PUnit → sProp 𝕄) :
    iprop(owns (c : Thread nD τ) arg1 fullShare ids ∗ owns (c : Thread nD τ) arg2 fullShare wih ∗ (∃ d, owns (c : Thread nD τ) arg8 fullShare d)
        ∗ (iprop(owns (c : Thread nD τ) arg1 fullShare ids ∗ owns (c : Thread nD τ) arg2 fullShare wih
            ∗ owns (c : Thread nD τ) arg8 fullShare (k0_pay2 i ids wih (k0_pay1 (F := F)))) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  unfold owns
  iintro ⟨⟨%f1, %hf1, H1⟩, ⟨%f2, %hf2, H2⟩, ⟨%d8, %f8, -, H8⟩, Hk⟩
  subst hf1; subst hf2
  sl_exec (disch := first | exact hfirst | exact hlast)
  sl_step
  iapply Hk
  isplitl [H1]
  · iexists f1; isplitr; · ipureintro; rfl
    iexact H1
  isplitl [H2]
  · iexists f2; isplitr; · ipureintro; rfl
    iexact H2
  iexists _; isplitr
  swap; · iexact H8
  ipureintro
  sl_unfold_words
  rw [read_whole_store arg8.view f8 origin2 inb_S512x768_S512x768_0_0 _ _]
  simp only [View.readAt_eq_ld, View.readCov_unit_zero (S := S512x768) _ origin2, View.ld_unit_zero (S := S512x1) origin2, View.ld_unit_zero (S := S768x2176) origin2, View.ld_unit_zero (S := S512x768) origin2]

set_option maxHeartbeats 4000000 in
/-- The last block: the accumulator comes back with the block's product added, and the new hidden state — the gate
    arithmetic over that sum and the four small operands — is stored over whatever the output window's buffer held. -/
private theorem sound_last (c : Dev nD) (E : Set ℕ) (i : grid0.Coords) (arg1 : Memref sig .tc .vmem S512x1 .i32) (harg1 : arg1.IsWhole) (arg2 : Memref sig .tc .vmem S768x2176 .f32) (harg2 : arg2.IsWhole) (arg3 : Memref sig .tc .vmem S1x768 .f32) (harg3 : arg3.IsWhole) (arg4 : Memref sig .tc .vmem S512x256 .f32) (harg4 : arg4.IsWhole) (arg5 : Memref sig .tc .vmem S768x256 .f32) (harg5 : arg5.IsWhole) (arg6 : Memref sig .tc .vmem S1x768 .f32) (harg6 : arg6.IsWhole) (arg7 : Memref sig .tc .vmem S512x256 .f32) (harg7 : arg7.IsWhole) (arg8 : Memref sig .tc .vmem S512x768 .f32) (harg8 : arg8.IsWhole)
    (hfirst : ¬atFirst i) (hlast : atLast i)
    (ids : Vec F S512x1 .i32) (wih : Vec F S768x2176 .f32) (bih : Vec F S1x768 .f32) (hprev : Vec F S512x256 .f32)
    (whh : Vec F S768x256 .f32) (bhh : Vec F S1x768 .f32) (acc : Vec F S512x768 .f32) (K : PUnit → sProp 𝕄) :
    iprop(owns (c : Thread nD τ) arg1 fullShare ids ∗ owns (c : Thread nD τ) arg2 fullShare wih
        ∗ owns (c : Thread nD τ) arg3 fullShare bih ∗ owns (c : Thread nD τ) arg4 fullShare hprev
        ∗ owns (c : Thread nD τ) arg5 fullShare whh ∗ owns (c : Thread nD τ) arg6 fullShare bhh
        ∗ (∃ d, owns (c : Thread nD τ) arg7 fullShare d) ∗ owns (c : Thread nD τ) arg8 fullShare acc
        ∗ (iprop(owns (c : Thread nD τ) arg1 fullShare ids ∗ owns (c : Thread nD τ) arg2 fullShare wih
            ∗ owns (c : Thread nD τ) arg3 fullShare bih ∗ owns (c : Thread nD τ) arg4 fullShare hprev
            ∗ owns (c : Thread nD τ) arg5 fullShare whh ∗ owns (c : Thread nD τ) arg6 fullShare bhh
            ∗ owns (c : Thread nD τ) arg7 fullShare (k0_pay3 (k0_pay2 i ids wih acc) bih hprev whh bhh)
            ∗ owns (c : Thread nD τ) arg8 fullShare (k0_pay2 i ids wih acc)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1; subst hf2; subst hf3; subst hf4; subst hf5; subst hf6; subst hf8
  sl_exec (disch := first | exact hfirst | exact hlast)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_whole_store arg7.view f7 origin2 inb_S512x256_S512x256_0_0 _ []]
    simp only [View.readAt_eq_ld, View.readCov_unit_zero (S := S512x768) _ origin2, View.ld_unit_zero (S := S512x1) origin2, View.ld_unit_zero (S := S768x2176) origin2, View.ld_unit_zero (S := S512x768) origin2, View.ld_unit_zero (S := S1x768) origin2, View.ld_unit_zero (S := S512x256) origin2, View.ld_unit_zero (S := S768x256) origin2]
  iexists _; isplitr
  swap; · iexact H8
  ipureintro
  sl_unfold_words
  rw [read_whole_store arg8.view f8 origin2 inb_S512x768_S512x768_0_0 _ []]
  simp only [View.readAt_eq_ld, View.ld_unit_zero (S := S512x1) origin2, View.ld_unit_zero (S := S768x2176) origin2, View.ld_unit_zero (S := S512x768) origin2]

/-! ## The body at a block of the walk -/

/-- The current buffer of each window at block `t`, as the pipeline passes it to the body, and its wholeness. -/
private abbrev buf_ids (t : Fin cfg0.N) : Memref sig .tc .vmem S512x1 .i32 := win0_0.stage (cfg0.slots t 0)
private abbrev whole_ids (t : Fin cfg0.N) : (buf_ids t).IsWhole := hstage0_0 ((cfg0.slots t 0).cast nbuf0_0)
private abbrev buf_wih (t : Fin cfg0.N) : Memref sig .tc .vmem S768x2176 .f32 := win0_1.stage (cfg0.slots t 1)
private abbrev whole_wih (t : Fin cfg0.N) : (buf_wih t).IsWhole := hstage0_1 ((cfg0.slots t 1).cast nbuf0_1)
private abbrev buf_bih (t : Fin cfg0.N) : Memref sig .tc .vmem S1x768 .f32 := win0_2.stage (cfg0.slots t 2)
private abbrev whole_bih (t : Fin cfg0.N) : (buf_bih t).IsWhole := hstage0_2 ((cfg0.slots t 2).cast nbuf0_2)
private abbrev buf_hprev (t : Fin cfg0.N) : Memref sig .tc .vmem S512x256 .f32 := win0_3.stage (cfg0.slots t 3)
private abbrev whole_hprev (t : Fin cfg0.N) : (buf_hprev t).IsWhole := hstage0_3 ((cfg0.slots t 3).cast nbuf0_3)
private abbrev buf_whh (t : Fin cfg0.N) : Memref sig .tc .vmem S768x256 .f32 := win0_4.stage (cfg0.slots t 4)
private abbrev whole_whh (t : Fin cfg0.N) : (buf_whh t).IsWhole := hstage0_4 ((cfg0.slots t 4).cast nbuf0_4)
private abbrev buf_bhh (t : Fin cfg0.N) : Memref sig .tc .vmem S1x768 .f32 := win0_5.stage (cfg0.slots t 5)
private abbrev whole_bhh (t : Fin cfg0.N) : (buf_bhh t).IsWhole := hstage0_5 ((cfg0.slots t 5).cast nbuf0_5)
private abbrev buf_hid (t : Fin cfg0.N) : Memref sig .tc .vmem S512x256 .f32 := win0_6.stage (cfg0.slots t 6)
private abbrev whole_hid (t : Fin cfg0.N) : (buf_hid t).IsWhole := hstage0_6 ((cfg0.slots t 6).cast nbuf0_6)

/-- After the body an operand window's buffer is at its block (operand windows are never idle). -/
private theorem leaves_ids (c : Dev nD) (t : Fin cfg0.N) :
    (dat0 V c).leavesExact 0 t = owns (c : Thread nD τ) (buf_ids t) fullShare (iblk0 V c 0 t) := by
  unfold Dat.leavesExact; rw [show cfg0.idle 0 (cfg0.grid.coords t) = false from rfl, after0_ids]
private theorem leaves_wih (c : Dev nD) (t : Fin cfg0.N) :
    (dat0 V c).leavesExact 1 t = owns (c : Thread nD τ) (buf_wih t) fullShare (iblk0 V c 1 t) := by
  unfold Dat.leavesExact; rw [show cfg0.idle 1 (cfg0.grid.coords t) = false from rfl, after0_wih]
private theorem leaves_bih (c : Dev nD) (t : Fin cfg0.N) :
    (dat0 V c).leavesExact 2 t = owns (c : Thread nD τ) (buf_bih t) fullShare (iblk0 V c 2 t) := by
  unfold Dat.leavesExact; rw [show cfg0.idle 2 (cfg0.grid.coords t) = false from rfl, after0_bih]
private theorem leaves_hprev (c : Dev nD) (t : Fin cfg0.N) :
    (dat0 V c).leavesExact 3 t = owns (c : Thread nD τ) (buf_hprev t) fullShare (iblk0 V c 3 t) := by
  unfold Dat.leavesExact; rw [show cfg0.idle 3 (cfg0.grid.coords t) = false from rfl, after0_hprev]
private theorem leaves_whh (c : Dev nD) (t : Fin cfg0.N) :
    (dat0 V c).leavesExact 4 t = owns (c : Thread nD τ) (buf_whh t) fullShare (iblk0 V c 4 t) := by
  unfold Dat.leavesExact; rw [show cfg0.idle 4 (cfg0.grid.coords t) = false from rfl, after0_whh]
private theorem leaves_bhh (c : Dev nD) (t : Fin cfg0.N) :
    (dat0 V c).leavesExact 5 t = owns (c : Thread nD τ) (buf_bhh t) fullShare (iblk0 V c 5 t) := by
  unfold Dat.leavesExact; rw [show cfg0.idle 5 (cfg0.grid.coords t) = false from rfl, after0_bhh]

/-- At the last block the output window's buffer is at the new hidden state. -/
private theorem leaves_hid_last (c : Dev nD) (t : Fin cfg0.N) (hL : atLast (grid0.coords t)) :
    (dat0 V c).leavesExact 6 t = owns (c : Thread nD τ) (buf_hid t) fullShare (hid0 V c t) := by
  unfold Dat.leavesExact; rw [hidden_live t hL, after0_hid]

/-- What the body is handed at block `t`: the invariant, what the core owes, and every window's current buffer. -/
private def handed0 (c : Dev nD) (t : Fin cfg0.N) : sProp 𝕄 :=
  iprop((dat0 V c).Φ t.castSucc ∗ (dat0 V c).owesAt () t.castSucc
    ∗ (∃ d, owns (c : Thread nD τ) (buf_ids t) fullShare ((dat0 V c).before 0 t d))
    ∗ (∃ d, owns (c : Thread nD τ) (buf_wih t) fullShare ((dat0 V c).before 1 t d))
    ∗ (∃ d, owns (c : Thread nD τ) (buf_bih t) fullShare ((dat0 V c).before 2 t d))
    ∗ (∃ d, owns (c : Thread nD τ) (buf_hprev t) fullShare ((dat0 V c).before 3 t d))
    ∗ (∃ d, owns (c : Thread nD τ) (buf_whh t) fullShare ((dat0 V c).before 4 t d))
    ∗ (∃ d, owns (c : Thread nD τ) (buf_bhh t) fullShare ((dat0 V c).before 5 t d))
    ∗ (∃ d, owns (c : Thread nD τ) (buf_hid t) fullShare ((dat0 V c).before 6 t d)))

/-- What it gives back. -/
private def returned0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any block. The operand windows' buffers hold their blocks; the block's position selects the case.
    At the first block the accumulator is handed over at anything and comes back at `acc0 0`; afterwards it is handed
    over at `acc0 (t - 1)` and comes back at `acc0 t` by the recursion's step; at the last block the output window's
    buffer comes back at the gate arithmetic over `acc0 t`, elsewhere it is handed back untouched. The other scoped
    buffers, the generator register and what the core owes ride along. -/
private theorem sound_body (c : Dev nD) (t : Fin cfg0.N) :
    handed0 V c t ⊢ wp frame (wpE (defs₀ (F := F)) Variants.none c none) Set.univ (bodyAt0 t) (fun _ => returned0 V c t) := by
  unfold handed0 returned0 bodyAt0
  simp only [found_ids, found_wih, found_bih, found_hprev, found_whh, found_bhh]
  rw [show (dat0 V c).owesAt () t.succ = (dat0 V c).owesAt () t.castSucc from rfl]
  rw [show (dat0 V c).Φ t.succ = inv0 V c (t.val + 1) t.isLt from rfl, inv0_succ, inv0_at V c t]
  rw [leaves_ids, leaves_wih, leaves_bih, leaves_hprev, leaves_whh, leaves_bhh]
  have hN : t.val < 23 := lt_of_lt_of_eq t.isLt (show cfg0.N = 23 from N_0)
  by_cases hz : t.val = 0
  · have hF : atFirst (grid0.coords t) := (atFirst_iff t).mpr hz
    have hL : ¬atLast (grid0.coords t) := fun h => by have := (atLast_iff t).mp h; omega
    rw [Dat.leavesExact_idle (dat0 V c) 6 t (hidden_idle t hL) (hidden_kept t hL)]
    rw [inv0_zero V c _ _ hz, acc0_first V c t hz]
    iintro ⟨⟨HS, Hoth, Hg⟩, Ho, ⟨%d0, H0⟩, ⟨%d1, H1⟩, ⟨%d2, H2⟩, ⟨%d3, H3⟩, ⟨%d4, H4⟩, ⟨%d5, H5⟩, H6⟩
    iapply (sound_first c Set.univ (grid0.coords t) (buf_ids t) (whole_ids t) (buf_wih t) (whole_wih t) (buf_bih t) (whole_bih t) (buf_hprev t) (whole_hprev t) (buf_whh t) (whole_whh t) (buf_bhh t) (whole_bhh t) (buf_hid t) (whole_hid t) scr0 (Memref.isWhole_whole _) hF hL (iblk0 V c 0 t) (iblk0 V c 1 t) _)
    isplitl [H0]; · iexact H0
    isplitl [H1]; · iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hF : ¬atFirst (grid0.coords t) := fun h => hz ((atFirst_iff t).mp h)
    rw [inv0_pos V c _ _ hz, acc0_pos V c t hz]
    by_cases hl : t.val = 22
    · have hL : atLast (grid0.coords t) := (atLast_iff t).mpr hl
      rw [leaves_hid_last V c t hL]
      unfold hid0
      rw [acc0_pos V c t hz]
      iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
      iapply (sound_last c Set.univ (grid0.coords t) (buf_ids t) (whole_ids t) (buf_wih t) (whole_wih t) (buf_bih t) (whole_bih t) (buf_hprev t) (whole_hprev t) (buf_whh t) (whole_whh t) (buf_bhh t) (whole_bhh t) (buf_hid t) (whole_hid t) scr0 (Memref.isWhole_whole _) hF hL (iblk0 V c 0 t) (iblk0 V c 1 t) (iblk0 V c 2 t) (iblk0 V c 3 t) (iblk0 V c 4 t) (iblk0 V c 5 t) (acc0 V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hL : ¬atLast (grid0.coords t) := fun h => hl ((atLast_iff t).mp h)
      rw [Dat.leavesExact_idle (dat0 V c) 6 t (hidden_idle t hL) (hidden_kept t hL)]
      iintro ⟨⟨HS, Hoth, Hg⟩, Ho, ⟨%d0, H0⟩, ⟨%d1, H1⟩, ⟨%d2, H2⟩, ⟨%d3, H3⟩, ⟨%d4, H4⟩, ⟨%d5, H5⟩, H6⟩
      iapply (sound_mid c Set.univ (grid0.coords t) (buf_ids t) (whole_ids t) (buf_wih t) (whole_wih t) (buf_bih t) (whole_bih t) (buf_hprev t) (whole_hprev t) (buf_whh t) (whole_whh t) (buf_bhh t) (whole_bhh t) (buf_hid t) (whole_hid t) scr0 (Memref.isWhole_whole _) hF hL (iblk0 V c 0 t) (iblk0 V c 1 t) (acc0 V c (t.val - 1) (by omega)) _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

end

/-- Before the first block the region's plain invariant (every scoped buffer that is no staging buffer of call 0
    at some contents, the generator register at some state) is the tracked one: the accumulator holds anything. -/
theorem hin0 (V : Entry F) (c : Dev nD) : (Pipeline.ΦA spec0 c : sProp 𝕄) ⊢ (dat0 V c).Φ 0 := by
  rw [show (dat0 V c).Φ 0 = inv0 V c 0 (Nat.zero_le _) from rfl, inv0_zero V c 0 _ rfl, plain0_eq]
  iintro ⟨⟨Hs, Ho⟩, Hg⟩
  isplitl [Hs]; · iexact Hs
  isplitl [Ho]; · iexact Ho
  iexact Hg

/-- After the last block the tracked invariant gives the plain one back: the accumulator's contents are forgotten. -/
theorem hout0 (V : Entry F) (c : Dev nD) : (dat0 V c).Φ (Fin.last cfg0.N) ⊢ (Pipeline.ΦA spec0 c : sProp 𝕄) := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 23 := N_0; omega), plain0_eq]
  iintro ⟨Hs, Ho, Hg⟩
  isplitl [Hs Ho]
  · isplitl [Hs]
    · iexists _; iexact Hs
    iexact Ho
  iexact Hg

/-- The body obligation of call 0, at every block. -/
theorem body_obligation0 (V : Entry F) (c : Dev nD) :
    BodyObligation (dat0 (F := F) V c) (defs₀ (F := F)) Variants.none () Set.univ := fun t => by
  rw [bigSep_W0, bigSep_W0]
  exact sound_body V c t

end Cert.Kernel.Hand

end
-- ==== Proof.KBody1.lean ====
/-
  Call 1's body at every block of output columns: it loads the hidden state, the block of output weights
  and the bias block, and stores tanh of their product plus bias over the whole output block.
-/
import proofs.«408627_j69286412419116_1_alg».proof.Proof.KData
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The proof data, field by field -/

/-- The array each window of call 1 is cut from is the entry contents of its reference. -/
private theorem arr1 (V : Entry F) (c : Dev nD) (w : Fin cfg1.W) :
    (dat1 V c).A w = V c (Pipeline.arrRef spec1 w) := by
  dsimp only [dat1]

/-- The body leaves the hidden state's buffer at the hidden state, -/
private theorem left1_hid (V : Entry F) (c : Dev nD) (t : Fin cfg1.N) :
    (dat1 V c).after 0 t = iblk1 V c 0 t := by dsimp only [dat1]
/-- the weight block's buffer at the weight block, -/
private theorem left1_wts (V : Entry F) (c : Dev nD) (t : Fin cfg1.N) :
    (dat1 V c).after 1 t = iblk1 V c 1 t := by dsimp only [dat1]
/-- the bias block's buffer at the bias block, -/
private theorem left1_bias (V : Entry F) (c : Dev nD) (t : Fin cfg1.N) :
    (dat1 V c).after 2 t = iblk1 V c 2 t := by dsimp only [dat1]
/-- and the output block's buffer at tanh of product plus bias. -/
private theorem left1_out (V : Entry F) (c : Dev nD) (t : Fin cfg1.N) :
    (dat1 V c).after 3 t = logit1 V c t := by dsimp only [dat1]

/-! ## What the input buffers hold when the body is called

An input window's buffer holds the block of its current index whether or not the block was fetched at this
very point: the hidden state is fetched once, at the first block, and its index never moves; the weight and
bias blocks are fetched at every point.  The body leaves all three in place, so the buffer is what a fetch
at the point would have put there, the window's block. -/

private theorem held1_hid (V : Entry F) (c : Dev nD) (t : Fin cfg1.N) (d) :
    (dat1 V c).before 0 t d = iblk1 V c 0 t :=
  ((dat1 V c).before_in_eq_fetched 0 rfl (fun _ => rfl) (fun _ _ _ => rfl)
      (fun s => by rw [left1_hid]; unfold Dat.blockOf iblk1; rw [arr1]; try rfl) t d).trans
    (by unfold Dat.fetched Dat.blockOf iblk1; rw [arr1]; try rfl)

private theorem held1_wts (V : Entry F) (c : Dev nD) (t : Fin cfg1.N) (d) :
    (dat1 V c).before 1 t d = iblk1 V c 1 t :=
  ((dat1 V c).before_in_eq_fetched 1 rfl (fun _ => rfl) (fun _ _ _ => rfl)
      (fun s => by rw [left1_wts]; unfold Dat.blockOf iblk1; rw [arr1]; try rfl) t d).trans
    (by unfold Dat.fetched Dat.blockOf iblk1; rw [arr1]; try rfl)

private theorem held1_bias (V : Entry F) (c : Dev nD) (t : Fin cfg1.N) (d) :
    (dat1 V c).before 2 t d = iblk1 V c 2 t :=
  ((dat1 V c).before_in_eq_fetched 2 rfl (fun _ => rfl) (fun _ _ _ => rfl)
      (fun s => by rw [left1_bias]; unfold Dat.blockOf iblk1; rw [arr1]; try rfl) t d).trans
    (by unfold Dat.fetched Dat.blockOf iblk1; rw [arr1]; try rfl)

/-! ## The kernel on whole buffers -/

/-- The origin of a two-axis shape, however its zeros are spelt. -/
private theorem origin2 : (![0, 0] : Fin 2 → Nat) = fun _ => 0 := funext fun a => by fin_cases a <;> rfl

set_option maxHeartbeats 1000000 in
/-- On four whole buffers, the first three holding a hidden state `h`, a weight block `W` and a bias block `b`
    and the fourth anything, the kernel reads the three (and, idly, the fourth), and overwrites the whole fourth
    with tanh of `h · Wᵀ + b`; the three inputs are as they were. -/
private theorem logit_kernel_run (c : Dev nD) (E : Set ℕ) (i : grid1.Coords)
    (mh : Memref sig .tc .vmem S512x256 .f32) (hmh : mh.IsWhole)
    (mw : Memref sig .tc .vmem S2176x256 .f32) (hmw : mw.IsWhole)
    (mb : Memref sig .tc .vmem S1x2176 .f32) (hmb : mb.IsWhole)
    (mo : Memref sig .tc .vmem S512x2176 .f32) (hmo : mo.IsWhole)
    (h : Vec F S512x256 .f32) (W : Vec F S2176x256 .f32) (b : Vec F S1x2176 .f32) (K : PUnit → sProp 𝕄) :
    iprop(owns (c : Thread nD τ) mh fullShare h ∗ owns (c : Thread nD τ) mw fullShare W
        ∗ owns (c : Thread nD τ) mb fullShare b ∗ (∃ d, owns (c : Thread nD τ) mo fullShare d)
        ∗ (iprop(owns (c : Thread nD τ) mh fullShare h ∗ owns (c : Thread nD τ) mw fullShare W
            ∗ owns (c : Thread nD τ) mb fullShare b ∗ owns (c : Thread nD τ) mo fullShare (k1_pay1 h W b)) -∗ K ⟨⟩))
      ⊢ wp frame (wpE (defs₀ (F := F)) Variants.none c none) E (cc1__logit_kernel i mh hmh mw hmw mb hmb mo hmo) K := by
  simp only [cc1__logit_kernel_eq_skeleton]; unfold cc1__logit_kernel_skel
  unfold owns
  iintro ⟨⟨%fh, %efh, Hh⟩, ⟨%fw, %efw, Hw⟩, ⟨%fb, %efb, Hb⟩, ⟨%d, %fo, -, Ho⟩, Hk⟩
  subst efh efw efb
  sl_exec
  sl_step
  iapply Hk
  isplitl [Hh]
  · iexists fh; isplitr; · ipureintro; rfl
    iexact Hh
  isplitl [Hw]
  · iexists fw; isplitr; · ipureintro; rfl
    iexact Hw
  isplitl [Hb]
  · iexists fb; isplitr; · ipureintro; rfl
    iexact Hb
  iexists _; isplitr
  swap; · iexact Ho
  ipureintro
  -- the one store covers the output block, so the block reads back as the store's value; each of that value's
  -- three operands is a load of a whole input buffer, which reads the buffer's contents
  rw [View.read_writes_eq_canon _ _ _ (fun y => ⟨_, List.mem_singleton_self _, View.mem_set_unit_zero origin2 inb_S512x2176_S512x2176_0_0 y⟩),
    View.canon_unit_zero origin2]
  simp only [View.readAt_eq_ld, View.ld_unit_zero (S := S512x256) origin2, View.ld_unit_zero (S := S2176x256) origin2,
    View.ld_unit_zero (S := S1x2176) origin2]

/-! ## The body at a block -/

set_option maxHeartbeats 1000000 in
/-- At block `t` the three input buffers hold their blocks, so the kernel leaves the output buffer at
    `logit1 V c t`; the invariant and what the core owes are not read and are the same at the next block. -/
private theorem body1_at (V : Entry F) (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  unfold bodyAt1
  simp only [held1_hid, held1_wts, held1_bias]
  rw [show (dat1 V c).Φ t.succ = (dat1 V c).Φ t.castSucc from rfl,
    show (dat1 V c).owesAt () t.succ = (dat1 V c).owesAt () t.castSucc from rfl,
    left1_hid, left1_wts, left1_bias, left1_out]
  iintro ⟨Hinv, Howe, ⟨%dh, Hh⟩, ⟨%dw, Hw⟩, ⟨%db, Hb⟩, ⟨%dz, Ho⟩⟩
  iapply (logit_kernel_run c Set.univ _ _ _ _ _ _ _ _ _ (iblk1 V c 0 t) (iblk1 V c 1 t) (iblk1 V c 2 t) _)
  isplitl [Hh]; · iexact Hh
  isplitl [Hw]; · iexact Hw
  isplitl [Hb]; · iexact Hb
  isplitl [Ho]; · iexists _; iexact Ho
  iintro ⟨Hh, Hw, Hb, Ho⟩
  isplitl [Hinv]; · iexact Hinv
  isplitl [Howe]; · iexact Howe
  isplitl [Hh]; · iexact Hh
  isplitl [Hw]; · iexact Hw
  isplitl [Hb]; · iexact Hb
  unfold logit1
  iexact Ho

/-- The body obligation of call 1, at every block. -/
theorem body_obligation1 (V : Entry F) (c : Dev nD) :
    BodyObligation (dat1 (F := F) V c) (defs₀ (F := F)) Variants.none () Set.univ := fun t => by
  rw [bigSep_W1, bigSep_W1]
  exact body1_at V c t

end Cert.Kernel.Hand

end
-- ==== Proof.KRun.lean ====
/-
  The whole program as a chain of host stretches and the two calls, launched: every execution ends, and
  at the end every unscoped buffer of a core holds what the fold of KVals says — in particular the two
  results, and the eight arguments as launched.

  Each call is entered from "every unscoped buffer whole at the boundary's contents, the generator
  register at some state, nothing owed"; its arrays are split out of the unscoped buffers, the register
  and the scoped rest go into the body's invariant and come back, and the arrays are put back with the
  result array at what the write-backs left.
-/
import proofs.«408627_j69286412419116_1_alg».proof.Proof.KVals
import proofs.«408627_j69286412419116_1_alg».proof.Proof.KBody0
import proofs.«408627_j69286412419116_1_alg».proof.Proof.KBody1
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Both calls' proof data, each at its call's entry contents. -/
def pdats : (p : Fin 2) → (c : Dev nD) → Dat τ (Elt F) Unit ℕ (UR sig nD τ) ℕ (cfgs p) c
  | ⟨0, _⟩ => fun c => dat0 (E7 m) c
  | ⟨1, _⟩ => fun c => dat1 (E8 m) c

/-- No core owes another anything: no level is assigned. -/
abbrev L0 : GSem nD τ sig → Finset Unit := fun _ => ∅
abbrev lv0 : GSem nD τ sig → Unit → ℕ := fun _ _ => 0

/-- What rides beside the buffers through every item: the generator register at some state, nothing owed. -/
abbrev Rest (c : Dev nD) : sProp 𝕄 :=
  iprop((∃ r, prngReg c r) ∗ ∃ W, owes (c : Thread nD τ) (0 : CellTallies nD τ sig Unit) W)

/-- After call 0 each of its arrays holds what the pipeline leaves: the inputs as entered, the result array the
    write-back of the last block. -/
theorem hF0 (c : Dev nD) (w : Fin cfg0.W) : (dat0 (E7 m) c).arrAt w cfg0.N = E8 m c (Pipeline.arrRef spec0 w) :=
  match w with
  | ⟨0, _⟩ => ((dat0 (E7 m) c).arrAt_in 0 rfl _).trans (by dsimp only [dat0]; exact (W8_of_ne m c _ (by decide)).symm)
  | ⟨1, _⟩ => ((dat0 (E7 m) c).arrAt_in 1 rfl _).trans (by dsimp only [dat0]; exact (W8_of_ne m c _ (by decide)).symm)
  | ⟨2, _⟩ => ((dat0 (E7 m) c).arrAt_in 2 rfl _).trans (by dsimp only [dat0]; exact (W8_of_ne m c _ (by decide)).symm)
  | ⟨3, _⟩ => ((dat0 (E7 m) c).arrAt_in 3 rfl _).trans (by dsimp only [dat0]; exact (W8_of_ne m c _ (by decide)).symm)
  | ⟨4, _⟩ => ((dat0 (E7 m) c).arrAt_in 4 rfl _).trans (by dsimp only [dat0]; exact (W8_of_ne m c _ (by decide)).symm)
  | ⟨5, _⟩ => ((dat0 (E7 m) c).arrAt_in 5 rfl _).trans (by dsimp only [dat0]; exact (W8_of_ne m c _ (by decide)).symm)
  | ⟨6, _⟩ => (W8_v8 m c).symm
/-- Every other buffer is as entered. -/
theorem hrest0 (c : Dev nD) : ∀ b, b ∉ Finset.univ.image (Pipeline.arrRef spec0) → E8 m c b = E7 m c b :=
  fun b hb => W8_of_ne m c b fun e => hb (Finset.mem_image.mpr ⟨6, Finset.mem_univ _, e.symm⟩)

/-- The boundary after call 1, read at the TensorCore's references. -/
abbrev E9 : Entry F := fun c b => W9 m c b

theorem hF1 (c : Dev nD) (w : Fin cfg1.W) : (dat1 (E8 m) c).arrAt w cfg1.N = E9 m c (Pipeline.arrRef spec1 w) :=
  match w with
  | ⟨0, _⟩ => ((dat1 (E8 m) c).arrAt_in 0 rfl _).trans (by dsimp only [dat1]; exact (W9_of_ne m c _ (by decide)).symm)
  | ⟨1, _⟩ => ((dat1 (E8 m) c).arrAt_in 1 rfl _).trans (by dsimp only [dat1]; exact (W9_of_ne m c _ (by decide)).symm)
  | ⟨2, _⟩ => ((dat1 (E8 m) c).arrAt_in 2 rfl _).trans (by dsimp only [dat1]; exact (W9_of_ne m c _ (by decide)).symm)
  | ⟨3, _⟩ => (W9_v9 m c).symm
theorem hrest1 (c : Dev nD) : ∀ b, b ∉ Finset.univ.image (Pipeline.arrRef spec1) → E9 m c b = E8 m c b :=
  fun b hb => W9_of_ne m c b fun e => hb (Finset.mem_image.mpr ⟨3, Finset.mem_univ _, e.symm⟩)

set_option backward.isDefEq.respectTransparency.types false in
/-- Call 0 as an item of the chain. -/
def reg0 : RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L0 lv0 0 fun _ _ => rfl
  pre c := iprop(StableHlo.held (c : Thread nD τ) (Pipeline.ucRefs τ sig) (W7 m c) ∗ Rest c)
  post c := iprop(StableHlo.held (c : Thread nD τ) (Pipeline.ucRefs τ sig) (W8 m c) ∗ Rest c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h' : (iprop(Pipeline.scopedRest (Ix := Unit) (Name := ℕ) (U := UR sig nD τ) (Lvl := ℕ) (Val := Elt F) spec0 c ∗ ∃ r, prngReg c r) : sProp 𝕄)
        ⊢ (dat0 (E7 m) c).Φ 0 := by
      have := hin0 (E7 m) c; unfold Pipeline.ΦA at this; exact this
    rw [show (pdats m 0 c).Φ 0 = (dat0 (E7 m) c).Φ 0 from rfl]
    iintro ⟨Hp, -, Hr⟩
    iapply h'
    isplitl [Hr]; · iexact Hr
    iexact Hp
  hout c := by
    have h' : (dat0 (E7 m) c).Φ (Fin.last cfg0.N)
        ⊢ (iprop(Pipeline.scopedRest (Ix := Unit) (Name := ℕ) (U := UR sig nD τ) (Lvl := ℕ) (Val := Elt F) spec0 c ∗ ∃ r, prngReg c r) : sProp 𝕄) := by
      have := hout0 (E7 m) c; unfold Pipeline.ΦA at this; exact this
    rw [Pipeline.ownSems0_none, show (pdats m 0 c).Φ (Fin.last _) = (dat0 (E7 m) c).Φ (Fin.last cfg0.N) from rfl]
    iintro H
    ihave H' := h' $$ H
    icases H' with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E7 m c) (E8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as an item of the chain. -/
def reg1 : RegionSeg (pcfgs (F := F)) Gen.adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L0 lv0 1 fun _ _ => rfl
  pre c := iprop(StableHlo.held (c : Thread nD τ) (Pipeline.ucRefs τ sig) (W8 m c) ∗ Rest c)
  post c := iprop(StableHlo.held (c : Thread nD τ) (Pipeline.ucRefs τ sig) (W9 m c) ∗ Rest c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E8 m c) (E9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The launch element: the pipeline library's, at both calls' staging cells. -/
abbrev u0 : UR sig nD τ := initOf (Pipeline.cells cfgs cellOf_inj) (Pipeline.launchToks cfgs cellOf_inj)

theorem hu0 : (ownU (u0 : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, apart from its unscoped buffers, makes the rest that rides along. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L0 lv0)
    ⊢ (|={Set.univ}=> bigSep Finset.univ (fun c : Dev nD => Rest (F := F) c) : sProp 𝕄) := by
  have h : ∀ c : Dev nD, iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (Rest (F := F) c : sProp 𝕄) := fun c => by
    iintro ⟨-, HO, -, Hp, -⟩
    isplitl [Hp]; · iexists _; iexact Hp
    iexists ∅; iexact HO
  have hall : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => Rest (F := F) c) : sProp 𝕄) := bigSep_mono fun c _ => h c
  iintro ⟨H, -⟩
  imodintro
  iapply hall
  iexact H

set_option backward.isDefEq.respectTransparency.types false in
/-- The frame claim at any float instance: every execution ends, nothing faults, the eight arguments end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m (EP := emb₁) (ι := ()) (𝒱₀ := Variants.none) (L := L0) (lv := lv0) (hL := fun _ _ => rfl) (ρ := ρ)
    (outs := outs m) (pdats := pdats m) (O₀ := 0) (G := fun _ => (BI.emp : sProp 𝕄)) (u₀ := u0) (hu₀ := hu0)
    (E := fun _ c => Rest c) (hE0 := hE0 ρ) (hE2 := fun c => by iintro ⟨-, H⟩; iexact H)
    (R0 := reg0 m) (hpre0 := fun c => .rfl) (hpost0 := fun c => by rw [V8_eq]; exact .rfl)
    (R1 := reg1 m) (hpre1 := fun c => by rw [V8_eq]; exact .rfl) (hpost1 := fun c => by rw [V9_eq]; exact .rfl)

set_option backward.isDefEq.respectTransparency.types false in
/-- The run with every unscoped buffer named at the end: the same launch over the same items, the last thread
    state read whole against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) := by
  refine Pipeline.θ_run_regions_kit_dev (pcfgs (F := F)) Gen.adm (pdats m) () cellOf_inj emb₁ defs₀ Variants.none L0 lv0 m ρ main
    (Gen.segs m (outs m) Variants.none L0 lv0 (fun _ c => Rest c) () (pdats m) (reg0 m) (reg1 m))
    (fun c Q => by
      rewrite [main_chain c, Seg.run_eq_chain,
        show (Gen.segs m (outs m) Variants.none L0 lv0 (fun _ c => Rest c) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) (0 : Dev nD → CellTallies nD τ sig Unit) (fun _ _ => rfl)
    (fun _ => (BI.emp : sProp 𝕄)) u0 hu0
    (T₀ := fun c => iprop(StableHlo.held (c : Thread nD τ) (Pipeline.ucRefs τ sig) (Gen.V0 m c) ∗ Rest c))
    (Tₙ := fun c => StableHlo.held (c : Thread nD τ) (Pipeline.ucRefs τ sig) (Gen.V10 m (outs m) c))
    (hch := fun c => ⟨.rfl, .rfl, .rfl, .rfl, .rfl, .rfl, .rfl, .rfl,
      (show (reg0 m).post c ⊢ (reg1 m).pre c from .rfl),
      (show (iprop(StableHlo.held (c : Thread nD τ) (Pipeline.ucRefs τ sig) (W9 m c) ∗ Rest c) : sProp 𝕄)
        ⊢ iprop(StableHlo.held (c : Thread nD τ) (Pipeline.ucRefs τ sig) (Gen.V9 m (outs m) c) ∗ Rest c) from by rw [V9_eq]),
      sep_mono .rfl (show Rest c ⊢ _ from by iintro ⟨-, H⟩; iexact H)⟩)
    (hinit := ?_) (QY := fun c s => ∀ b ∈ Pipeline.ucRefs τ sig, s.mem (((c : Thread nD τ)).1, b) = W10 m c b)
    (hfin := fun c s' => ?_) (hQ := fun _ h => h)
  · refine Pipeline.initEach L0 lv0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    rw [V10_eq]
    iintro ⟨Hh, HSI⟩
    imodintro
    iapply (pointsTo_read_all (Pipeline.ucRefs τ sig) (fun b => (((c : Thread nD τ)).1, b)) (W10 m c) s')
    isplitl [Hh] <;> iassumption

end Cert.Kernel.Hand

end
-- ==== Proof.KIData.lean ====
/-
  The proof data of the two pallas_calls of the GRU-step program, at any float instance.

  Call 0 walks the padded vocabulary in 23 column blocks of 2176. A 512×768 scratch accumulator is
  cleared at the first block, receives at every block the product of the block's one-hot rows (built
  from the item ids by comparing with the block's column numbers) with the block of the input-to-hidden
  weights, and at the last block feeds the gate arithmetic whose result is the new hidden state.  So
  between two blocks the only thing carried is the accumulator: `acc0 n` below is its contents after
  block `n`, by recursion on the block, and the region invariant names the scratch at that value.

  Call 1 is one matrix product per block of 2176 output columns: the new hidden state against a block of
  the hidden-to-output weights, plus the bias block, through tanh.  Nothing is carried.
-/
import proofs.«408627_j69286412419116_1_alg».proof.Proof.Gen.KernelIdeal.Launch
import proofs.«408627_j69286412419116_1_alg».proof.Proof.Gen.KernelIdeal.Skeleton
import proofs.«408627_j69286412419116_1_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contents of a core's TensorCore buffers when a region is entered. -/
abbrev Entry (F : FTy → Type) [FloatOps F] : Type :=
  (c : Dev nD) → (b : Ref sig .tc) → Buf (Elt F) ((c : Thread nD τ).loc b)

variable (V : Entry F)

/-! ## Call 0 -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after block `n`: the cleared buffer plus the first block's product at `n = 0`, the
    previous contents plus block `n`'s product afterwards. -/
def acc0 (c : Dev nD) : (n : ℕ) → n < cfg0.N → Vec F S512x768 .f32
  | 0, h => k0_pay2 (grid0.coords ⟨0, h⟩) (iblk0 V c 0 ⟨0, h⟩) (iblk0 V c 1 ⟨0, h⟩) (k0_pay1 (F := F))
  | n + 1, h => k0_pay2 (grid0.coords ⟨n + 1, h⟩) (iblk0 V c 0 ⟨n + 1, h⟩) (iblk0 V c 1 ⟨n + 1, h⟩) (acc0 c n (Nat.lt_of_succ_lt h))

/-- The gate arithmetic over the accumulator after block `t` and the four small operands' blocks there (the
    new hidden state when `t` is the last block; the output window is idle at the other blocks). -/
def hid0 (c : Dev nD) (t : Fin cfg0.N) : Vec F S512x256 .f32 :=
  k0_pay3 (acc0 V c t.val t.isLt) (iblk0 V c 2 t) (iblk0 V c 3 t) (iblk0 V c 4 t) (iblk0 V c 5 t)

/-- The scratch accumulator as the kernel is handed it. -/
abbrev scr0 : Memref sig .tc .vmem S512x768 .f32 := Memref.whole cc0_scratch0

/-- The core's scoped buffers that call 0 neither stages through nor keeps its accumulator in (the other call's
    staging buffers), each at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before block `n`: before the first block the accumulator holds anything; before block
    `n + 1` it holds `acc0 n`. The other scoped buffers and the generator register ride along untouched. -/
def inv0 (c : Dev nD) : (n : ℕ) → n ≤ cfg0.N → sProp 𝕄
  | 0, _ => iprop((∃ d, owns (c : Thread nD τ) scr0 fullShare d) ∗ others0 (F := F) c ∗ (∃ r, prngReg c r))
  | n + 1, hn => iprop(owns (c : Thread nD τ) scr0 fullShare (acc0 V c n hn) ∗ others0 (F := F) c ∗ (∃ r, prngReg c r))

/-- Call 0's proof data on core `c`: the arrays as the region finds them; after the body each input window's
    buffer at its block and the output window's at the gate arithmetic over the accumulator; the invariant
    `inv0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => hid0 V c t
  Φ t := inv0 V c t.val (Nat.le_of_lt_succ t.isLt)
  q _ := fullShare
  owed _ := 0

/-! ## Call 1 -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of output columns call 1 computes at point `t`. -/
def logit1 (c : Dev nD) (t : Fin cfg1.N) : Vec F S512x2176 .f32 :=
  k1_pay1 (iblk1 V c 0 t) (iblk1 V c 1 t) (iblk1 V c 2 t)

/-- Call 1's proof data on core `c`: the arrays as the region finds them; each input window's buffer at its block
    and the output window's at the computed block; the plain invariant (scoped rest and generator register
    untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => logit1 V c t
  Φ _ := Pipeline.ΦA spec1 c
  q _ := fullShare
  owed _ := 0

end Cert.KernelIdeal.Hand

end
-- ==== Proof.KIVals.lean ====
/-
  The buffers of a core at each boundary between the items of the program, as a fold from the launch
  memory: the seven host stretches that reshape and zero-pad the operands, call 0 (which leaves the new
  hidden state in its result array), call 1 (which leaves the padded logits in its result array) and the
  closing stretch that cuts the padding off and adds a unit axis to the hidden state.
-/
import proofs.«408627_j69286412419116_1_alg».proof.Proof.KIData
import proofs.«408627_j69286412419116_1_alg».proof.Proof.Gen.KernelIdeal.Regions
import Idealize.ShloMosaic.Lib.Pipeline.FrameSuffix
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2)

variable {F : FTy → Type} [FloatOps F]

variable (m : (ℓ : Loc nD τ sig) → Buf (Elt F) ℓ)

/-- Core `c`'s buffers when call 0 is entered: the launch memory after the seven host stretches. -/
abbrev W7 (c : Dev nD) : Valuation τ sig (Elt F) := Gen.V7 m c
/-- The same read at the TensorCore's references. -/
abbrev E7 : Entry F := fun c b => W7 m c b
/-- What call 0 leaves in its result array: the write-backs of all its grid points. -/
def out8 (c : Dev nD) : Buf (Elt F) ((c : Thread nD τ).loc main_v8) := (dat0 (E7 m) c).arrAt 6 cfg0.N
/-- Core `c`'s buffers when call 0 returns: its result array at what the write-back leaves, the rest as entered. -/
abbrev W8 (c : Dev nD) : Valuation τ sig (Elt F) := Function.update (W7 m c) main_v8 (out8 m c)
/-- The same read at the TensorCore's references: what call 1 is entered from. -/
abbrev E8 : Entry F := fun c b => W8 m c b
/-- What call 1 leaves in its result array. -/
def out9 (c : Dev nD) : Buf (Elt F) ((c : Thread nD τ).loc main_v9) := (dat1 (E8 m) c).arrAt 3 cfg1.N
/-- Core `c`'s buffers when call 1 returns. -/
abbrev W9 (c : Dev nD) : Valuation τ sig (Elt F) := Function.update (W8 m c) main_v9 (out9 m c)
/-- Core `c`'s buffers at the end: after the closing host stretch. -/
abbrev W10 (c : Dev nD) : Valuation τ sig (Elt F) := StableHlo.after hostOps2 (W9 m c)

/-- What the two calls leave, as the family the boundary valuations are written over. -/
def outs : Gen.Outs (F := F) := fun j r c => if j = 8 then W8 m c (Proc.devRef .tc r) else W9 m c (Proc.devRef .tc r)

theorem V8_eq (c : Dev nD) : Gen.V8 m (outs m) c = W8 m c := by
  show Function.update (Gen.V7 m c) main_v8 (outs m 8 main_v8 c) = _
  have : outs m 8 main_v8 c = out8 m c := by
    unfold outs; rw [if_pos rfl]; exact Function.update_self ..
  rw [this]
theorem V9_eq (c : Dev nD) : Gen.V9 m (outs m) c = W9 m c := by
  show Function.update (Gen.V8 m (outs m) c) main_v9 (outs m 9 main_v9 c) = _
  have : outs m 9 main_v9 c = out9 m c := by
    unfold outs; rw [if_neg (by decide)]; exact Function.update_self ..
  rw [this, V8_eq]
theorem V10_eq (c : Dev nD) : Gen.V10 m (outs m) c = W10 m c := by
  show StableHlo.after hostOps2 (Gen.V9 m (outs m) c) = _
  rw [V9_eq]

theorem W8_v8 (c : Dev nD) : W8 m c (Proc.devRef .tc main_v8) = out8 m c := Function.update_self ..
theorem W8_of_ne (c : Dev nD) (b : Ref sig .tc) (hb : b ≠ main_v8) :
    W8 m c (Proc.devRef .tc b) = W7 m c (Proc.devRef .tc b) :=
  Function.update_of_ne (StableHlo.devRef_ne_of_ne hb) ..
theorem W9_v9 (c : Dev nD) : W9 m c (Proc.devRef .tc main_v9) = out9 m c := Function.update_self ..
theorem W9_of_ne (c : Dev nD) (b : Ref sig .tc) (hb : b ≠ main_v9) :
    W9 m c (Proc.devRef .tc b) = W8 m c (Proc.devRef .tc b) :=
  Function.update_of_ne (StableHlo.devRef_ne_of_ne hb) ..

end Cert.KernelIdeal.Hand

end
-- ==== Proof.KIBody0.lean ====
/-
  Call 0's body at every block of the vocabulary: it clears the accumulator at the first block, adds the
  block's one-hot-times-weights product at every block, and at the last block stores the gate arithmetic
  into the output window.  Three cases by the block's position; in each the body's loads find the operand
  blocks, the accumulator is handed over at what the block before left, and comes back at `acc0` of this
  block.
-/
import proofs.«408627_j69286412419116_1_alg».proof.Proof.KIData
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

/-! ## Where a block stands in the walk over the vocabulary -/

/-- The body's first test, as it computes it from the block number: is this the first block? -/
private abbrev atFirst (i : grid0.Coords) : Prop :=
  Scalar.cmpi .ne (Scalar.extui (Scalar.cmpi .eq (BitVec.ofNat 32 (i 0).val) 0#32)) 0#32 = 1#1

/-- The body's second test: is this the last block? -/
private abbrev atLast (i : grid0.Coords) : Prop := k0_cond2 i = 1#1

/-- The first test holds at block 0 and nowhere else. -/
private theorem atFirst_iff : ∀ t : Fin cfg0.N, atFirst (grid0.coords t) ↔ t.val = 0 :=
  (by decide +kernel : ∀ t : Fin grid0.N, atFirst (grid0.coords t) ↔ t.val = 0)

/-- The second test holds at block 22 and nowhere else. -/
private theorem atLast_iff : ∀ t : Fin cfg0.N, atLast (grid0.coords t) ↔ t.val = 22 :=
  (by decide +kernel : ∀ t : Fin grid0.N, atLast (grid0.coords t) ↔ t.val = 22)

/-- Before the last block the new hidden state is not yet computed: its window is idle, -/
private theorem hidden_idle : ∀ t : Fin cfg0.N, ¬atLast (grid0.coords t) → cfg0.idle 6 (grid0.coords t) = true := by
  decide +kernel
/-- and nothing of it is written back. -/
private theorem hidden_kept : ∀ t : Fin cfg0.N, ¬atLast (grid0.coords t) → (cfg0.win 6).flush t = false := by
  decide +kernel
/-- At the last block it is live. -/
private theorem hidden_live : ∀ t : Fin cfg0.N, atLast (grid0.coords t) → cfg0.idle 6 (grid0.coords t) = false := by
  decide +kernel

variable (V : Entry F)

/-! ## What the body finds in the operand windows -/

/-- The proof data's arrays are the arrays as the region finds them. -/
private theorem arr0 (c : Dev nD) (w : Fin cfg0.W) : (dat0 V c).A w = V c (Pipeline.arrRef spec0 w) := by
  dsimp only [dat0]

/-- What the body leaves in each window's buffer: an operand window's block, untouched; the output window's gate
    arithmetic. -/
private theorem after0_ids (c : Dev nD) (t : Fin cfg0.N) : (dat0 V c).after 0 t = iblk0 V c 0 t := by dsimp only [dat0]
private theorem after0_wih (c : Dev nD) (t : Fin cfg0.N) : (dat0 V c).after 1 t = iblk0 V c 1 t := by dsimp only [dat0]
private theorem after0_bih (c : Dev nD) (t : Fin cfg0.N) : (dat0 V c).after 2 t = iblk0 V c 2 t := by dsimp only [dat0]
private theorem after0_hprev (c : Dev nD) (t : Fin cfg0.N) : (dat0 V c).after 3 t = iblk0 V c 3 t := by dsimp only [dat0]
private theorem after0_whh (c : Dev nD) (t : Fin cfg0.N) : (dat0 V c).after 4 t = iblk0 V c 4 t := by dsimp only [dat0]
private theorem after0_bhh (c : Dev nD) (t : Fin cfg0.N) : (dat0 V c).after 5 t = iblk0 V c 5 t := by dsimp only [dat0]
private theorem after0_hid (c : Dev nD) (t : Fin cfg0.N) : (dat0 V c).after 6 t = hid0 V c t := by dsimp only [dat0]

/-- The item ids' buffer holds their block at every block of the walk (fetched once, never moved). -/
private theorem found_ids (c : Dev nD) (t : Fin cfg0.N) (d) : (dat0 V c).before 0 t d = iblk0 V c 0 t :=
  ((dat0 V c).before_in_eq_fetched 0 rfl (fun _ => rfl) (fun _ _ _ => rfl)
    (fun t => by rw [after0_ids]; unfold Dat.blockOf iblk0; rw [arr0]; try rfl) t d).trans
    (by unfold Dat.fetched Dat.blockOf iblk0; rw [arr0]; try rfl)

/-- The input-to-hidden weights' buffer holds the block of the current 2176 columns. -/
private theorem found_wih (c : Dev nD) (t : Fin cfg0.N) (d) : (dat0 V c).before 1 t d = iblk0 V c 1 t :=
  ((dat0 V c).before_in_eq_fetched 1 rfl (fun _ => rfl) (fun _ _ _ => rfl)
    (fun t => by rw [after0_wih]; unfold Dat.blockOf iblk0; rw [arr0]; try rfl) t d).trans
    (by unfold Dat.fetched Dat.blockOf iblk0; rw [arr0]; try rfl)

/-- The input-side bias row, -/
private theorem found_bih (c : Dev nD) (t : Fin cfg0.N) (d) : (dat0 V c).before 2 t d = iblk0 V c 2 t :=
  ((dat0 V c).before_in_eq_fetched 2 rfl (fun _ => rfl) (fun _ _ _ => rfl)
    (fun t => by rw [after0_bih]; unfold Dat.blockOf iblk0; rw [arr0]; try rfl) t d).trans
    (by unfold Dat.fetched Dat.blockOf iblk0; rw [arr0]; try rfl)

/-- the previous hidden state, -/
private theorem found_hprev (c : Dev nD) (t : Fin cfg0.N) (d) : (dat0 V c).before 3 t d = iblk0 V c 3 t :=
  ((dat0 V c).before_in_eq_fetched 3 rfl (fun _ => rfl) (fun _ _ _ => rfl)
    (fun t => by rw [after0_hprev]; unfold Dat.blockOf iblk0; rw [arr0]; try rfl) t d).trans
    (by unfold Dat.fetched Dat.blockOf iblk0; rw [arr0]; try rfl)

/-- the hidden-to-hidden weights -/
private theorem found_whh (c : Dev nD) (t : Fin cfg0.N) (d) : (dat0 V c).before 4 t d = iblk0 V c 4 t :=
  ((dat0 V c).before_in_eq_fetched 4 rfl (fun _ => rfl) (fun _ _ _ => rfl)
    (fun t => by rw [after0_whh]; unfold Dat.blockOf iblk0; rw [arr0]; try rfl) t d).trans
    (by unfold Dat.fetched Dat.blockOf iblk0; rw [arr0]; try rfl)

/-- and the hidden-side bias row are each one block, fetched at the first block and found in place at every later one. -/
private theorem found_bhh (c : Dev nD) (t : Fin cfg0.N) (d) : (dat0 V c).before 5 t d = iblk0 V c 5 t :=
  ((dat0 V c).before_in_eq_fetched 5 rfl (fun _ => rfl) (fun _ _ _ => rfl)
    (fun t => by rw [after0_bhh]; unfold Dat.blockOf iblk0; rw [arr0]; try rfl) t d).trans
    (by unfold Dat.fetched Dat.blockOf iblk0; rw [arr0]; try rfl)

/-! ## The invariant, block by block -/

/-- Before the first block the accumulator holds anything. -/
private theorem inv0_zero (c : Dev nD) (n : ℕ) (h : n ≤ cfg0.N) (hz : n = 0) :
    inv0 V c n h = iprop((∃ d, owns (c : Thread nD τ) scr0 fullShare d) ∗ others0 (F := F) c ∗ (∃ r, prngReg c r)) := by
  subst hz; rfl

/-- After block `n` it holds `acc0 n`. -/
private theorem inv0_succ (c : Dev nD) (n : ℕ) (h : n < cfg0.N) :
    inv0 V c (n + 1) h = iprop(owns (c : Thread nD τ) scr0 fullShare (acc0 V c n h) ∗ others0 (F := F) c ∗ (∃ r, prngReg c r)) := rfl

/-- Before a block that is not the first it holds what the block before left. -/
private theorem inv0_pos (c : Dev nD) (n : ℕ) (h : n ≤ cfg0.N) (hz : n ≠ 0) :
    inv0 V c n h = iprop(owns (c : Thread nD τ) scr0 fullShare (acc0 V c (n - 1) (by omega)) ∗ others0 (F := F) c ∗ (∃ r, prngReg c r)) := by
  cases n with
  | zero => exact absurd rfl hz
  | succ n => rfl

/-- The invariant at a block's start, at the block's number. -/
private theorem inv0_at (c : Dev nD) (t : Fin cfg0.N) :
    (dat0 V c).Φ t.castSucc = inv0 V c t.val (Nat.le_of_lt t.isLt) := by
  dsimp only [dat0]; simp only [Fin.coe_castSucc]

/-- The accumulator's recursion at a block after the first. -/
private theorem acc0_pos (c : Dev nD) (t : Fin cfg0.N) (hz : t.val ≠ 0) :
    acc0 V c t.val t.isLt = k0_pay2 (grid0.coords t) (iblk0 V c 0 t) (iblk0 V c 1 t) (acc0 V c (t.val - 1) (by omega)) := by
  obtain ⟨n, hn⟩ := t
  cases n with
  | zero => exact absurd rfl hz
  | succ n => rfl

/-- At the first block it is the block's product added to the cleared buffer. -/
private theorem acc0_first (c : Dev nD) (t : Fin cfg0.N) (hz : t.val = 0) :
    acc0 V c t.val t.isLt = k0_pay2 (grid0.coords t) (iblk0 V c 0 t) (iblk0 V c 1 t) (k0_pay1 (F := F)) := by
  obtain ⟨n, hn⟩ := t
  cases n with
  | zero => rfl
  | succ n => exact absurd hz (Nat.succ_ne_zero n)

/-- The region's plain invariant with the accumulator as a memref owned at some contents. -/
private theorem plain0_eq (c : Dev nD) :
    (Pipeline.ΦA spec0 c : sProp 𝕄)
      = iprop(((∃ d, owns (c : Thread nD τ) scr0 fullShare d) ∗ others0 (F := F) c) ∗ (∃ r, prngReg c r)) := by
  unfold Pipeline.ΦA others0; rw [scopedRest0_eq]; simp only [scr0, owns_whole]; try rfl

/-! ## Whole-buffer loads and stores

Every access of the body is through the rectangle of the buffer's own sizes at the origin: a load through it reads the
contents, and a store through it, made last, leaves its payload whatever was stored before. -/

/-- The origin of a matrix. -/
private theorem origin2 : (![0, 0] : Fin 2 → ℕ) = fun _ => 0 := by
  funext a; fin_cases a <;> rfl

/-- A buffer whose last store was of the whole buffer reads as that store's payload. -/
private theorem read_whole_store {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-! ## The body at a block, in three positions -/

set_option maxHeartbeats 4000000 in
/-- A block strictly between the first and the last: the accumulator, handed over at `acc`, comes back with the
    block's product added; the ids and the weights' block are only read. -/
private theorem sound_mid (c : Dev nD) (E : Set ℕ) (i : grid0.Coords) (arg1 : Memref sig .tc .vmem S512x1 .i32) (harg1 : arg1.IsWhole) (arg2 : Memref sig .tc .vmem S768x2176 .f32) (harg2 : arg2.IsWhole) (arg3 : Memref sig .tc .vmem S1x768 .f32) (harg3 : arg3.IsWhole) (arg4 : Memref sig .tc .vmem S512x256 .f32) (harg4 : arg4.IsWhole) (arg5 : Memref sig .tc .vmem S768x256 .f32) (harg5 : arg5.IsWhole) (arg6 : Memref sig .tc .vmem S1x768 .f32) (harg6 : arg6.IsWhole) (arg7 : Memref sig .tc .vmem S512x256 .f32) (harg7 : arg7.IsWhole) (arg8 : Memref sig .tc .vmem S512x768 .f32) (harg8 : arg8.IsWhole)
    (hfirst : ¬atFirst i) (hlast : ¬atLast i)
    (ids : Vec F S512x1 .i32) (wih : Vec F S768x2176 .f32) (acc : Vec F S512x768 .f32) (K : PUnit → sProp 𝕄) :
    iprop(owns (c : Thread nD τ) arg1 fullShare ids ∗ owns (c : Thread nD τ) arg2 fullShare wih ∗ owns (c : Thread nD τ) arg8 fullShare acc
        ∗ (iprop(owns (c : Thread nD τ) arg1 fullShare ids ∗ owns (c : Thread nD τ) arg2 fullShare wih
            ∗ owns (c : Thread nD τ) arg8 fullShare (k0_pay2 i ids wih acc)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  unfold owns
  iintro ⟨⟨%f1, %hf1, H1⟩, ⟨%f2, %hf2, H2⟩, ⟨%f8, %hf8, H8⟩, Hk⟩
  subst hf1; subst hf2; subst hf8
  sl_exec (disch := first | exact hfirst | exact hlast)
  sl_step
  iapply Hk
  isplitl [H1]
  · iexists f1; isplitr; · ipureintro; rfl
    iexact H1
  isplitl [H2]
  · iexists f2; isplitr; · ipureintro; rfl
    iexact H2
  iexists _; isplitr
  swap; · iexact H8
  ipureintro
  rw [read_whole_store arg8.view f8 origin2 inb_S512x768_S512x768_0_0 _ []]
  simp only [View.readAt_eq_ld, View.ld_unit_zero (S := S512x1) origin2, View.ld_unit_zero (S := S768x2176) origin2, View.ld_unit_zero (S := S512x768) origin2]

set_option maxHeartbeats 4000000 in
/-- The first block: whatever the accumulator held, it is cleared, and comes back at the block's product added to
    the cleared buffer. -/
private theorem sound_first (c : Dev nD) (E : Set ℕ) (i : grid0.Coords) (arg1 : Memref sig .tc .vmem S512x1 .i32) (harg1 : arg1.IsWhole) (arg2 : Memref sig .tc .vmem S768x2176 .f32) (harg2 : arg2.IsWhole) (arg3 : Memref sig .tc .vmem S1x768 .f32) (harg3 : arg3.IsWhole) (arg4 : Memref sig .tc .vmem S512x256 .f32) (harg4 : arg4.IsWhole) (arg5 : Memref sig .tc .vmem S768x256 .f32) (harg5 : arg5.IsWhole) (arg6 : Memref sig .tc .vmem S1x768 .f32) (harg6 : arg6.IsWhole) (arg7 : Memref sig .tc .vmem S512x256 .f32) (harg7 : arg7.IsWhole) (arg8 : Memref sig .tc .vmem S512x768 .f32) (harg8 : arg8.IsWhole)
    (hfirst : atFirst i) (hlast : ¬atLast i)
    (ids : Vec F S512x1 .i32) (wih : Vec F S768x2176 .f32) (K : PUnit → sProp 𝕄) :
    iprop(owns (c : Thread nD τ) arg1 fullShare ids ∗ owns (c : Thread nD τ) arg2 fullShare wih ∗ (∃ d, owns (c : Thread nD τ) arg8 fullShare d)
        ∗ (iprop(owns (c : Thread nD τ) arg1 fullShare ids ∗ owns (c : Thread nD τ) arg2 fullShare wih
            ∗ owns (c : Thread nD τ) arg8 fullShare (k0_pay2 i ids wih (k0_pay1 (F := F)))) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  unfold owns
  iintro ⟨⟨%f1, %hf1, H1⟩, ⟨%f2, %hf2, H2⟩, ⟨%d8, %f8, -, H8⟩, Hk⟩
  subst hf1; subst hf2
  sl_exec (disch := first | exact hfirst | exact hlast)
  sl_step
  iapply Hk
  isplitl [H1]
  · iexists f1; isplitr; · ipureintro; rfl
    iexact H1
  isplitl [H2]
  · iexists f2; isplitr; · ipureintro; rfl
    iexact H2
  iexists _; isplitr
  swap; · iexact H8
  ipureintro
  sl_unfold_words
  rw [read_whole_store arg8.view f8 origin2 inb_S512x768_S512x768_0_0 _ _]
  simp only [View.readAt_eq_ld, View.readCov_unit_zero (S := S512x768) _ origin2, View.ld_unit_zero (S := S512x1) origin2, View.ld_unit_zero (S := S768x2176) origin2, View.ld_unit_zero (S := S512x768) origin2]

set_option maxHeartbeats 4000000 in
/-- The last block: the accumulator comes back with the block's product added, and the new hidden state — the gate
    arithmetic over that sum and the four small operands — is stored over whatever the output window's buffer held. -/
private theorem sound_last (c : Dev nD) (E : Set ℕ) (i : grid0.Coords) (arg1 : Memref sig .tc .vmem S512x1 .i32) (harg1 : arg1.IsWhole) (arg2 : Memref sig .tc .vmem S768x2176 .f32) (harg2 : arg2.IsWhole) (arg3 : Memref sig .tc .vmem S1x768 .f32) (harg3 : arg3.IsWhole) (arg4 : Memref sig .tc .vmem S512x256 .f32) (harg4 : arg4.IsWhole) (arg5 : Memref sig .tc .vmem S768x256 .f32) (harg5 : arg5.IsWhole) (arg6 : Memref sig .tc .vmem S1x768 .f32) (harg6 : arg6.IsWhole) (arg7 : Memref sig .tc .vmem S512x256 .f32) (harg7 : arg7.IsWhole) (arg8 : Memref sig .tc .vmem S512x768 .f32) (harg8 : arg8.IsWhole)
    (hfirst : ¬atFirst i) (hlast : atLast i)
    (ids : Vec F S512x1 .i32) (wih : Vec F S768x2176 .f32) (bih : Vec F S1x768 .f32) (hprev : Vec F S512x256 .f32)
    (whh : Vec F S768x256 .f32) (bhh : Vec F S1x768 .f32) (acc : Vec F S512x768 .f32) (K : PUnit → sProp 𝕄) :
    iprop(owns (c : Thread nD τ) arg1 fullShare ids ∗ owns (c : Thread nD τ) arg2 fullShare wih
        ∗ owns (c : Thread nD τ) arg3 fullShare bih ∗ owns (c : Thread nD τ) arg4 fullShare hprev
        ∗ owns (c : Thread nD τ) arg5 fullShare whh ∗ owns (c : Thread nD τ) arg6 fullShare bhh
        ∗ (∃ d, owns (c : Thread nD τ) arg7 fullShare d) ∗ owns (c : Thread nD τ) arg8 fullShare acc
        ∗ (iprop(owns (c : Thread nD τ) arg1 fullShare ids ∗ owns (c : Thread nD τ) arg2 fullShare wih
            ∗ owns (c : Thread nD τ) arg3 fullShare bih ∗ owns (c : Thread nD τ) arg4 fullShare hprev
            ∗ owns (c : Thread nD τ) arg5 fullShare whh ∗ owns (c : Thread nD τ) arg6 fullShare bhh
            ∗ owns (c : Thread nD τ) arg7 fullShare (k0_pay3 (k0_pay2 i ids wih acc) bih hprev whh bhh)
            ∗ owns (c : Thread nD τ) arg8 fullShare (k0_pay2 i ids wih acc)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8) K := by
  simp only [cc0__gru_kernel_eq_skeleton]; unfold cc0__gru_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1; subst hf2; subst hf3; subst hf4; subst hf5; subst hf6; subst hf8
  sl_exec (disch := first | exact hfirst | exact hlast)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_whole_store arg7.view f7 origin2 inb_S512x256_S512x256_0_0 _ []]
    simp only [View.readAt_eq_ld, View.readCov_unit_zero (S := S512x768) _ origin2, View.ld_unit_zero (S := S512x1) origin2, View.ld_unit_zero (S := S768x2176) origin2, View.ld_unit_zero (S := S512x768) origin2, View.ld_unit_zero (S := S1x768) origin2, View.ld_unit_zero (S := S512x256) origin2, View.ld_unit_zero (S := S768x256) origin2]
  iexists _; isplitr
  swap; · iexact H8
  ipureintro
  sl_unfold_words
  rw [read_whole_store arg8.view f8 origin2 inb_S512x768_S512x768_0_0 _ []]
  simp only [View.readAt_eq_ld, View.ld_unit_zero (S := S512x1) origin2, View.ld_unit_zero (S := S768x2176) origin2, View.ld_unit_zero (S := S512x768) origin2]

/-! ## The body at a block of the walk -/

/-- The current buffer of each window at block `t`, as the pipeline passes it to the body, and its wholeness. -/
private abbrev buf_ids (t : Fin cfg0.N) : Memref sig .tc .vmem S512x1 .i32 := win0_0.stage (cfg0.slots t 0)
private abbrev whole_ids (t : Fin cfg0.N) : (buf_ids t).IsWhole := hstage0_0 ((cfg0.slots t 0).cast nbuf0_0)
private abbrev buf_wih (t : Fin cfg0.N) : Memref sig .tc .vmem S768x2176 .f32 := win0_1.stage (cfg0.slots t 1)
private abbrev whole_wih (t : Fin cfg0.N) : (buf_wih t).IsWhole := hstage0_1 ((cfg0.slots t 1).cast nbuf0_1)
private abbrev buf_bih (t : Fin cfg0.N) : Memref sig .tc .vmem S1x768 .f32 := win0_2.stage (cfg0.slots t 2)
private abbrev whole_bih (t : Fin cfg0.N) : (buf_bih t).IsWhole := hstage0_2 ((cfg0.slots t 2).cast nbuf0_2)
private abbrev buf_hprev (t : Fin cfg0.N) : Memref sig .tc .vmem S512x256 .f32 := win0_3.stage (cfg0.slots t 3)
private abbrev whole_hprev (t : Fin cfg0.N) : (buf_hprev t).IsWhole := hstage0_3 ((cfg0.slots t 3).cast nbuf0_3)
private abbrev buf_whh (t : Fin cfg0.N) : Memref sig .tc .vmem S768x256 .f32 := win0_4.stage (cfg0.slots t 4)
private abbrev whole_whh (t : Fin cfg0.N) : (buf_whh t).IsWhole := hstage0_4 ((cfg0.slots t 4).cast nbuf0_4)
private abbrev buf_bhh (t : Fin cfg0.N) : Memref sig .tc .vmem S1x768 .f32 := win0_5.stage (cfg0.slots t 5)
private abbrev whole_bhh (t : Fin cfg0.N) : (buf_bhh t).IsWhole := hstage0_5 ((cfg0.slots t 5).cast nbuf0_5)
private abbrev buf_hid (t : Fin cfg0.N) : Memref sig .tc .vmem S512x256 .f32 := win0_6.stage (cfg0.slots t 6)
private abbrev whole_hid (t : Fin cfg0.N) : (buf_hid t).IsWhole := hstage0_6 ((cfg0.slots t 6).cast nbuf0_6)

/-- After the body an operand window's buffer is at its block (operand windows are never idle). -/
private theorem leaves_ids (c : Dev nD) (t : Fin cfg0.N) :
    (dat0 V c).leavesExact 0 t = owns (c : Thread nD τ) (buf_ids t) fullShare (iblk0 V c 0 t) := by
  unfold Dat.leavesExact; rw [show cfg0.idle 0 (cfg0.grid.coords t) = false from rfl, after0_ids]
private theorem leaves_wih (c : Dev nD) (t : Fin cfg0.N) :
    (dat0 V c).leavesExact 1 t = owns (c : Thread nD τ) (buf_wih t) fullShare (iblk0 V c 1 t) := by
  unfold Dat.leavesExact; rw [show cfg0.idle 1 (cfg0.grid.coords t) = false from rfl, after0_wih]
private theorem leaves_bih (c : Dev nD) (t : Fin cfg0.N) :
    (dat0 V c).leavesExact 2 t = owns (c : Thread nD τ) (buf_bih t) fullShare (iblk0 V c 2 t) := by
  unfold Dat.leavesExact; rw [show cfg0.idle 2 (cfg0.grid.coords t) = false from rfl, after0_bih]
private theorem leaves_hprev (c : Dev nD) (t : Fin cfg0.N) :
    (dat0 V c).leavesExact 3 t = owns (c : Thread nD τ) (buf_hprev t) fullShare (iblk0 V c 3 t) := by
  unfold Dat.leavesExact; rw [show cfg0.idle 3 (cfg0.grid.coords t) = false from rfl, after0_hprev]
private theorem leaves_whh (c : Dev nD) (t : Fin cfg0.N) :
    (dat0 V c).leavesExact 4 t = owns (c : Thread nD τ) (buf_whh t) fullShare (iblk0 V c 4 t) := by
  unfold Dat.leavesExact; rw [show cfg0.idle 4 (cfg0.grid.coords t) = false from rfl, after0_whh]
private theorem leaves_bhh (c : Dev nD) (t : Fin cfg0.N) :
    (dat0 V c).leavesExact 5 t = owns (c : Thread nD τ) (buf_bhh t) fullShare (iblk0 V c 5 t) := by
  unfold Dat.leavesExact; rw [show cfg0.idle 5 (cfg0.grid.coords t) = false from rfl, after0_bhh]

/-- At the last block the output window's buffer is at the new hidden state. -/
private theorem leaves_hid_last (c : Dev nD) (t : Fin cfg0.N) (hL : atLast (grid0.coords t)) :
    (dat0 V c).leavesExact 6 t = owns (c : Thread nD τ) (buf_hid t) fullShare (hid0 V c t) := by
  unfold Dat.leavesExact; rw [hidden_live t hL, after0_hid]

/-- What the body is handed at block `t`: the invariant, what the core owes, and every window's current buffer. -/
private def handed0 (c : Dev nD) (t : Fin cfg0.N) : sProp 𝕄 :=
  iprop((dat0 V c).Φ t.castSucc ∗ (dat0 V c).owesAt () t.castSucc
    ∗ (∃ d, owns (c : Thread nD τ) (buf_ids t) fullShare ((dat0 V c).before 0 t d))
    ∗ (∃ d, owns (c : Thread nD τ) (buf_wih t) fullShare ((dat0 V c).before 1 t d))
    ∗ (∃ d, owns (c : Thread nD τ) (buf_bih t) fullShare ((dat0 V c).before 2 t d))
    ∗ (∃ d, owns (c : Thread nD τ) (buf_hprev t) fullShare ((dat0 V c).before 3 t d))
    ∗ (∃ d, owns (c : Thread nD τ) (buf_whh t) fullShare ((dat0 V c).before 4 t d))
    ∗ (∃ d, owns (c : Thread nD τ) (buf_bhh t) fullShare ((dat0 V c).before 5 t d))
    ∗ (∃ d, owns (c : Thread nD τ) (buf_hid t) fullShare ((dat0 V c).before 6 t d)))

/-- What it gives back. -/
private def returned0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any block. The operand windows' buffers hold their blocks; the block's position selects the case.
    At the first block the accumulator is handed over at anything and comes back at `acc0 0`; afterwards it is handed
    over at `acc0 (t - 1)` and comes back at `acc0 t` by the recursion's step; at the last block the output window's
    buffer comes back at the gate arithmetic over `acc0 t`, elsewhere it is handed back untouched. The other scoped
    buffers, the generator register and what the core owes ride along. -/
private theorem sound_body (c : Dev nD) (t : Fin cfg0.N) :
    handed0 V c t ⊢ wp frame (wpE (defs₀ (F := F)) Variants.none c none) Set.univ (bodyAt0 t) (fun _ => returned0 V c t) := by
  unfold handed0 returned0 bodyAt0
  simp only [found_ids, found_wih, found_bih, found_hprev, found_whh, found_bhh]
  rw [show (dat0 V c).owesAt () t.succ = (dat0 V c).owesAt () t.castSucc from rfl]
  rw [show (dat0 V c).Φ t.succ = inv0 V c (t.val + 1) t.isLt from rfl, inv0_succ, inv0_at V c t]
  rw [leaves_ids, leaves_wih, leaves_bih, leaves_hprev, leaves_whh, leaves_bhh]
  have hN : t.val < 23 := lt_of_lt_of_eq t.isLt (show cfg0.N = 23 from N_0)
  by_cases hz : t.val = 0
  · have hF : atFirst (grid0.coords t) := (atFirst_iff t).mpr hz
    have hL : ¬atLast (grid0.coords t) := fun h => by have := (atLast_iff t).mp h; omega
    rw [Dat.leavesExact_idle (dat0 V c) 6 t (hidden_idle t hL) (hidden_kept t hL)]
    rw [inv0_zero V c _ _ hz, acc0_first V c t hz]
    iintro ⟨⟨HS, Hoth, Hg⟩, Ho, ⟨%d0, H0⟩, ⟨%d1, H1⟩, ⟨%d2, H2⟩, ⟨%d3, H3⟩, ⟨%d4, H4⟩, ⟨%d5, H5⟩, H6⟩
    iapply (sound_first c Set.univ (grid0.coords t) (buf_ids t) (whole_ids t) (buf_wih t) (whole_wih t) (buf_bih t) (whole_bih t) (buf_hprev t) (whole_hprev t) (buf_whh t) (whole_whh t) (buf_bhh t) (whole_bhh t) (buf_hid t) (whole_hid t) scr0 (Memref.isWhole_whole _) hF hL (iblk0 V c 0 t) (iblk0 V c 1 t) _)
    isplitl [H0]; · iexact H0
    isplitl [H1]; · iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hF : ¬atFirst (grid0.coords t) := fun h => hz ((atFirst_iff t).mp h)
    rw [inv0_pos V c _ _ hz, acc0_pos V c t hz]
    by_cases hl : t.val = 22
    · have hL : atLast (grid0.coords t) := (atLast_iff t).mpr hl
      rw [leaves_hid_last V c t hL]
      unfold hid0
      rw [acc0_pos V c t hz]
      iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
      iapply (sound_last c Set.univ (grid0.coords t) (buf_ids t) (whole_ids t) (buf_wih t) (whole_wih t) (buf_bih t) (whole_bih t) (buf_hprev t) (whole_hprev t) (buf_whh t) (whole_whh t) (buf_bhh t) (whole_bhh t) (buf_hid t) (whole_hid t) scr0 (Memref.isWhole_whole _) hF hL (iblk0 V c 0 t) (iblk0 V c 1 t) (iblk0 V c 2 t) (iblk0 V c 3 t) (iblk0 V c 4 t) (iblk0 V c 5 t) (acc0 V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hL : ¬atLast (grid0.coords t) := fun h => hl ((atLast_iff t).mp h)
      rw [Dat.leavesExact_idle (dat0 V c) 6 t (hidden_idle t hL) (hidden_kept t hL)]
      iintro ⟨⟨HS, Hoth, Hg⟩, Ho, ⟨%d0, H0⟩, ⟨%d1, H1⟩, ⟨%d2, H2⟩, ⟨%d3, H3⟩, ⟨%d4, H4⟩, ⟨%d5, H5⟩, H6⟩
      iapply (sound_mid c Set.univ (grid0.coords t) (buf_ids t) (whole_ids t) (buf_wih t) (whole_wih t) (buf_bih t) (whole_bih t) (buf_hprev t) (whole_hprev t) (buf_whh t) (whole_whh t) (buf_bhh t) (whole_bhh t) (buf_hid t) (whole_hid t) scr0 (Memref.isWhole_whole _) hF hL (iblk0 V c 0 t) (iblk0 V c 1 t) (acc0 V c (t.val - 1) (by omega)) _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

end

/-- Before the first block the region's plain invariant (every scoped buffer that is no staging buffer of call 0
    at some contents, the generator register at some state) is the tracked one: the accumulator holds anything. -/
theorem hin0 (V : Entry F) (c : Dev nD) : (Pipeline.ΦA spec0 c : sProp 𝕄) ⊢ (dat0 V c).Φ 0 := by
  rw [show (dat0 V c).Φ 0 = inv0 V c 0 (Nat.zero_le _) from rfl, inv0_zero V c 0 _ rfl, plain0_eq]
  iintro ⟨⟨Hs, Ho⟩, Hg⟩
  isplitl [Hs]; · iexact Hs
  isplitl [Ho]; · iexact Ho
  iexact Hg

/-- After the last block the tracked invariant gives the plain one back: the accumulator's contents are forgotten. -/
theorem hout0 (V : Entry F) (c : Dev nD) : (dat0 V c).Φ (Fin.last cfg0.N) ⊢ (Pipeline.ΦA spec0 c : sProp 𝕄) := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 23 := N_0; omega), plain0_eq]
  iintro ⟨Hs, Ho, Hg⟩
  isplitl [Hs Ho]
  · isplitl [Hs]
    · iexists _; iexact Hs
    iexact Ho
  iexact Hg

/-- The body obligation of call 0, at every block. -/
theorem body_obligation0 (V : Entry F) (c : Dev nD) :
    BodyObligation (dat0 (F := F) V c) (defs₀ (F := F)) Variants.none () Set.univ := fun t => by
  rw [bigSep_W0, bigSep_W0]
  exact sound_body V c t

end Cert.KernelIdeal.Hand

end
-- ==== Proof.KIBody1.lean ====
/-
  Call 1's body at every block of output columns: it loads the hidden state, the block of output weights
  and the bias block, and stores tanh of their product plus bias over the whole output block.
-/
import proofs.«408627_j69286412419116_1_alg».proof.Proof.KIData
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The proof data, field by field -/

/-- The array each window of call 1 is cut from is the entry contents of its reference. -/
private theorem arr1 (V : Entry F) (c : Dev nD) (w : Fin cfg1.W) :
    (dat1 V c).A w = V c (Pipeline.arrRef spec1 w) := by
  dsimp only [dat1]

/-- The body leaves the hidden state's buffer at the hidden state, -/
private theorem left1_hid (V : Entry F) (c : Dev nD) (t : Fin cfg1.N) :
    (dat1 V c).after 0 t = iblk1 V c 0 t := by dsimp only [dat1]
/-- the weight block's buffer at the weight block, -/
private theorem left1_wts (V : Entry F) (c : Dev nD) (t : Fin cfg1.N) :
    (dat1 V c).after 1 t = iblk1 V c 1 t := by dsimp only [dat1]
/-- the bias block's buffer at the bias block, -/
private theorem left1_bias (V : Entry F) (c : Dev nD) (t : Fin cfg1.N) :
    (dat1 V c).after 2 t = iblk1 V c 2 t := by dsimp only [dat1]
/-- and the output block's buffer at tanh of product plus bias. -/
private theorem left1_out (V : Entry F) (c : Dev nD) (t : Fin cfg1.N) :
    (dat1 V c).after 3 t = logit1 V c t := by dsimp only [dat1]

/-! ## What the input buffers hold when the body is called

An input window's buffer holds the block of its current index whether or not the block was fetched at this
very point: the hidden state is fetched once, at the first block, and its index never moves; the weight and
bias blocks are fetched at every point.  The body leaves all three in place, so the buffer is what a fetch
at the point would have put there, the window's block. -/

private theorem held1_hid (V : Entry F) (c : Dev nD) (t : Fin cfg1.N) (d) :
    (dat1 V c).before 0 t d = iblk1 V c 0 t :=
  ((dat1 V c).before_in_eq_fetched 0 rfl (fun _ => rfl) (fun _ _ _ => rfl)
      (fun s => by rw [left1_hid]; unfold Dat.blockOf iblk1; rw [arr1]; try rfl) t d).trans
    (by unfold Dat.fetched Dat.blockOf iblk1; rw [arr1]; try rfl)

private theorem held1_wts (V : Entry F) (c : Dev nD) (t : Fin cfg1.N) (d) :
    (dat1 V c).before 1 t d = iblk1 V c 1 t :=
  ((dat1 V c).before_in_eq_fetched 1 rfl (fun _ => rfl) (fun _ _ _ => rfl)
      (fun s => by rw [left1_wts]; unfold Dat.blockOf iblk1; rw [arr1]; try rfl) t d).trans
    (by unfold Dat.fetched Dat.blockOf iblk1; rw [arr1]; try rfl)

private theorem held1_bias (V : Entry F) (c : Dev nD) (t : Fin cfg1.N) (d) :
    (dat1 V c).before 2 t d = iblk1 V c 2 t :=
  ((dat1 V c).before_in_eq_fetched 2 rfl (fun _ => rfl) (fun _ _ _ => rfl)
      (fun s => by rw [left1_bias]; unfold Dat.blockOf iblk1; rw [arr1]; try rfl) t d).trans
    (by unfold Dat.fetched Dat.blockOf iblk1; rw [arr1]; try rfl)

/-! ## The kernel on whole buffers -/

/-- The origin of a two-axis shape, however its zeros are spelt. -/
private theorem origin2 : (![0, 0] : Fin 2 → Nat) = fun _ => 0 := funext fun a => by fin_cases a <;> rfl

set_option maxHeartbeats 1000000 in
/-- On four whole buffers, the first three holding a hidden state `h`, a weight block `W` and a bias block `b`
    and the fourth anything, the kernel reads the three (and, idly, the fourth), and overwrites the whole fourth
    with tanh of `h · Wᵀ + b`; the three inputs are as they were. -/
private theorem logit_kernel_run (c : Dev nD) (E : Set ℕ) (i : grid1.Coords)
    (mh : Memref sig .tc .vmem S512x256 .f32) (hmh : mh.IsWhole)
    (mw : Memref sig .tc .vmem S2176x256 .f32) (hmw : mw.IsWhole)
    (mb : Memref sig .tc .vmem S1x2176 .f32) (hmb : mb.IsWhole)
    (mo : Memref sig .tc .vmem S512x2176 .f32) (hmo : mo.IsWhole)
    (h : Vec F S512x256 .f32) (W : Vec F S2176x256 .f32) (b : Vec F S1x2176 .f32) (K : PUnit → sProp 𝕄) :
    iprop(owns (c : Thread nD τ) mh fullShare h ∗ owns (c : Thread nD τ) mw fullShare W
        ∗ owns (c : Thread nD τ) mb fullShare b ∗ (∃ d, owns (c : Thread nD τ) mo fullShare d)
        ∗ (iprop(owns (c : Thread nD τ) mh fullShare h ∗ owns (c : Thread nD τ) mw fullShare W
            ∗ owns (c : Thread nD τ) mb fullShare b ∗ owns (c : Thread nD τ) mo fullShare (k1_pay1 h W b)) -∗ K ⟨⟩))
      ⊢ wp frame (wpE (defs₀ (F := F)) Variants.none c none) E (cc1__logit_kernel i mh hmh mw hmw mb hmb mo hmo) K := by
  simp only [cc1__logit_kernel_eq_skeleton]; unfold cc1__logit_kernel_skel
  unfold owns
  iintro ⟨⟨%fh, %efh, Hh⟩, ⟨%fw, %efw, Hw⟩, ⟨%fb, %efb, Hb⟩, ⟨%d, %fo, -, Ho⟩, Hk⟩
  subst efh efw efb
  sl_exec
  sl_step
  iapply Hk
  isplitl [Hh]
  · iexists fh; isplitr; · ipureintro; rfl
    iexact Hh
  isplitl [Hw]
  · iexists fw; isplitr; · ipureintro; rfl
    iexact Hw
  isplitl [Hb]
  · iexists fb; isplitr; · ipureintro; rfl
    iexact Hb
  iexists _; isplitr
  swap; · iexact Ho
  ipureintro
  -- the one store covers the output block, so the block reads back as the store's value; each of that value's
  -- three operands is a load of a whole input buffer, which reads the buffer's contents
  rw [View.read_writes_eq_canon _ _ _ (fun y => ⟨_, List.mem_singleton_self _, View.mem_set_unit_zero origin2 inb_S512x2176_S512x2176_0_0 y⟩),
    View.canon_unit_zero origin2]
  simp only [View.readAt_eq_ld, View.ld_unit_zero (S := S512x256) origin2, View.ld_unit_zero (S := S2176x256) origin2,
    View.ld_unit_zero (S := S1x2176) origin2]

/-! ## The body at a block -/

set_option maxHeartbeats 1000000 in
/-- At block `t` the three input buffers hold their blocks, so the kernel leaves the output buffer at
    `logit1 V c t`; the invariant and what the core owes are not read and are the same at the next block. -/
private theorem body1_at (V : Entry F) (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  unfold bodyAt1
  simp only [held1_hid, held1_wts, held1_bias]
  rw [show (dat1 V c).Φ t.succ = (dat1 V c).Φ t.castSucc from rfl,
    show (dat1 V c).owesAt () t.succ = (dat1 V c).owesAt () t.castSucc from rfl,
    left1_hid, left1_wts, left1_bias, left1_out]
  iintro ⟨Hinv, Howe, ⟨%dh, Hh⟩, ⟨%dw, Hw⟩, ⟨%db, Hb⟩, ⟨%dz, Ho⟩⟩
  iapply (logit_kernel_run c Set.univ _ _ _ _ _ _ _ _ _ (iblk1 V c 0 t) (iblk1 V c 1 t) (iblk1 V c 2 t) _)
  isplitl [Hh]; · iexact Hh
  isplitl [Hw]; · iexact Hw
  isplitl [Hb]; · iexact Hb
  isplitl [Ho]; · iexists _; iexact Ho
  iintro ⟨Hh, Hw, Hb, Ho⟩
  isplitl [Hinv]; · iexact Hinv
  isplitl [Howe]; · iexact Howe
  isplitl [Hh]; · iexact Hh
  isplitl [Hw]; · iexact Hw
  isplitl [Hb]; · iexact Hb
  unfold logit1
  iexact Ho

/-- The body obligation of call 1, at every block. -/
theorem body_obligation1 (V : Entry F) (c : Dev nD) :
    BodyObligation (dat1 (F := F) V c) (defs₀ (F := F)) Variants.none () Set.univ := fun t => by
  rw [bigSep_W1, bigSep_W1]
  exact body1_at V c t

end Cert.KernelIdeal.Hand

end
-- ==== Proof.KIRun.lean ====
/-
  The whole program as a chain of host stretches and the two calls, launched: every execution ends, and
  at the end every unscoped buffer of a core holds what the fold of KIVals says — in particular the two
  results, and the eight arguments as launched.

  Each call is entered from "every unscoped buffer whole at the boundary's contents, the generator
  register at some state, nothing owed"; its arrays are split out of the unscoped buffers, the register
  and the scoped rest go into the body's invariant and come back, and the arrays are put back with the
  result array at what the write-backs left.
-/
import proofs.«408627_j69286412419116_1_alg».proof.Proof.KIVals
import proofs.«408627_j69286412419116_1_alg».proof.Proof.KIBody0
import proofs.«408627_j69286412419116_1_alg».proof.Proof.KIBody1
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Both calls' proof data, each at its call's entry contents. -/
def pdats : (p : Fin 2) → (c : Dev nD) → Dat τ (Elt F) Unit ℕ (UR sig nD τ) ℕ (cfgs p) c
  | ⟨0, _⟩ => fun c => dat0 (E7 m) c
  | ⟨1, _⟩ => fun c => dat1 (E8 m) c

/-- No core owes another anything: no level is assigned. -/
abbrev L0 : GSem nD τ sig → Finset Unit := fun _ => ∅
abbrev lv0 : GSem nD τ sig → Unit → ℕ := fun _ _ => 0

/-- What rides beside the buffers through every item: the generator register at some state, nothing owed. -/
abbrev Rest (c : Dev nD) : sProp 𝕄 :=
  iprop((∃ r, prngReg c r) ∗ ∃ W, owes (c : Thread nD τ) (0 : CellTallies nD τ sig Unit) W)

/-- After call 0 each of its arrays holds what the pipeline leaves: the inputs as entered, the result array the
    write-back of the last block. -/
theorem hF0 (c : Dev nD) (w : Fin cfg0.W) : (dat0 (E7 m) c).arrAt w cfg0.N = E8 m c (Pipeline.arrRef spec0 w) :=
  match w with
  | ⟨0, _⟩ => ((dat0 (E7 m) c).arrAt_in 0 rfl _).trans (by dsimp only [dat0]; exact (W8_of_ne m c _ (by decide)).symm)
  | ⟨1, _⟩ => ((dat0 (E7 m) c).arrAt_in 1 rfl _).trans (by dsimp only [dat0]; exact (W8_of_ne m c _ (by decide)).symm)
  | ⟨2, _⟩ => ((dat0 (E7 m) c).arrAt_in 2 rfl _).trans (by dsimp only [dat0]; exact (W8_of_ne m c _ (by decide)).symm)
  | ⟨3, _⟩ => ((dat0 (E7 m) c).arrAt_in 3 rfl _).trans (by dsimp only [dat0]; exact (W8_of_ne m c _ (by decide)).symm)
  | ⟨4, _⟩ => ((dat0 (E7 m) c).arrAt_in 4 rfl _).trans (by dsimp only [dat0]; exact (W8_of_ne m c _ (by decide)).symm)
  | ⟨5, _⟩ => ((dat0 (E7 m) c).arrAt_in 5 rfl _).trans (by dsimp only [dat0]; exact (W8_of_ne m c _ (by decide)).symm)
  | ⟨6, _⟩ => (W8_v8 m c).symm
/-- Every other buffer is as entered. -/
theorem hrest0 (c : Dev nD) : ∀ b, b ∉ Finset.univ.image (Pipeline.arrRef spec0) → E8 m c b = E7 m c b :=
  fun b hb => W8_of_ne m c b fun e => hb (Finset.mem_image.mpr ⟨6, Finset.mem_univ _, e.symm⟩)

/-- The boundary after call 1, read at the TensorCore's references. -/
abbrev E9 : Entry F := fun c b => W9 m c b

theorem hF1 (c : Dev nD) (w : Fin cfg1.W) : (dat1 (E8 m) c).arrAt w cfg1.N = E9 m c (Pipeline.arrRef spec1 w) :=
  match w with
  | ⟨0, _⟩ => ((dat1 (E8 m) c).arrAt_in 0 rfl _).trans (by dsimp only [dat1]; exact (W9_of_ne m c _ (by decide)).symm)
  | ⟨1, _⟩ => ((dat1 (E8 m) c).arrAt_in 1 rfl _).trans (by dsimp only [dat1]; exact (W9_of_ne m c _ (by decide)).symm)
  | ⟨2, _⟩ => ((dat1 (E8 m) c).arrAt_in 2 rfl _).trans (by dsimp only [dat1]; exact (W9_of_ne m c _ (by decide)).symm)
  | ⟨3, _⟩ => (W9_v9 m c).symm
theorem hrest1 (c : Dev nD) : ∀ b, b ∉ Finset.univ.image (Pipeline.arrRef spec1) → E9 m c b = E8 m c b :=
  fun b hb => W9_of_ne m c b fun e => hb (Finset.mem_image.mpr ⟨3, Finset.mem_univ _, e.symm⟩)

set_option backward.isDefEq.respectTransparency.types false in
/-- Call 0 as an item of the chain. -/
def reg0 : RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L0 lv0 0 fun _ _ => rfl
  pre c := iprop(StableHlo.held (c : Thread nD τ) (Pipeline.ucRefs τ sig) (W7 m c) ∗ Rest c)
  post c := iprop(StableHlo.held (c : Thread nD τ) (Pipeline.ucRefs τ sig) (W8 m c) ∗ Rest c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h' : (iprop(Pipeline.scopedRest (Ix := Unit) (Name := ℕ) (U := UR sig nD τ) (Lvl := ℕ) (Val := Elt F) spec0 c ∗ ∃ r, prngReg c r) : sProp 𝕄)
        ⊢ (dat0 (E7 m) c).Φ 0 := by
      have := hin0 (E7 m) c; unfold Pipeline.ΦA at this; exact this
    rw [show (pdats m 0 c).Φ 0 = (dat0 (E7 m) c).Φ 0 from rfl]
    iintro ⟨Hp, -, Hr⟩
    iapply h'
    isplitl [Hr]; · iexact Hr
    iexact Hp
  hout c := by
    have h' : (dat0 (E7 m) c).Φ (Fin.last cfg0.N)
        ⊢ (iprop(Pipeline.scopedRest (Ix := Unit) (Name := ℕ) (U := UR sig nD τ) (Lvl := ℕ) (Val := Elt F) spec0 c ∗ ∃ r, prngReg c r) : sProp 𝕄) := by
      have := hout0 (E7 m) c; unfold Pipeline.ΦA at this; exact this
    rw [Pipeline.ownSems0_none, show (pdats m 0 c).Φ (Fin.last _) = (dat0 (E7 m) c).Φ (Fin.last cfg0.N) from rfl]
    iintro H
    ihave H' := h' $$ H
    icases H' with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E7 m c) (E8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as an item of the chain. -/
def reg1 : RegionSeg (pcfgs (F := F)) Gen.adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L0 lv0 1 fun _ _ => rfl
  pre c := iprop(StableHlo.held (c : Thread nD τ) (Pipeline.ucRefs τ sig) (W8 m c) ∗ Rest c)
  post c := iprop(StableHlo.held (c : Thread nD τ) (Pipeline.ucRefs τ sig) (W9 m c) ∗ Rest c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E8 m c) (E9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The launch element: the pipeline library's, at both calls' staging cells. -/
abbrev u0 : UR sig nD τ := initOf (Pipeline.cells cfgs cellOf_inj) (Pipeline.launchToks cfgs cellOf_inj)

theorem hu0 : (ownU (u0 : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, apart from its unscoped buffers, makes the rest that rides along. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L0 lv0)
    ⊢ (|={Set.univ}=> bigSep Finset.univ (fun c : Dev nD => Rest (F := F) c) : sProp 𝕄) := by
  have h : ∀ c : Dev nD, iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (Rest (F := F) c : sProp 𝕄) := fun c => by
    iintro ⟨-, HO, -, Hp, -⟩
    isplitl [Hp]; · iexists _; iexact Hp
    iexists ∅; iexact HO
  have hall : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => Rest (F := F) c) : sProp 𝕄) := bigSep_mono fun c _ => h c
  iintro ⟨H, -⟩
  imodintro
  iapply hall
  iexact H

set_option backward.isDefEq.respectTransparency.types false in
/-- The frame claim at any float instance: every execution ends, nothing faults, the eight arguments end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m (EP := emb₁) (ι := ()) (𝒱₀ := Variants.none) (L := L0) (lv := lv0) (hL := fun _ _ => rfl) (ρ := ρ)
    (outs := outs m) (pdats := pdats m) (O₀ := 0) (G := fun _ => (BI.emp : sProp 𝕄)) (u₀ := u0) (hu₀ := hu0)
    (E := fun _ c => Rest c) (hE0 := hE0 ρ) (hE2 := fun c => by iintro ⟨-, H⟩; iexact H)
    (R0 := reg0 m) (hpre0 := fun c => .rfl) (hpost0 := fun c => by rw [V8_eq]; exact .rfl)
    (R1 := reg1 m) (hpre1 := fun c => by rw [V8_eq]; exact .rfl) (hpost1 := fun c => by rw [V9_eq]; exact .rfl)

set_option backward.isDefEq.respectTransparency.types false in
/-- The run with every unscoped buffer named at the end: the same launch over the same items, the last thread
    state read whole against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) := by
  refine Pipeline.θ_run_regions_kit_dev (pcfgs (F := F)) Gen.adm (pdats m) () cellOf_inj emb₁ defs₀ Variants.none L0 lv0 m ρ main
    (Gen.segs m (outs m) Variants.none L0 lv0 (fun _ c => Rest c) () (pdats m) (reg0 m) (reg1 m))
    (fun c Q => by
      rewrite [main_chain c, Seg.run_eq_chain,
        show (Gen.segs m (outs m) Variants.none L0 lv0 (fun _ c => Rest c) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) (0 : Dev nD → CellTallies nD τ sig Unit) (fun _ _ => rfl)
    (fun _ => (BI.emp : sProp 𝕄)) u0 hu0
    (T₀ := fun c => iprop(StableHlo.held (c : Thread nD τ) (Pipeline.ucRefs τ sig) (Gen.V0 m c) ∗ Rest c))
    (Tₙ := fun c => StableHlo.held (c : Thread nD τ) (Pipeline.ucRefs τ sig) (Gen.V10 m (outs m) c))
    (hch := fun c => ⟨.rfl, .rfl, .rfl, .rfl, .rfl, .rfl, .rfl, .rfl,
      (show (reg0 m).post c ⊢ (reg1 m).pre c from .rfl),
      (show (iprop(StableHlo.held (c : Thread nD τ) (Pipeline.ucRefs τ sig) (W9 m c) ∗ Rest c) : sProp 𝕄)
        ⊢ iprop(StableHlo.held (c : Thread nD τ) (Pipeline.ucRefs τ sig) (Gen.V9 m (outs m) c) ∗ Rest c) from by rw [V9_eq]),
      sep_mono .rfl (show Rest c ⊢ _ from by iintro ⟨-, H⟩; iexact H)⟩)
    (hinit := ?_) (QY := fun c s => ∀ b ∈ Pipeline.ucRefs τ sig, s.mem (((c : Thread nD τ)).1, b) = W10 m c b)
    (hfin := fun c s' => ?_) (hQ := fun _ h => h)
  · refine Pipeline.initEach L0 lv0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    rw [V10_eq]
    iintro ⟨Hh, HSI⟩
    imodintro
    iapply (pointsTo_read_all (Pipeline.ucRefs τ sig) (fun b => (((c : Thread nD τ)).1, b)) (W10 m c) s')
    isplitl [Hh] <;> iassumption

end Cert.KernelIdeal.Hand

end
-- ==== Proof.KIArr.lean ====
/-
  What the two result arrays hold after their calls, from the write-backs: call 0 writes its one block
  (the whole array) back once, after the last grid point; call 1 writes block `t` of 2176 columns back at
  point `t`, and the 23 blocks tile the padded row.
-/
import proofs.«408627_j69286412419116_1_alg».proof.Proof.KIData
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2)

variable {F : FTy → Type} [FloatOps F]

local notation "𝕄" => MT nD τ sig Unit (Elt F) ℕ (UR sig nD τ) ℕ

/-- The last grid point of call 0. -/
abbrev tlast0 : Fin cfg0.N := ⟨22, by decide⟩

/-! ## Call 0: one block, the whole array, written back once -/

/-- An index of the result array lies in window 6's block at point `t` iff each coordinate lies in the block's
    range on its axis. -/
private theorem mem_blk0_6 (t : Fin cfg0.N) (i : S512x256.Idx) :
    i ∈ ((cfg0.win 6).blk t).view.set ↔ ∀ a : Fin 2, win0_6.index t a * S512x256.size a ≤ (i a).val
      ∧ (i a).val < win0_6.index t a * S512x256.size a + S512x256.size a := by
  show i ∈ ((View.whole main_v8).slice (win0_6.rect t)).set ↔ _
  rw [View.set_slice_whole, Rect.mem_set_unit]
  exact Iff.rfl

/-- Window 6's block index is (0, 0) at every point. -/
private theorem idx0_6 (t : Fin cfg0.N) : win0_6.index t (0 : Fin 2) = 0 ∧ win0_6.index t (1 : Fin 2) = 0 :=
  ⟨rfl, rfl⟩

/-- Call 0's result array after the run: written back once, whole, after the last block, so it holds the gate
    arithmetic over the complete accumulator. -/
theorem arr0_final (V : Entry F) (c : Dev nD) :
    (dat0 V c).arrAt 6 cfg0.N = hid0 V c tlast0 := by
  refine (dat0 V c).arrAt_eq_of_cover 6 (hid0 V c tlast0) ?_ ?_
  · intro t hf
    have ht : t = tlast0 := by
      have h := (flush0_6 t).mp hf
      have hlt : t.val < 23 := t.isLt
      apply Fin.ext
      show t.val = 22
      omega
    subst ht
    funext y
    show hid0 V c tlast0 (win0_6.xinj (grid0.coords tlast0) y) = hid0 V c tlast0 (((cfg0.win 6).blk tlast0).view.emb y)
    refine congrArg (hid0 V c tlast0) (Shape.idx_ext₂ ?_ ?_)
    · show (y 0).val = win0_6.index tlast0 (0 : Fin 2) * 512 + 1 * (y 0).val
      rw [(idx0_6 tlast0).1]; omega
    · show (y 1).val = win0_6.index tlast0 (1 : Fin 2) * 256 + 1 * (y 1).val
      rw [(idx0_6 tlast0).2]; omega
  · intro i
    refine ⟨tlast0, (flush0_6 tlast0).mpr rfl, ?_⟩
    rw [mem_blk0_6]
    intro a
    match a with
    | ⟨0, _⟩ =>
      show win0_6.index tlast0 (0 : Fin 2) * 512 ≤ (i 0).val ∧ (i 0).val < win0_6.index tlast0 (0 : Fin 2) * 512 + 512
      rw [(idx0_6 tlast0).1]; have := ValueIdx.idx2_lt0 i; omega
    | ⟨1, _⟩ =>
      show win0_6.index tlast0 (1 : Fin 2) * 256 ≤ (i 1).val ∧ (i 1).val < win0_6.index tlast0 (1 : Fin 2) * 256 + 256
      rw [(idx0_6 tlast0).2]; have := ValueIdx.idx2_lt1 i; omega

/-! ## Call 1: 23 blocks of 2176 columns tile the padded row -/

/-- An index of the result array lies in window 3's block at point `t` iff each coordinate lies in the block's
    range on its axis. -/
private theorem mem_blk1_3 (t : Fin cfg1.N) (i : S512x50048.Idx) :
    i ∈ ((cfg1.win 3).blk t).view.set ↔ ∀ a : Fin 2, win1_3.index t a * S512x2176.size a ≤ (i a).val
      ∧ (i a).val < win1_3.index t a * S512x2176.size a + S512x2176.size a := by
  show i ∈ ((View.whole main_v9).slice (win1_3.rect t)).set ↔ _
  rw [View.set_slice_whole, Rect.mem_set_unit]
  exact Iff.rfl

/-- Window 3's block index at point `t` is (0, t): decided over the grid. -/
private theorem idx1_3 : ∀ t : Fin cfg1.N, win1_3.index t (0 : Fin 2) = 0 ∧ win1_3.index t (1 : Fin 2) = t.val :=
  (by decide +kernel : ∀ t : Fin grid1.N, win1_3.index t (0 : Fin 2) = 0 ∧ win1_3.index t (1 : Fin 2) = t.val)

/-- The whole result array as one function of the index: entry (b, v) is entry (b, v mod 2176) of the block
    computed at point v / 2176. -/
private def whole1 (V : Entry F) (c : Dev nD) : S512x50048.Idx → Elt F .f32 := fun i =>
  logit1 V c ⟨(i 1).val / 2176, by have := ValueIdx.idx2_lt1 i; show (i 1).val / 2176 < 23; omega⟩
    (ix2 (i 0) ⟨(i 1).val % 2176, Nat.mod_lt _ (by decide)⟩)

/-- Two entries of computed blocks agree when the points and the two coordinates agree as naturals. -/
private theorem logit1_congr (V : Entry F) (c : Dev nD) (t t' : Fin cfg1.N) (y y' : S512x2176.Idx)
    (ht : t.val = t'.val) (h0 : (y 0).val = (y' 0).val) (h1 : (y 1).val = (y' 1).val) :
    logit1 V c t y = logit1 V c t' y' := by
  obtain rfl : t = t' := Fin.ext ht
  obtain rfl : y = y' := Shape.idx_ext₂ h0 h1
  rfl

/-- What point `t` writes back is block `t` of the whole-array function. -/
private theorem flushed1_3 (V : Entry F) (c : Dev nD) (t : Fin cfg1.N) :
    (dat1 V c).flushed 3 t = ((cfg1.win 3).blk t).view.read (Elt F) (whole1 V c) := by
  funext y
  show logit1 V c t (win1_3.xinj (grid1.coords t) y) = whole1 V c (((cfg1.win 3).blk t).view.emb y)
  obtain ⟨e0, e1⟩ := idx1_3 t
  have hy0 : (y 0).val < 512 := (y 0).isLt
  have hy1 : (y 1).val < 2176 := (y 1).isLt
  have c0 : ((((cfg1.win 3).blk t).view.emb y) 0).val = win1_3.index t (0 : Fin 2) * 512 + 1 * (y 0).val := rfl
  have c1 : ((((cfg1.win 3).blk t).view.emb y) 1).val = win1_3.index t (1 : Fin 2) * 2176 + 1 * (y 1).val := rfl
  unfold whole1
  refine logit1_congr V c _ _ _ _ ?_ ?_ ?_
  · show t.val = ((((cfg1.win 3).blk t).view.emb y) 1).val / 2176
    rw [c1, e1]; omega
  · show (y 0).val = ((((cfg1.win 3).blk t).view.emb y) 0).val
    rw [c0, e0]; omega
  · show (y 1).val = ((((cfg1.win 3).blk t).view.emb y) 1).val % 2176
    rw [c1, e1]; omega

/-- Every index of the result array lies in the block of the point its column number names. -/
private theorem cover1_3 (i : S512x50048.Idx) :
    ∃ t : Fin cfg1.N, (cfg1.win 3).flush t = true ∧ i ∈ ((cfg1.win 3).blk t).view.set := by
  have hi0 := ValueIdx.idx2_lt0 i
  have hi1 := ValueIdx.idx2_lt1 i
  refine ⟨⟨(i 1).val / 2176, by show (i 1).val / 2176 < 23; omega⟩, flush1_3 _, ?_⟩
  rw [mem_blk1_3]
  obtain ⟨e0, e1⟩ := idx1_3 ⟨(i 1).val / 2176, by show (i 1).val / 2176 < 23; omega⟩
  intro a
  match a with
  | ⟨0, _⟩ =>
    show win1_3.index _ (0 : Fin 2) * 512 ≤ (i 0).val ∧ (i 0).val < win1_3.index _ (0 : Fin 2) * 512 + 512
    rw [e0]; omega
  | ⟨1, _⟩ =>
    show win1_3.index _ (1 : Fin 2) * 2176 ≤ (i 1).val ∧ (i 1).val < win1_3.index _ (1 : Fin 2) * 2176 + 2176
    rw [e1]; show (i 1).val / 2176 * 2176 ≤ (i 1).val ∧ (i 1).val < (i 1).val / 2176 * 2176 + 2176; omega

/-- Call 1's result array after the run, entry by entry: column `v` of row `b` lies in block `v / 2176` at
    offset `v % 2176`, and holds what that block's body stored there. -/
theorem arr1_final (V : Entry F) (c : Dev nD) (b : Fin 512) (v : Fin 50048) :
    (dat1 V c).arrAt 3 cfg1.N (ix2 b v)
      = logit1 V c ⟨v.val / 2176, by have := v.isLt; show v.val / 2176 < 23; omega⟩
          (ix2 b ⟨v.val % 2176, Nat.mod_lt _ (by decide)⟩) := by
  have h := (dat1 V c).arrAt_eq_of_cover 3 (whole1 V c) (fun t _ => flushed1_3 V c t) cover1_3
  rw [h]
  rfl

end Cert.KernelIdeal.Hand

end
-- ==== Proof.Spec.lean ====
/-
  The GRU step and the output layer as plain functions of the eight argument arrays, entry by entry, on
  the extended reals.

  An item id selects ONE column of the input-to-hidden weights: multiplying a one-hot row by the weight
  matrix is reading that column.  So the input-side pre-activation of unit `j` for batch row `b` is
  `w_ih[j, id b] + b_ih[j]`; the hidden-side one is the usual inner product with `w_hh` plus `b_hh`.
  The three gates are stacked along the 768 axis in thirds (reset, update, candidate):

      r = σ(gi[j] + gh[j])                 z = σ(gi[256 + j] + gh[256 + j])
      n = tanh(gi[512 + j] + r · gh[512 + j])        h' = (1 − z) · n + z · h

  and the logit of item `v` is `tanh(⟨h', w_out[v, ·]⟩ + b_out[v])`.  The constant one is kept as the
  float pattern both programs print.
-/
import Idealize.ShloMosaic.PureOps.Ideal
import Idealize.ShloMosaic.Lib.ValueIdx

noncomputable section

namespace Cert.Spec

open Idealize.ShloMosaic Idealize.ShloMosaic.ValueIdx
open scoped BigOperators

abbrev A512 : Shape := ⟨1, ![512]⟩
abbrev A1x512x256 : Shape := ⟨3, ![1, 512, 256]⟩
abbrev A768x50000 : Shape := ⟨2, ![768, 50000]⟩
abbrev A768x256 : Shape := ⟨2, ![768, 256]⟩
abbrev A768 : Shape := ⟨1, ![768]⟩
abbrev A50000x256 : Shape := ⟨2, ![50000, 256]⟩
abbrev A50000 : Shape := ⟨1, ![50000]⟩

variable (ids : A512.Idx → BitVec 32) (hidden : A1x512x256.Idx → EReal) (wih : A768x50000.Idx → EReal)
  (whh : A768x256.Idx → EReal) (bih bhh : A768.Idx → EReal) (wout : A50000x256.Idx → EReal) (bout : A50000.Idx → EReal)

/-- The float pattern of 1.0 that both programs print. -/
abbrev one : EReal := Ideal.ofBits .f32 0x3F800000#32

/-- The item of batch row `b`, as a column of the vocabulary (the id read as a natural number; a total function:
    ids are in range under the certificate's precondition). -/
def item (b : Fin 512) : Fin 50000 := ⟨(ids (ix1 b)).toNat % 50000, Nat.mod_lt _ (by decide)⟩

/-- The input-side pre-activation: the selected column of `w_ih` plus `b_ih`. -/
def gi (b : Fin 512) (j : Fin 768) : EReal := wih (ix2 j (item ids b)) + bih (ix1 j)

/-- The hidden-side pre-activation: `h · w_hhᵀ + b_hh`. -/
def gh (b : Fin 512) (j : Fin 768) : EReal := (∑ k : Fin 256, hidden (ix3 0 b k) * whh (ix2 j k)) + bhh (ix1 j)

/-- Unit `h` of the reset, update and candidate thirds of the stacked axis. -/
abbrev third0 (h : Fin 256) : Fin 768 := ⟨h.val, by have := h.isLt; omega⟩
abbrev third1 (h : Fin 256) : Fin 768 := ⟨256 + h.val, by have := h.isLt; omega⟩
abbrev third2 (h : Fin 256) : Fin 768 := ⟨512 + h.val, by have := h.isLt; omega⟩

def gateR (b : Fin 512) (h : Fin 256) : EReal :=
  Ideal.logistic (gi ids wih bih b (third0 h) + gh hidden whh bhh b (third0 h))
def gateZ (b : Fin 512) (h : Fin 256) : EReal :=
  Ideal.logistic (gi ids wih bih b (third1 h) + gh hidden whh bhh b (third1 h))
def cand (b : Fin 512) (h : Fin 256) : EReal :=
  Ideal.tanh (gi ids wih bih b (third2 h) + gateR ids hidden wih whh bih bhh b h * gh hidden whh bhh b (third2 h))

/-- The new hidden state. -/
def newHid (b : Fin 512) (h : Fin 256) : EReal :=
  (one - gateZ ids hidden wih whh bih bhh b h) * cand ids hidden wih whh bih bhh b h
    + gateZ ids hidden wih whh bih bhh b h * hidden (ix3 0 b h)

/-- The logit of item `v` for batch row `b`. -/
def logit (b : Fin 512) (v : Fin 50000) : EReal :=
  Ideal.tanh ((∑ h : Fin 256, newHid ids hidden wih whh bih bhh b h * wout (ix2 v h)) + bout (ix1 v))

end Cert.Spec

end
-- ==== Proof.KVal0.lean ====
/-
  The new hidden state call 0 leaves, entry by entry, at the extended reals.

  The accumulator after block `n` holds, at row `b` and unit `j`, the weight `w_ih[j, id b]` once the block that
  contains column `id b` has been visited and zero before: each block adds the inner product of a one-hot
  row (one where the block's column number equals the id) with the block of weights, which is the one
  selected weight when the id falls in the block and zero otherwise; the padded columns hold zero and no
  in-range id selects them.  After the last block every id has been met, so the accumulator is the
  selected column, and the gate arithmetic over it is the specification's.
-/
import proofs.«408627_j69286412419116_1_alg».proof.Proof.KIVals
import proofs.«408627_j69286412419116_1_alg».proof.Proof.Spec
import Idealize.ShloMosaic.PureOps.Ideal.Laws
import Idealize.ShloMosaic.Lib.ValueLayout
import Idealize.ShloMosaic.Lib.KernelVsHost

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx
open scoped BigOperators

variable (m : (ℓ : Loc nD τ sig) → Buf (Elt Ideal) ℓ) (c : Dev nD)

/-- Every item id lies in the vocabulary (what the certificate's precondition says of the id array). -/
def IdsInRange : Prop :=
  ∀ b : Fin 512, 0 ≤ (m ((c.tc : Thread nD τ).loc main_arg0) (ix1 b) : BitVec 32).toInt
    ∧ (m ((c.tc : Thread nD τ).loc main_arg0) (ix1 b) : BitVec 32).toInt < 50000

/-! ## What the host stretches leave in call 0's windows' arrays -/

/-- A vector cast to a column reads, at row r, the vector's entry r. -/
private theorem shapeCast_col_apply {α : Type} {n : ℕ} (x : (⟨1, ![n]⟩ : Shape).Idx → α)
    (h : (⟨1, ![n]⟩ : Shape).ShapeCasts ⟨2, ![n, 1]⟩) (r : Fin n) (z : Fin 1) :
    shapeCast ⟨2, ![n, 1]⟩ x h (ix2 r z) = x (ix1 r) := by
  refine shapeCast_apply x h (ix2 r z) (ix1 r) ?_
  rw [Shape.rowMajor_val_two, Shape.rowMajor_val_one]
  show r.val = r.val * 1 + z.val
  have := z.isLt; omega

/-- The ids column is the id vector: the first stretch reshapes it, no later stretch writes it. -/
private theorem E7_v0_apply (b : Fin 512) (z : Fin 1) :
    (E7 m c main_v0 : S512x1.Idx → BitVec 32) (ix2 b z)
      = (m ((c.tc : Thread nD τ).loc main_arg0) : S512.Idx → BitVec 32) (ix1 b) := by
  have e : (E7 m c main_v0 : S512x1.Idx → BitVec 32)
      = shapeCast S512x1 (m ((c.tc : Thread nD τ).loc main_arg0) : S512.Idx → BitVec 32) Facts₀.shapeCasts_S512_S512x1 := by
    show Gen.V7 m c (Proc.devRef .tc main_v0) = _
    rw [Gen.V7_of m c main_v0 (by decide), Gen.V6_of m c main_v0 (by decide), Gen.V5_of m c main_v0 (by decide),
      Gen.V4_of m c main_v0 (by decide), Gen.V3_of m c main_v0 (by decide), Gen.V2_of m c main_v0 (by decide)]
    show StableHlo.after Gen.hostOps0 (Gen.V0 m c) (Proc.devRef .tc main_v0) = _
    after_results
    rfl
  rw [e]
  exact shapeCast_col_apply _ _ b z

/-- The hidden-state matrix is the hidden state with its unit axis dropped. -/
private theorem E7_v1_apply (b : Fin 512) (k : Fin 256) :
    (E7 m c main_v1 : S512x256.Idx → EReal) (ix2 b k)
      = (m ((c.tc : Thread nD τ).loc main_arg1) : S1x512x256.Idx → EReal) (ix3 (0 : Fin 1) b k) := by
  have e : (E7 m c main_v1 : S512x256.Idx → EReal)
      = shapeCast S512x256 (m ((c.tc : Thread nD τ).loc main_arg1) : S1x512x256.Idx → EReal)
          Facts₀.shapeCasts_S1x512x256_S512x256 := by
    show Gen.V7 m c (Proc.devRef .tc main_v1) = _
    rw [Gen.V7_of m c main_v1 (by decide), Gen.V6_of m c main_v1 (by decide), Gen.V5_of m c main_v1 (by decide),
      Gen.V4_of m c main_v1 (by decide), Gen.V3_of m c main_v1 (by decide), Gen.V2_of m c main_v1 (by decide)]
    show StableHlo.after Gen.hostOps0 (Gen.V0 m c) (Proc.devRef .tc main_v1) = _
    after_results
    rfl
  rw [e]
  exact shapeCast_1ab_ab_apply _ _ b k

/-- The padded weights are the weights with zero columns appended on the right. -/
private theorem E7_v2_eq : (E7 m c main_v2 : S768x50048.Idx → EReal)
    = pad S768x50048 ![0, 0] ![0, 48] ![0, 0] (m ((c.tc : Thread nD τ).loc main_arg2) : S768x50000.Idx → EReal)
        (sitofp (F := Ideal) .f32 (constantI S_ 32 0#32)) Facts₀.pads_S768x50000_S768x50048_000_0480 Facts₀.h_S_ := by
  show Gen.V7 m c (Proc.devRef .tc main_v2) = _
  rw [Gen.V7_of m c main_v2 (by decide), Gen.V6_of m c main_v2 (by decide), Gen.V5_of m c main_v2 (by decide),
    Gen.V4_of m c main_v2 (by decide), Gen.V3_of m c main_v2 (by decide)]
  show StableHlo.after Gen.hostOps0_1 (Gen.V1 m c) (Proc.devRef .tc main_v2) = _
  after_results
  rfl

/-- At a column of the vocabulary the padded weights are the weights. -/
private theorem E7_v2_apply (j : Fin 768) (col : Fin 50048) (v : Fin 50000) (hv : col.val = v.val) :
    (E7 m c main_v2 : S768x50048.Idx → EReal) (ix2 j col)
      = (m ((c.tc : Thread nD τ).loc main_arg2) : S768x50000.Idx → EReal) (ix2 j v) := by
  rw [E7_v2_eq]
  refine pad_apply_of_inside _ _ _ _ _ _ _ (ix2 j col) (ix2 j v) fun a => ?_
  match a with
  | ⟨0, _⟩ => show j.val = 0 + j.val * (0 + 1); omega
  | ⟨1, _⟩ => show col.val = 0 + v.val * (0 + 1); omega

/-- The two bias rows are the bias vectors. -/
private theorem E7_v3_apply (z : Fin 1) (j : Fin 768) :
    (E7 m c main_v3 : S1x768.Idx → EReal) (ix2 z j)
      = (m ((c.tc : Thread nD τ).loc main_arg4) : S768.Idx → EReal) (ix1 j) := by
  have e : (E7 m c main_v3 : S1x768.Idx → EReal)
      = shapeCast S1x768 (m ((c.tc : Thread nD τ).loc main_arg4) : S768.Idx → EReal) Facts₀.shapeCasts_S768_S1x768 := by
    show Gen.V7 m c (Proc.devRef .tc main_v3) = _
    rw [Gen.V7_of m c main_v3 (by decide), Gen.V6_of m c main_v3 (by decide), Gen.V5_of m c main_v3 (by decide),
      Gen.V4_of m c main_v3 (by decide)]
    show StableHlo.after Gen.hostOps0_2 (Gen.V2 m c) (Proc.devRef .tc main_v3) = _
    after_results
    show shapeCast S1x768 (Gen.V2 m c (Proc.devRef .tc main_arg4)) _ = _
    rw [Gen.V2_of m c main_arg4 (by decide), Gen.V1_of m c main_arg4 (by decide)]
  rw [e]
  exact shapeCast_a_1a_apply _ _ z j

private theorem E7_v4_apply (z : Fin 1) (j : Fin 768) :
    (E7 m c main_v4 : S1x768.Idx → EReal) (ix2 z j)
      = (m ((c.tc : Thread nD τ).loc main_arg5) : S768.Idx → EReal) (ix1 j) := by
  have e : (E7 m c main_v4 : S1x768.Idx → EReal)
      = shapeCast S1x768 (m ((c.tc : Thread nD τ).loc main_arg5) : S768.Idx → EReal) Facts₀.shapeCasts_S768_S1x768 := by
    show Gen.V7 m c (Proc.devRef .tc main_v4) = _
    rw [Gen.V7_of m c main_v4 (by decide), Gen.V6_of m c main_v4 (by decide), Gen.V5_of m c main_v4 (by decide),
      Gen.V4_of m c main_v4 (by decide)]
    show StableHlo.after Gen.hostOps0_2 (Gen.V2 m c) (Proc.devRef .tc main_v4) = _
    after_results
    show shapeCast S1x768 (Gen.V2 m c (Proc.devRef .tc main_arg5)) _ = _
    rw [Gen.V2_of m c main_arg5 (by decide), Gen.V1_of m c main_arg5 (by decide)]
  rw [e]
  exact shapeCast_a_1a_apply _ _ z j

/-- The hidden-to-hidden weights are an argument no stretch writes. -/
private theorem E7_arg3 : (E7 m c main_arg3 : S768x256.Idx → EReal) = m ((c.tc : Thread nD τ).loc main_arg3) := by
  show Gen.V7 m c (Proc.devRef .tc main_arg3) = _
  rw [Gen.V7_of m c main_arg3 (by decide), Gen.V6_of m c main_arg3 (by decide), Gen.V5_of m c main_arg3 (by decide),
    Gen.V4_of m c main_arg3 (by decide), Gen.V3_of m c main_arg3 (by decide), Gen.V2_of m c main_arg3 (by decide),
    Gen.V1_of m c main_arg3 (by decide)]

/-! ## From blocks to the arrays

A block's coordinate is the window's block index times the block's extent plus the coordinate inside the block. The ids,
the two bias rows, the hidden state and the hidden-to-hidden weights are one block each; block t of the padded weights
is their columns [2176 t, 2176 (t + 1)). -/

section Blocks
variable (V : Entry Ideal)

private theorem idx0_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
private theorem idx0_1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
private theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
private theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
private theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
private theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

private theorem iblk0_0_apply (t : Fin cfg0.N) (b : Fin 512) (z : Fin 1) :
    (iblk0 V c 0 t : S512x1.Idx → BitVec 32) (ix2 b z) = (V c main_v0 : S512x1.Idx → BitVec 32) (ix2 b z) := by
  show V c main_v0 (((cfg0.win 0).blk t).view.emb (ix2 b z)) = V c main_v0 (ix2 b z)
  refine congrArg _ (funext fun a => Fin.ext ?_)
  match a with
  | ⟨0, _⟩ =>
    show win0_0.index t (0 : Fin 2) * 512 + 1 * b.val = b.val
    rw [(idx0_0 t).1]; omega
  | ⟨1, _⟩ =>
    show win0_0.index t (1 : Fin 2) * 1 + 1 * z.val = z.val
    rw [(idx0_0 t).2]; omega

private theorem iblk0_1_apply (t : Fin cfg0.N) (j : Fin 768) (k : Fin 2176) (col : Fin 50048)
    (hcol : col.val = 2176 * t.val + k.val) :
    (iblk0 V c 1 t : S768x2176.Idx → EReal) (ix2 j k) = (V c main_v2 : S768x50048.Idx → EReal) (ix2 j col) := by
  show V c main_v2 (((cfg0.win 1).blk t).view.emb (ix2 j k)) = V c main_v2 (ix2 j col)
  refine congrArg _ (funext fun a => Fin.ext ?_)
  match a with
  | ⟨0, _⟩ =>
    show win0_1.index t (0 : Fin 2) * 768 + 1 * j.val = j.val
    rw [(idx0_1 t).1]; omega
  | ⟨1, _⟩ =>
    show win0_1.index t (1 : Fin 2) * 2176 + 1 * k.val = col.val
    rw [(idx0_1 t).2]; omega

private theorem iblk0_2_apply (t : Fin cfg0.N) (z : Fin 1) (j : Fin 768) :
    (iblk0 V c 2 t : S1x768.Idx → EReal) (ix2 z j) = (V c main_v3 : S1x768.Idx → EReal) (ix2 z j) := by
  show V c main_v3 (((cfg0.win 2).blk t).view.emb (ix2 z j)) = V c main_v3 (ix2 z j)
  refine congrArg _ (funext fun a => Fin.ext ?_)
  match a with
  | ⟨0, _⟩ =>
    show win0_2.index t (0 : Fin 2) * 1 + 1 * z.val = z.val
    rw [(idx0_2 t).1]; omega
  | ⟨1, _⟩ =>
    show win0_2.index t (1 : Fin 2) * 768 + 1 * j.val = j.val
    rw [(idx0_2 t).2]; omega

private theorem iblk0_3_apply (t : Fin cfg0.N) (b : Fin 512) (k : Fin 256) :
    (iblk0 V c 3 t : S512x256.Idx → EReal) (ix2 b k) = (V c main_v1 : S512x256.Idx → EReal) (ix2 b k) := by
  show V c main_v1 (((cfg0.win 3).blk t).view.emb (ix2 b k)) = V c main_v1 (ix2 b k)
  refine congrArg _ (funext fun a => Fin.ext ?_)
  match a with
  | ⟨0, _⟩ =>
    show win0_3.index t (0 : Fin 2) * 512 + 1 * b.val = b.val
    rw [(idx0_3 t).1]; omega
  | ⟨1, _⟩ =>
    show win0_3.index t (1 : Fin 2) * 256 + 1 * k.val = k.val
    rw [(idx0_3 t).2]; omega

private theorem iblk0_4_apply (t : Fin cfg0.N) (j : Fin 768) (k : Fin 256) :
    (iblk0 V c 4 t : S768x256.Idx → EReal) (ix2 j k) = (V c main_arg3 : S768x256.Idx → EReal) (ix2 j k) := by
  show V c main_arg3 (((cfg0.win 4).blk t).view.emb (ix2 j k)) = V c main_arg3 (ix2 j k)
  refine congrArg _ (funext fun a => Fin.ext ?_)
  match a with
  | ⟨0, _⟩ =>
    show win0_4.index t (0 : Fin 2) * 768 + 1 * j.val = j.val
    rw [(idx0_4 t).1]; omega
  | ⟨1, _⟩ =>
    show win0_4.index t (1 : Fin 2) * 256 + 1 * k.val = k.val
    rw [(idx0_4 t).2]; omega

private theorem iblk0_5_apply (t : Fin cfg0.N) (z : Fin 1) (j : Fin 768) :
    (iblk0 V c 5 t : S1x768.Idx → EReal) (ix2 z j) = (V c main_v4 : S1x768.Idx → EReal) (ix2 z j) := by
  show V c main_v4 (((cfg0.win 5).blk t).view.emb (ix2 z j)) = V c main_v4 (ix2 z j)
  refine congrArg _ (funext fun a => Fin.ext ?_)
  match a with
  | ⟨0, _⟩ =>
    show win0_5.index t (0 : Fin 2) * 1 + 1 * z.val = z.val
    rw [(idx0_5 t).1]; omega
  | ⟨1, _⟩ =>
    show win0_5.index t (1 : Fin 2) * 768 + 1 * j.val = j.val
    rw [(idx0_5 t).2]; omega

end Blocks

/-! ## A product of rows by rows -/

section RowsByRows
variable (M K N : Nat)

private theorem rows_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
private theorem rows_lhs_1 (i : (⟨2, ![M, N]⟩ : Shape).Idx) (q : (DotDims.transposedRhs M K N).contr.Idx) :
    ((DotDims.transposedRhs M K N).lhsIdx i q 1).val = (q ⟨0, Nat.lt_of_lt_of_eq Nat.one_pos rfl⟩).val :=
  (DotDims.transposedRhs M K N).lhsIdx_val_of_single rfl i q
private theorem rows_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
private theorem rows_rhs_1 (i : (⟨2, ![M, N]⟩ : Shape).Idx) (q : (DotDims.transposedRhs M K N).contr.Idx) :
    ((DotDims.transposedRhs M K N).rhsIdx i q 1).val = (q ⟨0, Nat.lt_of_lt_of_eq Nat.one_pos rfl⟩).val :=
  (DotDims.transposedRhs M K N).rhsIdx_val_of_single rfl i q

/-- Rows by rows, into the zero accumulator: entry (a, b) is the sum over c of A(a, c) · B(b, c). -/
private theorem matmul_rows_apply {φ₁ φ₂ : FTy} (prec : Option ContractPrecision)
    (A : FVec Ideal ⟨2, ![M, K]⟩ φ₁) (B : FVec Ideal ⟨2, ![N, K]⟩ φ₂) (a : Fin M) (b : Fin N) :
    FloatOps.matmul (DotDims.transposedRhs M K N) prec A B (constant ⟨2, ![M, N]⟩ .f32 0x00000000#32) (ix2 a b)
      = ∑ c : Fin K, A (ix2 a c) * B (ix2 b c) := by
  rw [Ideal.matmul_constant_zero_apply, ← Equiv.sum_comp (contrEquiv1 (DotDims.transposedRhs M K N) K rfl rfl).symm]
  refine Finset.sum_congr rfl fun c _ => ?_
  have hc := contrEquiv1_symm_val (DotDims.transposedRhs M K N) K rfl rfl c
  have el : (DotDims.transposedRhs M K N).lhsIdx (ix2 a b) ((contrEquiv1 (DotDims.transposedRhs M K N) K rfl rfl).symm c) = ix2 a c :=
    funext fun ax => Fin.ext (by
      match ax with
      | ⟨0, _⟩ => exact rows_lhs_0 M K N _ _
      | ⟨1, _⟩ => exact (rows_lhs_1 M K N _ _).trans hc)
  have er : (DotDims.transposedRhs M K N).rhsIdx (ix2 a b) ((contrEquiv1 (DotDims.transposedRhs M K N) K rfl rfl).symm c) = ix2 b c :=
    funext fun ax => Fin.ext (by
      match ax with
      | ⟨0, _⟩ => exact rows_rhs_0 M K N _ _
      | ⟨1, _⟩ => exact (rows_rhs_1 M K N _ _).trans hc)
  rw [el, er]

end RowsByRows

private theorem dotA_eq : dot_S512x2176_S768x2176_S512x768_1_1_0_0_n_n = DotDims.transposedRhs 512 2176 768 := rfl
private theorem dotB_eq : dot_S512x256_S768x256_S512x768_1_1_0_0_n_n = DotDims.transposedRhs 512 256 768 := rfl

/-! ## One block's contribution -/

/-- A column laid over a matrix reads, at (r, t), the column's entry r. -/
private theorem broadcastTo_col_apply {α : Type} {a n : ℕ} (v : (⟨2, ![a, 1]⟩ : Shape).Idx → α)
    (h : (⟨2, ![a, 1]⟩ : Shape).Broadcasts ⟨2, ![a, n]⟩) (r : Fin a) (t : Fin n) :
    broadcastTo ⟨2, ![a, n]⟩ v h (ix2 r t) = v (ix2 r (0 : Fin 1)) := by
  refine broadcastTo_apply v h (ix2 r t) (ix2 r (0 : Fin 1)) fun ax => ?_
  match ax with
  | ⟨0, _⟩ =>
    show r.val = if a = 1 then 0 else r.val
    split
    · have := r.isLt; omega
    · rfl
  | ⟨1, _⟩ => rfl

/-- 1 when two words are equal and 0 when they differ: the comparison's bit, widened to 32 bits and converted signed. -/
private def hotWord (w v : BitVec 32) : EReal := ((((IntOp.cmpi .eq w v).setWidth 32).toInt : ℝ) : EReal)

private theorem hotWord_self (w : BitVec 32) : hotWord w w = 1 := by
  unfold hotWord IntOp.cmpi
  simp

private theorem hotWord_ne {w v : BitVec 32} (h : w ≠ v) : hotWord w v = 0 := by
  unfold hotWord IntOp.cmpi
  have e : (w == v) = false := beq_eq_false_iff_ne.mpr h
  simp [e]

/-- Block i's payload at (b, j): the accumulator's entry plus the inner product of the row "id b is column k of the
    block" with row j of the block of weights. -/
private theorem k0_pay2_apply (i : grid0.Coords) (ids : Vec Ideal S512x1 .i32) (wblk : Vec Ideal S768x2176 .f32)
    (acc : Vec Ideal S512x768 .f32) (b : Fin 512) (j : Fin 768) :
    k0_pay2 i ids wblk acc (ix2 b j)
      = acc (ix2 b j) + ∑ k : Fin 2176,
          hotWord (ids (ix2 b (0 : Fin 1))) (BitVec.ofNat 32 k.val + BitVec.ofNat 32 (i 0).val * 2176#32) * wblk (ix2 j k) := by
  unfold k0_pay2
  simp only [shapeCast_self]
  rw [addf_apply]
  refine congrArg (acc (ix2 b j) + ·) ?_
  rw [dotA_eq]
  refine (matmul_rows_apply 512 2176 768 none _ _ b j).trans ?_
  refine Finset.sum_congr rfl fun k _ => ?_
  rw [truncf_apply, truncf_apply, sitofp_apply, extui_apply]
  refine congrArg (· * wblk (ix2 j k)) ?_
  show ((((IntOp.cmpi .eq _ _).setWidth 32).toInt : ℝ) : EReal) = hotWord _ _
  unfold hotWord
  rw [broadcastTo_col_apply]
  have e : addi (iota Kind.tc S512x2176 32 [1] Facts₀.iota_S512x2176_d1_w32)
      (broadcast S512x2176 (Scalar.muli (BitVec.ofNat 32 (i 0).val) 2176#32)) (ix2 b k)
      = BitVec.ofNat 32 k.val + BitVec.ofNat 32 (i 0).val * 2176#32 := by
    show IntOp.addi (iota Kind.tc S512x2176 32 [1] Facts₀.iota_S512x2176_d1_w32 (ix2 b k)) _ = _
    rw [iota_single_apply]
    rfl
  rw [e]

/-- Words of numbers below 2 ^ 32 are equal only for equal numbers. -/
private theorem ofNat32_inj {a b : ℕ} (ha : a < 4294967296) (hb : b < 4294967296) (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

/-- The word the kernel compares the id with at column k of block t is the word of the column's number. -/
private theorem colWord (k t : ℕ) : BitVec.ofNat 32 k + BitVec.ofNat 32 t * 2176#32 = BitVec.ofNat 32 (2176 * t + k) := by
  rw [show (2176#32 : BitVec 32) = BitVec.ofNat 32 2176 from rfl, ← BitVec.ofNat_mul, ← BitVec.ofNat_add]
  congr 1; omega

/-- One block's inner product with the one-hot row: the entry the id selects if its column lies in the block, else zero
    (0 · x = 0 for every extended real, so nothing is asked of the other entries). -/
private theorem sum_hot_block (n t : ℕ) (hn : n < 4294967296) (ht : 2176 * (t + 1) ≤ 4294967296) (T : ℕ → EReal) :
    ∑ k : Fin 2176, hotWord (BitVec.ofNat 32 n) (BitVec.ofNat 32 (2176 * t + k.val)) * T (2176 * t + k.val)
      = if 2176 * t ≤ n ∧ n < 2176 * (t + 1) then T n else 0 := by
  by_cases h : 2176 * t ≤ n ∧ n < 2176 * (t + 1)
  · rw [if_pos h]
    have hk : n - 2176 * t < 2176 := by omega
    rw [Finset.sum_eq_single (⟨n - 2176 * t, hk⟩ : Fin 2176)]
    · show hotWord _ (BitVec.ofNat 32 (2176 * t + (n - 2176 * t))) * T (2176 * t + (n - 2176 * t)) = T n
      rw [show 2176 * t + (n - 2176 * t) = n by omega, hotWord_self, one_mul]
    · intro k _ hne
      have hkl := k.isLt
      rw [hotWord_ne, zero_mul]
      intro e
      have := ofNat32_inj hn (by omega) e
      exact hne (Fin.ext (by show k.val = n - 2176 * t; omega))
    · intro hmem; exact absurd (Finset.mem_univ _) hmem
  · rw [if_neg h]
    refine Finset.sum_eq_zero fun k _ => ?_
    have hkl := k.isLt
    rw [hotWord_ne, zero_mul]
    intro e
    have := ofNat32_inj hn (by omega) e
    exact h (by omega)

/-! ## The gate arithmetic at an entry -/

private theorem logistic_apply {s : Shape} {φ : FTy} (a : FVec Ideal s φ) (i : s.Idx) : logistic a i = Ideal.logistic (a i) := rfl
private theorem tanh_apply {s : Shape} {φ : FTy} (a : FVec Ideal s φ) (i : s.Idx) : tanh a i = Ideal.tanh (a i) := rfl

/-- One unit of the cell from the two stacked pre-activations of its batch row and the unit's previous state. -/
private def gruUnit (gi gh : Fin 768 → EReal) (hprev : EReal) (h : Fin 256) : EReal :=
  (Cert.Spec.one - Ideal.logistic (gi (Cert.Spec.third1 h) + gh (Cert.Spec.third1 h)))
      * Ideal.tanh (gi (Cert.Spec.third2 h) + Ideal.logistic (gi (Cert.Spec.third0 h) + gh (Cert.Spec.third0 h)) * gh (Cert.Spec.third2 h))
    + Ideal.logistic (gi (Cert.Spec.third1 h) + gh (Cert.Spec.third1 h)) * hprev

/-- The last payload at (b, h): the cell's unit h over the input-side pre-activations "accumulator plus bias row" and
    the hidden-side ones "hidden row times the weights' rows plus bias row". -/
private theorem k0_pay3_apply (v26 : FVec Ideal S512x768 .f32) (v27 : FVec Ideal S1x768 .f32) (v31 : FVec Ideal S512x256 .f32)
    (v34 : FVec Ideal S768x256 .f32) (v37 : FVec Ideal S1x768 .f32) (b : Fin 512) (h : Fin 256) :
    k0_pay3 (F := Ideal) v26 v27 v31 v34 v37 (ix2 b h)
      = gruUnit (fun j => v26 (ix2 b j) + v27 (ix2 (0 : Fin 1) j))
          (fun j => (∑ k : Fin 256, v31 (ix2 b k) * v34 (ix2 j k)) + v37 (ix2 (0 : Fin 1) j)) (v31 (ix2 b h)) h := by
  unfold k0_pay3
  simp only [shapeCast_self]
  simp only [addf_apply, mulf_apply, subf_apply, logistic_apply, tanh_apply, broadcast_apply]
  rw [slice2_axis1_apply 0 _ _ b h (Cert.Spec.third0 h) (Nat.zero_add _).symm,
    slice2_axis1_apply 0 _ _ b h (Cert.Spec.third0 h) (Nat.zero_add _).symm,
    slice2_axis1_apply 256 _ _ b h (Cert.Spec.third1 h) rfl,
    slice2_axis1_apply 256 _ _ b h (Cert.Spec.third1 h) rfl,
    slice2_axis1_apply 512 _ _ b h (Cert.Spec.third2 h) rfl,
    slice2_axis1_apply 512 _ _ b h (Cert.Spec.third2 h) rfl]
  simp only [addf_apply, broadcastTo_1b_ab_apply]
  rw [dotB_eq]
  simp only [matmul_rows_apply, truncf_apply]
  rfl

/-! ## The accumulator, block by block -/

private theorem coords0 : ∀ t : Fin cfg0.N, ((grid0.coords t) 0).val = t.val :=
  (by decide +kernel : ∀ t : Fin grid0.N, ((grid0.coords t) 0).val = t.val)

/-- The cleared accumulator is zero everywhere. -/
private theorem k0_pay1_apply (i : S512x768.Idx) : (k0_pay1 (F := Ideal)) i = 0 := by
  unfold k0_pay1
  simp only [shapeCast_self]
  exact Ideal.ofBits_zero_f32

/-- Block t's payload over a row whose id is the word of n and a block that is columns 2176 t … of T: the accumulator's
    entry plus T n if n lies in the block, plus nothing otherwise. -/
private theorem block_step (i : grid0.Coords) (t : ℕ) (hi : (i 0).val = t) (ht : t < 23)
    (ids : Vec Ideal S512x1 .i32) (wblk : Vec Ideal S768x2176 .f32) (acc : Vec Ideal S512x768 .f32)
    (b : Fin 512) (j : Fin 768) (n : ℕ) (hn : n < 50000) (hid : ids (ix2 b (0 : Fin 1)) = BitVec.ofNat 32 n)
    (T : ℕ → EReal) (hw : ∀ k : Fin 2176, wblk (ix2 j k) = T (2176 * t + k.val)) :
    k0_pay2 i ids wblk acc (ix2 b j)
      = acc (ix2 b j) + if 2176 * t ≤ n ∧ n < 2176 * (t + 1) then T n else 0 := by
  rw [k0_pay2_apply, hid, hi]
  refine congrArg (acc (ix2 b j) + ·) ?_
  rw [← sum_hot_block n t (by omega) (by omega) T]
  refine Finset.sum_congr rfl fun k _ => ?_
  rw [colWord, hw]

/-- A 32-bit word is the word of its number. -/
private theorem ofNat_toNat32 (w : BitVec 32) : BitVec.ofNat 32 w.toNat = w := by
  apply BitVec.eq_of_toNat_eq
  rw [BitVec.toNat_ofNat, Nat.mod_eq_of_lt w.isLt]

/-- The id of batch row b as a number. -/
private abbrev idn (b : Fin 512) : ℕ := (m ((c.tc : Thread nD τ).loc main_arg0) (ix1 b) : BitVec 32).toNat

/-- Column n of row j of the padded weights as call 0 finds them (zero past the last column). -/
private def wcol (j : Fin 768) (n : ℕ) : EReal :=
  if h : n < 50048 then (E7 m c main_v2 : S768x50048.Idx → EReal) (ix2 j ⟨n, h⟩) else 0

/-- After block n the accumulator holds, at (b, j), the selected weight once the id's block has been visited. -/
private theorem acc0_apply (hlt : ∀ b : Fin 512, idn m c b < 50000) (n : ℕ) (hn : n < cfg0.N) (b : Fin 512) (j : Fin 768) :
    acc0 (E7 m) c n hn (ix2 b j) = if idn m c b < 2176 * (n + 1) then wcol m c j (idn m c b) else 0 := by
  have hN : cfg0.N = 23 := Gen.N_0
  have hid : ∀ t : Fin cfg0.N,
      (iblk0 (E7 m) c 0 t : S512x1.Idx → BitVec 32) (ix2 b (0 : Fin 1)) = BitVec.ofNat 32 (idn m c b) := fun t => by
    rw [iblk0_0_apply, E7_v0_apply]
    exact (ofNat_toNat32 _).symm
  have hw : ∀ (t : Fin cfg0.N) (k : Fin 2176),
      (iblk0 (E7 m) c 1 t : S768x2176.Idx → EReal) (ix2 j k) = wcol m c j (2176 * t.val + k.val) := fun t k => by
    have ht := t.isLt
    have hk := k.isLt
    have hc : 2176 * t.val + k.val < 50048 := by omega
    rw [iblk0_1_apply c (E7 m) t j k ⟨2176 * t.val + k.val, hc⟩ rfl]
    unfold wcol
    rw [dif_pos hc]
  induction n with
  | zero =>
    show k0_pay2 (grid0.coords ⟨0, hn⟩) (iblk0 (E7 m) c 0 ⟨0, hn⟩) (iblk0 (E7 m) c 1 ⟨0, hn⟩) (k0_pay1 (F := Ideal)) (ix2 b j) = _
    refine (block_step (grid0.coords ⟨0, hn⟩) 0 (coords0 ⟨0, hn⟩) (by omega) (iblk0 (E7 m) c 0 ⟨0, hn⟩)
      (iblk0 (E7 m) c 1 ⟨0, hn⟩) (k0_pay1 (F := Ideal)) b j (idn m c b) (hlt b) (hid _) (wcol m c j) (hw _)).trans ?_
    rw [k0_pay1_apply, zero_add]
    by_cases h1 : idn m c b < 2176 * (0 + 1)
    · rw [if_pos ⟨by omega, h1⟩, if_pos h1]
    · rw [if_neg (fun h => h1 h.2), if_neg h1]
  | succ n ih =>
    show k0_pay2 (grid0.coords ⟨n + 1, hn⟩) (iblk0 (E7 m) c 0 ⟨n + 1, hn⟩) (iblk0 (E7 m) c 1 ⟨n + 1, hn⟩)
      (acc0 (E7 m) c n (Nat.lt_of_succ_lt hn)) (ix2 b j) = _
    refine (block_step (grid0.coords ⟨n + 1, hn⟩) (n + 1) (coords0 ⟨n + 1, hn⟩) (by omega) (iblk0 (E7 m) c 0 ⟨n + 1, hn⟩)
      (iblk0 (E7 m) c 1 ⟨n + 1, hn⟩) (acc0 (E7 m) c n (Nat.lt_of_succ_lt hn)) b j (idn m c b) (hlt b) (hid _)
      (wcol m c j) (hw _)).trans ?_
    rw [ih]
    by_cases h1 : idn m c b < 2176 * (n + 1)
    · rw [if_pos h1, if_neg (by omega), if_pos (by omega), add_zero]
    · by_cases h2 : idn m c b < 2176 * (n + 1 + 1)
      · rw [if_neg h1, if_pos ⟨by omega, h2⟩, if_pos h2, zero_add]
      · rw [if_neg h1, if_neg (by omega), if_neg h2, add_zero]
/-- An id in range, read as a natural number, is below the vocabulary's size. -/
private theorem idn_lt (hr : IdsInRange m c) (b : Fin 512) : idn m c b < 50000 := by
  obtain ⟨h0, h1⟩ := hr b
  show (m ((c.tc : Thread nD τ).loc main_arg0) (ix1 b) : BitVec 32).toNat < 50000
  generalize (m ((c.tc : Thread nD τ).loc main_arg0) (ix1 b) : BitVec 32) = w at h0 h1 ⊢
  have hw := w.isLt
  rw [BitVec.toInt_eq_toNat_cond] at h0 h1
  split at h0 <;> omega

/-! ## The four small operands' blocks at the last point, as the arguments -/

private abbrev blk2 (t : Fin cfg0.N) : Vec Ideal S1x768 .f32 := iblk0 (E7 m) c 2 t
private abbrev blk3 (t : Fin cfg0.N) : Vec Ideal S512x256 .f32 := iblk0 (E7 m) c 3 t
private abbrev blk4 (t : Fin cfg0.N) : Vec Ideal S768x256 .f32 := iblk0 (E7 m) c 4 t
private abbrev blk5 (t : Fin cfg0.N) : Vec Ideal S1x768 .f32 := iblk0 (E7 m) c 5 t

private theorem blk2_apply (t : Fin cfg0.N) (z : Fin 1) (j : Fin 768) :
    blk2 m c t (ix2 z j) = (m ((c.tc : Thread nD τ).loc main_arg4) : S768.Idx → EReal) (ix1 j) :=
  (iblk0_2_apply c (E7 m) t z j).trans (E7_v3_apply m c z j)
private theorem blk3_apply (t : Fin cfg0.N) (b : Fin 512) (k : Fin 256) :
    blk3 m c t (ix2 b k) = (m ((c.tc : Thread nD τ).loc main_arg1) : S1x512x256.Idx → EReal) (ix3 (0 : Fin 1) b k) :=
  (iblk0_3_apply c (E7 m) t b k).trans (E7_v1_apply m c b k)
private theorem blk4_apply (t : Fin cfg0.N) (j : Fin 768) (k : Fin 256) :
    blk4 m c t (ix2 j k) = (m ((c.tc : Thread nD τ).loc main_arg3) : S768x256.Idx → EReal) (ix2 j k) :=
  (iblk0_4_apply c (E7 m) t j k).trans (congrFun (E7_arg3 m c) (ix2 j k))
private theorem blk5_apply (t : Fin cfg0.N) (z : Fin 1) (j : Fin 768) :
    blk5 m c t (ix2 z j) = (m ((c.tc : Thread nD τ).loc main_arg5) : S768.Idx → EReal) (ix1 j) :=
  (iblk0_5_apply c (E7 m) t z j).trans (E7_v4_apply m c z j)

/-- After the last block every id has been met: the accumulator is the selected column of the weights. -/
private theorem acc0_last (hlt : ∀ b : Fin 512, idn m c b < 50000) (h22 : 22 < cfg0.N) (b : Fin 512) (j : Fin 768) :
    acc0 (E7 m) c 22 h22 (ix2 b j)
      = (m ((c.tc : Thread nD τ).loc main_arg2) : S768x50000.Idx → EReal)
          (ix2 j (Cert.Spec.item (m ((c.tc : Thread nD τ).loc main_arg0)) b)) := by
  have hb := hlt b
  rw [acc0_apply m c hlt 22 h22 b j, if_pos (by omega)]
  unfold wcol
  rw [dif_pos (by omega)]
  exact E7_v2_apply m c j _ (Cert.Spec.item (m ((c.tc : Thread nD τ).loc main_arg0)) b) (Nat.mod_eq_of_lt hb).symm

/-- The gate arithmetic over the complete accumulator is the specification's new hidden state. -/
theorem hid0_value (hr : IdsInRange m c) (b : Fin 512) (h : Fin 256) :
    hid0 (E7 m) c ⟨22, by decide⟩ (ix2 b h)
      = Cert.Spec.newHid (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) b h := by
  have hlt := idn_lt m c hr
  have h22 : 22 < cfg0.N := by decide
  show k0_pay3 (F := Ideal) (acc0 (E7 m) c 22 h22) (blk2 m c ⟨22, h22⟩) (blk3 m c ⟨22, h22⟩)
    (blk4 m c ⟨22, h22⟩) (blk5 m c ⟨22, h22⟩) (ix2 b h) = _
  refine (k0_pay3_apply (acc0 (E7 m) c 22 h22) (blk2 m c ⟨22, h22⟩) (blk3 m c ⟨22, h22⟩)
    (blk4 m c ⟨22, h22⟩) (blk5 m c ⟨22, h22⟩) b h).trans ?_
  simp only [blk2_apply, blk3_apply, blk4_apply, blk5_apply, acc0_last m c hlt h22]
  rfl

end Cert.KernelIdeal.Hand

end
-- ==== Proof.KVal1.lean ====
/-
  A block of call 1's output and the closing host stretch, entry by entry, at the extended reals: column
  `k` of block `t` is item `t · 2176 + k`, whose logit is tanh of the inner product of the hidden state's
  row with the item's row of the output weights plus the item's bias (the padded rows and bias entries are
  never read below the vocabulary's size); the closing stretch keeps the first 50000 columns and adds a
  unit axis to the hidden state.
-/
import proofs.«408627_j69286412419116_1_alg».proof.Proof.KIVals
import Idealize.ShloMosaic.PureOps.Ideal.Laws
import Idealize.ShloMosaic.Lib.ValueLayout
import Idealize.ShloMosaic.Lib.KernelVsHost

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx
open scoped BigOperators

variable (m : (ℓ : Loc nD τ sig) → Buf (Elt Ideal) ℓ) (c : Dev nD)

/-! ## The product of call 1 at an entry -/

/-- The left operand's row is the entry's row. -/
private theorem lhs_dot1_0 (i : S512x2176.Idx) (q : dot_S512x256_S2176x256_S512x2176_1_1_0_0_n_n.contr.Idx) :
    (dot_S512x256_S2176x256_S512x2176_1_1_0_0_n_n.lhsIdx i q 0).val = (i 0).val := by
  unfold DotDims.lhsIdx
  rw [dif_neg (show ¬(0 : Fin S512x256.rank) ∈ dot_S512x256_S2176x256_S512x2176_1_1_0_0_n_n.lhsBatch by decide), dif_pos (show (0 : Fin S512x256.rank) ∈ dot_S512x256_S2176x256_S512x2176_1_1_0_0_n_n.lhsNonContracting by decide)]
  rfl
/-- The left operand's column is the summation index. -/
private theorem lhs_dot1_1 (i : S512x2176.Idx) (q : dot_S512x256_S2176x256_S512x2176_1_1_0_0_n_n.contr.Idx) :
    (dot_S512x256_S2176x256_S512x2176_1_1_0_0_n_n.lhsIdx i q 1).val = (q ⟨0, by decide⟩).val :=
  dot_S512x256_S2176x256_S512x2176_1_1_0_0_n_n.lhsIdx_val_of_single rfl i q
/-- The right operand's row is the entry's column: the right operand is contracted on its second axis. -/
private theorem rhs_dot1_0 (i : S512x2176.Idx) (q : dot_S512x256_S2176x256_S512x2176_1_1_0_0_n_n.contr.Idx) :
    (dot_S512x256_S2176x256_S512x2176_1_1_0_0_n_n.rhsIdx i q 0).val = (i 1).val := by
  unfold DotDims.rhsIdx
  rw [dif_neg (show ¬(0 : Fin S2176x256.rank) ∈ dot_S512x256_S2176x256_S512x2176_1_1_0_0_n_n.rhsBatch by decide), dif_pos (show (0 : Fin S2176x256.rank) ∈ dot_S512x256_S2176x256_S512x2176_1_1_0_0_n_n.rhsNonContracting by decide)]
  rfl
/-- The right operand's column is the summation index. -/
private theorem rhs_dot1_1 (i : S512x2176.Idx) (q : dot_S512x256_S2176x256_S512x2176_1_1_0_0_n_n.contr.Idx) :
    (dot_S512x256_S2176x256_S512x2176_1_1_0_0_n_n.rhsIdx i q 1).val = (q ⟨0, by decide⟩).val :=
  dot_S512x256_S2176x256_S512x2176_1_1_0_0_n_n.rhsIdx_val_of_single rfl i q

/-- A [512,256] by [2176,256] product contracted on the second axis of both, into the zero accumulator, at entry
    `(b, k)`: the inner product of row `b` of the left operand with row `k` of the right one. -/
private theorem matmul1_apply (A : FVec Ideal S512x256 .bf16) (B : FVec Ideal S2176x256 .bf16) (b : Fin 512) (k : Fin 2176) :
    matmul dot_S512x256_S2176x256_S512x2176_1_1_0_0_n_n none A B (constant (F := Ideal) S512x2176 .f32 0x00000000#32) (ix2 b k)
      = ∑ h : Fin 256, A (ix2 b h) * B (ix2 k h) := by
  simp only [matmul]
  rw [Ideal.matmul_constant_zero_apply, ← Equiv.sum_comp (contrEquiv1 dot_S512x256_S2176x256_S512x2176_1_1_0_0_n_n 256 rfl rfl).symm]
  refine Finset.sum_congr rfl fun h _ => ?_
  have hk := contrEquiv1_symm_val dot_S512x256_S2176x256_S512x2176_1_1_0_0_n_n 256 rfl rfl h
  have el : dot_S512x256_S2176x256_S512x2176_1_1_0_0_n_n.lhsIdx (ix2 b k) ((contrEquiv1 dot_S512x256_S2176x256_S512x2176_1_1_0_0_n_n 256 rfl rfl).symm h) = ix2 b h := funext fun a => Fin.ext (by
    match a with
    | ⟨0, _⟩ => exact lhs_dot1_0 _ _
    | ⟨1, _⟩ => exact (lhs_dot1_1 _ _).trans hk)
  have er : dot_S512x256_S2176x256_S512x2176_1_1_0_0_n_n.rhsIdx (ix2 b k) ((contrEquiv1 dot_S512x256_S2176x256_S512x2176_1_1_0_0_n_n 256 rfl rfl).symm h) = ix2 k h := funext fun a => Fin.ext (by
    match a with
    | ⟨0, _⟩ => exact rhs_dot1_0 _ _
    | ⟨1, _⟩ => exact (rhs_dot1_1 _ _).trans hk)
  rw [el, er]

/-- Call 1's arithmetic at entry `(b, k)` of a block: tanh of the inner product of the hidden state's row `b` with
    the weight block's row `k`, plus the bias block's entry `k` (narrowing to bf16 changes no extended real). -/
private theorem pay1_apply (x0 : Vec Ideal S512x256 .f32) (x3 : Vec Ideal S2176x256 .f32) (x7 : Vec Ideal S1x2176 .f32)
    (b : Fin 512) (k : Fin 2176) :
    k1_pay1 x0 x3 x7 (ix2 b k)
      = Ideal.tanh ((∑ h : Fin 256, x0 (ix2 b h) * x3 (ix2 k h)) + x7 (ix2 (0 : Fin 1) k)) := by
  unfold k1_pay1
  simp only [shapeCast_self]
  show Ideal.tanh (matmul dot_S512x256_S2176x256_S512x2176_1_1_0_0_n_n none (truncf .bf16 x0 bitsLt_bf16_f32) (truncf .bf16 x3 bitsLt_bf16_f32)
      (constant (F := Ideal) S512x2176 .f32 0x00000000#32) (ix2 b k)
    + broadcastTo S512x2176 x7 broadcasts_S1x2176_S512x2176 (ix2 b k)) = _
  rw [matmul1_apply, broadcastTo_1b_ab_apply]
  rfl

/-! ## The blocks of call 1's three operands, read off their arrays -/

/-- Where point `t`'s blocks sit: the hidden state's one block at the origin, the weights' block `t` down the rows,
    the bias's block `t` along the columns. -/
private theorem blockAt1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- The hidden state's block is the whole array. -/
private theorem hidBlock_apply (V : Entry Ideal) (t : Fin cfg1.N) (b : Fin 512) (h : Fin 256) :
    iblk1 V c 0 t (ix2 b h) = V c main_v8 (ix2 b h) := by
  obtain ⟨e0, e1, -⟩ := blockAt1 t
  show V c main_v8 (((cfg1.win 0).blk t).view.emb (ix2 b h)) = _
  refine congrArg _ (funext fun a => Fin.ext ?_)
  match a with
  | ⟨0, _⟩ => show win1_0.index t (0 : Fin 2) * 512 + 1 * b.val = b.val; omega
  | ⟨1, _⟩ => show win1_0.index t (1 : Fin 2) * 256 + 1 * h.val = h.val; omega

/-- Row `k` of the weights' block `t` is row `t · 2176 + k` of the padded weights. -/
private theorem wBlock_apply (V : Entry Ideal) (t : Fin cfg1.N) (k : Fin 2176) (h : Fin 256) (r : Fin 50048)
    (hr : r.val = t.val * 2176 + k.val) :
    iblk1 V c 1 t (ix2 k h) = V c main_v5 (ix2 r h) := by
  obtain ⟨-, -, e0, e1, -⟩ := blockAt1 t
  show V c main_v5 (((cfg1.win 1).blk t).view.emb (ix2 k h)) = _
  refine congrArg _ (funext fun a => Fin.ext ?_)
  match a with
  | ⟨0, _⟩ => show win1_1.index t (0 : Fin 2) * 2176 + 1 * k.val = r.val; omega
  | ⟨1, _⟩ => show win1_1.index t (1 : Fin 2) * 256 + 1 * h.val = h.val; omega

/-- Entry `k` of the bias's block `t` is entry `t · 2176 + k` of the padded bias row. -/
private theorem bBlock_apply (V : Entry Ideal) (t : Fin cfg1.N) (k : Fin 2176) (r : Fin 50048)
    (hr : r.val = t.val * 2176 + k.val) :
    iblk1 V c 2 t (ix2 (0 : Fin 1) k) = V c main_v7 (ix2 (0 : Fin 1) r) := by
  obtain ⟨-, -, -, -, e0, e1⟩ := blockAt1 t
  show V c main_v7 (((cfg1.win 2).blk t).view.emb (ix2 (0 : Fin 1) k)) = _
  refine congrArg _ (funext fun a => Fin.ext ?_)
  match a with
  | ⟨0, _⟩ => show win1_2.index t (0 : Fin 2) * 1 + 1 * 0 = 0; omega
  | ⟨1, _⟩ => show win1_2.index t (1 : Fin 2) * 2176 + 1 * k.val = r.val; omega

/-! ## The padded weights and bias as the host stretches leave them -/

/-- The padded weights when call 0 is entered: the weights with 48 rows of the pad value after them. -/
private theorem padW_eq : (W7 m c (Proc.devRef .tc main_v5) : S50048x256.Idx → EReal)
    = pad S50048x256 ![0, 0] ![48, 0] ![0, 0] (m ((c.tc : Thread nD τ).loc main_arg6))
        (sitofp (F := Ideal) .f32 (constantI S_ 32 0#32)) pads_S50000x256_S50048x256_0480_000 h_S_ := by
  -- the three stretches after the one that pads the weights do not write them
  have back : W7 m c (Proc.devRef .tc main_v5) = Gen.V4 m c main_v5 :=
    (Gen.V7_of m c main_v5 (by decide)).trans <| (Gen.V6_of m c main_v5 (by decide)).trans (Gen.V5_of m c main_v5 (by decide))
  rw [back]
  show StableHlo.after hostOps0_3 (Gen.V3 m c) (Proc.devRef .tc main_v5) = _
  after_results
  rfl

/-- The padded bias row when call 0 is entered: the bias with 48 entries of the pad value after it, as one row. -/
private theorem padB_eq : (W7 m c (Proc.devRef .tc main_v7) : S1x50048.Idx → EReal)
    = shapeCast S1x50048 (pad S50048 ![0] ![48] ![0] (m ((c.tc : Thread nD τ).loc main_arg7))
        (sitofp (F := Ideal) .f32 (constantI S_ 32 0#32)) pads_S50000_S50048_0480 h_S_) shapeCasts_S50048_S1x50048 := by
  show StableHlo.after hostOps0_6 (Gen.V6 m c) (Proc.devRef .tc main_v7) = _
  after_results
  rfl

/-- A row of the padded weights below the vocabulary's size is the weights' row. -/
private theorem padW_apply (r : Fin 50048) (h : Fin 256) (hr : r.val < 50000) :
    W7 m c (Proc.devRef .tc main_v5) (ix2 r h)
      = m ((c.tc : Thread nD τ).loc main_arg6) (ix2 (⟨r.val, hr⟩ : Fin 50000) h) := by
  rw [padW_eq]
  refine pad_apply_of_inside (s := S50000x256) (t := S50048x256) _ _ _ _ _ _ _ _ (ix2 (⟨r.val, hr⟩ : Fin 50000) h) fun a => ?_
  match a with
  | ⟨0, _⟩ => show r.val = 0 + r.val * (0 + 1); omega
  | ⟨1, _⟩ => show h.val = 0 + h.val * (0 + 1); omega

/-- An entry of the padded bias row below the vocabulary's size is the bias's entry. -/
private theorem padB_apply (r : Fin 50048) (hr : r.val < 50000) :
    W7 m c (Proc.devRef .tc main_v7) (ix2 (0 : Fin 1) r)
      = m ((c.tc : Thread nD τ).loc main_arg7) (ix1 (⟨r.val, hr⟩ : Fin 50000)) := by
  rw [padB_eq, shapeCast_a_1a_apply]
  refine pad_apply_of_inside (s := S50000) (t := S50048) _ _ _ _ _ _ _ _ (ix1 (⟨r.val, hr⟩ : Fin 50000)) fun a => ?_
  match a with
  | ⟨0, _⟩ => show r.val = 0 + r.val * (0 + 1); omega

/-! ## The three interface facts -/

/-- Block `t` of call 1's output at row `b`, column `k`, for an item below the vocabulary's size: from the
    hidden state `H` that call 0 left in its result array. -/
theorem logit1_apply (H : Fin 512 → Fin 256 → EReal)
    (hH : ∀ (b : Fin 512) (h : Fin 256), W8 m c (Proc.devRef .tc main_v8) (ix2 b h) = H b h)
    (t : Fin cfg1.N) (b : Fin 512) (k : Fin 2176) (hv : t.val * 2176 + k.val < 50000) :
    logit1 (E8 m) c t (ix2 b k)
      = Ideal.tanh ((∑ h : Fin 256, H b h * m ((c.tc : Thread nD τ).loc main_arg6) (ix2 (⟨t.val * 2176 + k.val, hv⟩ : Fin 50000) h))
          + m ((c.tc : Thread nD τ).loc main_arg7) (ix1 (⟨t.val * 2176 + k.val, hv⟩ : Fin 50000))) := by
  -- the item's row of the padded arrays
  have hr : t.val * 2176 + k.val < 50048 := by omega
  -- the block's arithmetic at the entry
  refine (pay1_apply _ _ _ b k).trans (congrArg Ideal.tanh ?_)
  refine congrArg₂ (· + ·) (Finset.sum_congr rfl fun h _ => congrArg₂ (· * ·) ?_ ?_) ?_
  · -- the hidden state's block is call 0's result array
    exact (hidBlock_apply c (E8 m) t b h).trans (hH b h)
  · -- the weights' block row is the item's row of the padded weights, which call 0 did not write and which is the weights' row
    exact (wBlock_apply c (E8 m) t k h ⟨t.val * 2176 + k.val, hr⟩ rfl).trans
      ((congrFun (W8_of_ne m c main_v5 (by decide)) _).trans (padW_apply m c ⟨t.val * 2176 + k.val, hr⟩ h hv))
  · -- the same for the bias
    exact (bBlock_apply c (E8 m) t k ⟨t.val * 2176 + k.val, hr⟩ rfl).trans
      ((congrFun (W8_of_ne m c main_v7 (by decide)) _).trans (padB_apply m c ⟨t.val * 2176 + k.val, hr⟩ hv))

/-- The first result: the padded logits with the padding columns cut off. -/
theorem tail_logits (b : Fin 512) (v : Fin 50000) :
    W10 m c (Proc.devRef .tc main_v10) (ix2 b v)
      = W9 m c (Proc.devRef .tc main_v9) (ix2 b (⟨v.val, by have := v.isLt; omega⟩ : Fin 50048)) := by
  -- the closing stretch's first operation is the slice [0:512, 0:50000] of call 1's result array
  have e : (W10 m c (Proc.devRef .tc main_v10) : S512x50000.Idx → EReal)
      = extractStridedSlice S512x50000 ![0, 0] (W9 m c (Proc.devRef .tc main_v9)) slices_S512x50048_S512x50000_0_0 := by
    show StableHlo.after hostOps2 (W9 m c) (Proc.devRef .tc main_v10) = _
    after_results
  rw [e]
  -- a slice at offset zero reads the operand at the same coordinates
  refine extractStridedSlice_apply _ _ _ _ _ fun a => ?_
  match a with
  | ⟨0, _⟩ => simp
  | ⟨1, _⟩ => simp

/-- The second result: the hidden state under a leading unit axis. -/
theorem tail_hidden (b : Fin 512) (h : Fin 256) :
    W10 m c (Proc.devRef .tc main_v11) (ix3 (0 : Fin 1) b h) = W8 m c (Proc.devRef .tc main_v8) (ix2 b h) := by
  -- the closing stretch's second operation lays call 0's result array on axes 1 and 2 of a [1,512,256] array
  have e : (W10 m c (Proc.devRef .tc main_v11) : S1x512x256.Idx → EReal)
      = broadcastInDim S1x512x256 ![1, 2] bcast_S512x256_S1x512x256_1_2 (W9 m c (Proc.devRef .tc main_v8)) := by
    show StableHlo.after hostOps2 (W9 m c) (Proc.devRef .tc main_v11) = _
    after_results
  -- call 1 does not write call 0's result array
  rw [e, W9_of_ne m c main_v8 (by decide)]
  -- neither operand axis has extent one, so each reads the result's coordinate on the axis it is laid on
  refine broadcastInDim_apply (s := S512x256) (t := S1x512x256) _ _ _ _ _ fun a => ?_
  match a with
  | ⟨0, _⟩ => rfl
  | ⟨1, _⟩ => rfl

end Cert.KernelIdeal.Hand

end
-- ==== Proof.KIResults.lean ====
/-
  The kernel program's two results at the extended reals, entry by entry, as the specification's functions
  of the launch memory's argument arrays: the closing stretch reads call 1's result array, whose entry
  (b, v) is what block v / 2176 stored at offset v % 2176 — tanh of the hidden state's row against item
  v's output weights plus its bias — and the hidden state is call 0's result array, the gate arithmetic
  over the complete accumulator.
-/
import proofs.«408627_j69286412419116_1_alg».proof.Proof.KIArr
import proofs.«408627_j69286412419116_1_alg».proof.Proof.KVal0
import proofs.«408627_j69286412419116_1_alg».proof.Proof.KVal1

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx
open scoped BigOperators

variable (m : (ℓ : Loc nD τ sig) → Buf (Elt Ideal) ℓ) (c : Dev nD)

/-- Call 0's result array holds the specification's new hidden state. -/
theorem hidden_value (hr : IdsInRange m c) (b : Fin 512) (h : Fin 256) :
    W8 m c (Proc.devRef .tc main_v8) (ix2 b h)
      = Cert.Spec.newHid (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) b h := by
  rw [W8_v8]
  unfold out8
  rw [arr0_final]
  exact hid0_value m c hr b h

/-- The second result is the specification's new hidden state under a unit axis. -/
theorem kernel_hidden (hr : IdsInRange m c) (b : Fin 512) (h : Fin 256) :
    W10 m c (Proc.devRef .tc main_v11) (ix3 (0 : Fin 1) b h)
      = Cert.Spec.newHid (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) b h :=
  (tail_hidden m c b h).trans (hidden_value m c hr b h)

/-- The first result is the specification's logits. -/
theorem kernel_logits (hr : IdsInRange m c) (b : Fin 512) (v : Fin 50000) :
    W10 m c (Proc.devRef .tc main_v10) (ix2 b v)
      = Cert.Spec.logit (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) b v := by
  have hv : v.val / 2176 * 2176 + v.val % 2176 < 50000 := by
    have := v.isLt; have := Nat.div_add_mod' v.val 2176; omega
  have hvv : (⟨v.val / 2176 * 2176 + v.val % 2176, hv⟩ : Fin 50000) = v :=
    Fin.ext (Nat.div_add_mod' v.val 2176)
  rw [tail_logits, W9_v9]
  unfold out9
  rw [arr1_final]
  refine (logit1_apply m c _ (fun b h => hidden_value m c hr b h)
    ⟨v.val / 2176, by have := v.isLt; show v.val / 2176 < 23; omega⟩ b ⟨v.val % 2176, Nat.mod_lt _ (by decide)⟩ hv).trans ?_
  rw [hvv]
  rfl

end Cert.KernelIdeal.Hand

end
-- ==== Proof.RefVal.lean ====
/-
  The reference program's two results at the extended reals, entry by entry, as the specification's
  functions of the argument arrays.

  The reference builds a 512 × 50000 array of zeros and writes a one at (b, id b) for every batch row b:
  the rows are distinct, so each written cell receives exactly one update and row b of the result is the
  one-hot row of id b (for an id inside the vocabulary; a negative id would first be wrapped round by
  adding the vocabulary's size, which is why the certificate asks for ids in range).  Its product with the
  transposed input weights is therefore the selected column of w_ih.  The rest of the program is the gate
  arithmetic and the output layer spelt operation by operation; the logistic function appears as
  1 / (1 + exp(−x)).
-/
import proofs.«408627_j69286412419116_1_alg».proof.Proof.Gen.ReferenceIdeal.Run
import proofs.«408627_j69286412419116_1_alg».proof.Proof.Gen.ReferenceIdeal.Read
import proofs.«408627_j69286412419116_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

variable (x0 : (⟨S512, .i32⟩ : BufTy).Contents (Elt Ideal)) (x1 : (⟨S1x512x256, .f32⟩ : BufTy).Contents (Elt Ideal))
  (x2 : (⟨S768x50000, .f32⟩ : BufTy).Contents (Elt Ideal)) (x3 : (⟨S768x256, .f32⟩ : BufTy).Contents (Elt Ideal))
  (x4 x5 : (⟨S768, .f32⟩ : BufTy).Contents (Elt Ideal)) (x6 : (⟨S50000x256, .f32⟩ : BufTy).Contents (Elt Ideal))
  (x7 : (⟨S50000, .f32⟩ : BufTy).Contents (Elt Ideal))

/-- The float pattern of 1.0 denotes the extended real 1. -/
private theorem ofBits_one : Ideal.ofBits .f32 0x3F800000#32 = 1 := by
  simp [Ideal.ofBits, Ideal.ieee, -EReal.coe_mul]; norm_num

/-- Writing one constant at a list of cells leaves a cell no update lands on as it was. -/
private theorem foldl_set_const_miss {ι α β : Type} [DecidableEq ι] (cell : β → ι) (c : α) (l : List β) (x : ι → α) (i : ι)
    (h : ∀ n ∈ l, i ≠ cell n) :
    (l.foldl (fun r n => fun i' => if i' = cell n then c else r i') x) i = x i := by
  induction l generalizing x with
  | nil => rfl
  | cons a l ih =>
    rw [List.foldl_cons, ih _ (fun n hn => h n (List.mem_cons_of_mem _ hn))]
    exact if_neg (h a List.mem_cons_self)

/-- Writing one constant at a list of cells leaves the constant at a cell some update lands on. -/
private theorem foldl_set_const_hit {ι α β : Type} [DecidableEq ι] (cell : β → ι) (c : α) (l : List β) (x : ι → α) (i : ι)
    (h : ∃ n ∈ l, i = cell n) :
    (l.foldl (fun r n => fun i' => if i' = cell n then c else r i') x) i = c := by
  induction l generalizing x with
  | nil => obtain ⟨n, hn, _⟩ := h; cases hn
  | cons a l ih =>
    rw [List.foldl_cons]
    by_cases h1 : ∃ n ∈ l, i = cell n
    · exact ih _ h1
    · rw [foldl_set_const_miss cell c l _ i (fun n hn e => h1 ⟨n, hn, e⟩)]
      obtain ⟨n, hn, e⟩ := h
      rcases List.mem_cons.mp hn with rfl | hn
      · exact if_pos e
      · exact absurd ⟨n, hn, e⟩ h1

/-- On the row axis update k starts at the first word of its pair, read signed. -/
private theorem start0 {w : Nat} (idx : IVec S512x2 w) (k : Fin 512) :
    scatter_S512x50000_S512x2_S512_n_01_01_1.start (ix1 k) idx 0 = (idx (ix2 k 0)).toInt := by
  unfold ScatterDims.start
  rw [dif_pos (show (0 : Fin S512x50000.rank) ∈ scatter_S512x50000_S512x2_S512_n_01_01_1.scatterDimsToOperandDims by decide)]
  refine congrArg (fun j => (idx j).toInt) (funext fun b => Fin.ext ?_)
  match b with
  | ⟨0, _⟩ => rfl
  | ⟨1, _⟩ => rfl

/-- On the column axis it starts at the second word. -/
private theorem start1 {w : Nat} (idx : IVec S512x2 w) (k : Fin 512) :
    scatter_S512x50000_S512x2_S512_n_01_01_1.start (ix1 k) idx 1 = (idx (ix2 k 1)).toInt := by
  unfold ScatterDims.start
  rw [dif_pos (show (1 : Fin S512x50000.rank) ∈ scatter_S512x50000_S512x2_S512_n_01_01_1.scatterDimsToOperandDims by decide)]
  refine congrArg (fun j => (idx j).toInt) (funext fun b => Fin.ext ?_)
  match b with
  | ⟨0, _⟩ => rfl
  | ⟨1, _⟩ => rfl

/-- Both axes of the operand are inserted: an update is one cell, with no window coordinate. -/
private theorem window_zero (j : S512.Idx) (a : Fin S512x50000.rank) :
    scatter_S512x50000_S512x2_S512_n_01_01_1.window j a = 0 := by
  unfold ScatterDims.window
  refine dif_neg ?_
  revert a
  decide

/-- Update k lands on cell (r, c) when its pair of words, read signed, is (r, c). -/
private theorem lands {w : Nat} (idx : IVec S512x2 w) (k : Fin 512) (r : Fin 512) (c : Fin 50000)
    (h0 : (idx (ix2 k 0)).toInt = (r.val : Int)) (h1 : (idx (ix2 k 1)).toInt = (c.val : Int)) :
    scatter_S512x50000_S512x2_S512_n_01_01_1.resultIdx? (ix1 k) idx = some (ix2 r c) := by
  have hs : ∀ a : Fin S512x50000.rank,
      scatter_S512x50000_S512x2_S512_n_01_01_1.start (ix1 k) idx a
        + (scatter_S512x50000_S512x2_S512_n_01_01_1.window (ix1 k) a : Int)
        = (((ix2 r c : S512x50000.Idx) a).val : Int) := by
    intro a
    match a with
    | ⟨0, _⟩ =>
      show scatter_S512x50000_S512x2_S512_n_01_01_1.start (ix1 k) idx 0
        + (scatter_S512x50000_S512x2_S512_n_01_01_1.window (ix1 k) 0 : Int) = (r.val : Int)
      rw [start0, window_zero, Nat.cast_zero, add_zero]; exact h0
    | ⟨1, _⟩ =>
      show scatter_S512x50000_S512x2_S512_n_01_01_1.start (ix1 k) idx 1
        + (scatter_S512x50000_S512x2_S512_n_01_01_1.window (ix1 k) 1 : Int) = (c.val : Int)
      rw [start1, window_zero, Nat.cast_zero, add_zero]; exact h1
  unfold ScatterDims.resultIdx?
  rw [dif_pos (fun a => by
    rw [hs a]; exact ⟨Int.natCast_nonneg _, by exact_mod_cast ((ix2 r c : S512x50000.Idx) a).isLt⟩)]
  refine congrArg some (funext fun a => Fin.ext ?_)
  show (scatter_S512x50000_S512x2_S512_n_01_01_1.start (ix1 k) idx a
        + (scatter_S512x50000_S512x2_S512_n_01_01_1.window (ix1 k) a : Int)).toNat = _
  rw [hs a]; exact Int.toNat_natCast _

/-- A signed word that is not negative is not below zero: the select keeps its third operand. -/
private theorem select_of_nonneg {α : Type} (x : BitVec 32) (h : 0 ≤ x.toInt) (a b : α) :
    Scalar.select (IntOp.cmpi .slt x 0#32) a b = b := by
  have hlt : x.slt 0#32 = false := by
    simp only [BitVec.slt, BitVec.toInt_zero, decide_eq_false_iff_not, not_lt]; exact h
  show (if BitVec.ofBool (x.slt 0#32) = 1#1 then a else b) = b
  rw [hlt]; exact if_neg (by decide)

/-- The word of a small natural number, read signed, is the number. -/
private theorem toInt_ofNat_lt (n : Nat) (hn : n < 2147483648) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1, if_pos (by omega)]

/-- An id inside the vocabulary, read signed, is the specification's item. -/
private theorem toInt_item (hr : ∀ b : Fin 512, 0 ≤ (x0 (ix1 b) : BitVec 32).toInt ∧ (x0 (ix1 b) : BitVec 32).toInt < 50000)
    (b : Fin 512) : (x0 (ix1 b) : BitVec 32).toInt = ((Cert.Spec.item x0 b).val : Int) := by
  have h := hr b
  have hc := BitVec.toInt_eq_toNat_cond (x0 (ix1 b) : BitVec 32)
  have hl := (x0 (ix1 b) : BitVec 32).isLt
  show _ = (((x0 (ix1 b) : BitVec 32).toNat % 50000 : Nat) : Int)
  split at hc <;> omega

/-- The first column of the index array is the row number. -/
private theorem idx_col0 (b : Fin 512) : Read.val_main_v14 (F := Ideal) x0 (ix2 b 0) = BitVec.ofNat 32 b.val := by
  unfold Read.val_main_v14
  rw [concatenate_pair_apply_left (1 : Fin S512x2.rank) _ _ concatenates_S512x1_S512x1_S512x2_d1 (ix2 b 0) rfl
    (ix2 b 0) (fun a => by match a with | ⟨0, _⟩ => rfl | ⟨1, _⟩ => rfl)]
  rw [Read.val_main_v12_apply, Read.val_main_v6_apply, Read.val_main_v3_apply, Read.val_main_v5_apply,
    Read.val_main_v1_apply, Read.val_main_v2_apply, Read.val_main_c_apply]
  show Scalar.select (IntOp.cmpi .slt (BitVec.ofNat 32 b.val) 0#32) _ (BitVec.ofNat 32 b.val) = _
  exact select_of_nonneg _ (by rw [toInt_ofNat_lt _ (by have := b.isLt; omega)]; exact Int.natCast_nonneg _) _ _

/-- The second column is the id, when the id is not negative. -/
private theorem idx_col1 (hr : ∀ b : Fin 512, 0 ≤ (x0 (ix1 b) : BitVec 32).toInt ∧ (x0 (ix1 b) : BitVec 32).toInt < 50000)
    (b : Fin 512) : Read.val_main_v14 (F := Ideal) x0 (ix2 b 1) = x0 (ix1 b) := by
  unfold Read.val_main_v14
  rw [concatenate_pair_apply_right (1 : Fin S512x2.rank) _ _ concatenates_S512x1_S512x1_S512x2_d1 (ix2 b 1) rfl rfl
    (ix2 b 0) (fun a => by match a with | ⟨0, _⟩ => exact fun _ => rfl | ⟨1, _⟩ => exact fun h => absurd rfl h) rfl]
  rw [Read.val_main_v13_apply, show Read.idx_main_v13 (ix2 b 0) = ix1 b from funext fun a => by match a with | ⟨0, _⟩ => rfl,
    Read.val_main_v11_apply, Read.val_main_v8_apply, Read.val_main_v7_apply, Read.val_main_c_1_apply]
  show Scalar.select (IntOp.cmpi .slt (x0 (ix1 b)) 0#32) _ (x0 (ix1 b)) = _
  exact select_of_nonneg _ (hr b).1 _ _

/-- A scatter that writes one constant, every update landing inside: a cell some update lands on reads the constant. -/
private theorem scatter_const_hit {s si u : Shape} (d : ScatterDims s si u) {w : Nat} {α : Type} (x : s.Idx → α)
    (idx : IVec si w) (upd : u.Idx → α) (c : α) (cell : u.Idx → s.Idx)
    (hland : ∀ j, d.resultIdx? j idx = some (cell j)) (hupd : ∀ j, upd j = c) (i : s.Idx) (h : ∃ j, i = cell j) :
    Host.scatter d (fun _ b => b) x idx upd i = c := by
  unfold Host.scatter
  rw [List.foldl_ext _ (fun r n => fun i' => if i' = cell (u.rowMajor.symm n) then c else r i') x
    (fun r n _ => by simp only [hland, hupd])]
  obtain ⟨j, e⟩ := h
  exact foldl_set_const_hit _ c _ x i ⟨u.rowMajor j, List.mem_finRange _, by rw [Equiv.symm_apply_apply]; exact e⟩

/-- … and a cell no update lands on reads the operand. -/
private theorem scatter_const_miss {s si u : Shape} (d : ScatterDims s si u) {w : Nat} {α : Type} (x : s.Idx → α)
    (idx : IVec si w) (upd : u.Idx → α) (c : α) (cell : u.Idx → s.Idx)
    (hland : ∀ j, d.resultIdx? j idx = some (cell j)) (hupd : ∀ j, upd j = c) (i : s.Idx) (h : ∀ j, i ≠ cell j) :
    Host.scatter d (fun _ b => b) x idx upd i = x i := by
  unfold Host.scatter
  rw [List.foldl_ext _ (fun r n => fun i' => if i' = cell (u.rowMajor.symm n) then c else r i') x
    (fun r n _ => by simp only [hland, hupd])]
  exact foldl_set_const_miss _ c _ x i (fun n _ => h _)

/-- Row b of the scattered array is the one-hot row of the item of b. -/
private theorem onehot_apply (hr : ∀ b : Fin 512, 0 ≤ (x0 (ix1 b) : BitVec 32).toInt ∧ (x0 (ix1 b) : BitVec 32).toInt < 50000)
    (b : Fin 512) (k : Fin 50000) :
    Read.val_main_v16 (F := Ideal) x0 (ix2 b k) = if k = Cert.Spec.item x0 b then (1 : EReal) else 0 := by
  have hland : ∀ j : S512.Idx, scatter_S512x50000_S512x2_S512_n_01_01_1.resultIdx? j (Read.val_main_v14 (F := Ideal) x0)
      = some (ix2 (j 0) (Cert.Spec.item x0 (j 0))) := by
    intro j
    obtain ⟨k, rfl⟩ : ∃ k : Fin 512, j = ix1 k := ⟨j 0, eq_ix1 j⟩
    exact lands _ k k (Cert.Spec.item x0 k)
      (by rw [idx_col0, toInt_ofNat_lt _ (by have := k.isLt; omega)])
      (by rw [idx_col1 x0 hr, toInt_item x0 hr])
  have hupd : ∀ j : S512.Idx, Read.val_main_v15 (F := Ideal) j = (1 : EReal) := by
    intro j
    rw [Read.val_main_v15_apply, Read.val_main_cst_3_apply, Ideal.ofBits_def, ofBits_one]
  unfold Read.val_main_v16
  by_cases hk : k = Cert.Spec.item x0 b
  · rw [if_pos hk]
    exact scatter_const_hit _ _ _ _ 1 _ hland hupd _ ⟨ix1 b, by rw [hk]; rfl⟩
  · rw [if_neg hk]
    refine (scatter_const_miss _ _ _ _ 1 _ hland hupd _ (fun j e => hk ?_)).trans ?_
    · have e0 : b = j 0 := congrFun e 0
      have e1 : k = Cert.Spec.item x0 (j 0) := congrFun e 1
      rw [e0]; exact e1
    · rw [Read.val_main_v0_apply, Read.val_main_cst_apply, Ideal.ofBits_def, Ideal.ofBits_zero_f32]

/-- The input-side pre-activation: the product with the one-hot row reads one column of the weights. -/
private theorem gi_apply (hr : ∀ b : Fin 512, 0 ≤ (x0 (ix1 b) : BitVec 32).toInt ∧ (x0 (ix1 b) : BitVec 32).toInt < 50000)
    (b : Fin 512) (j : Fin 768) :
    Read.val_main_v22 (F := Ideal) x0 x2 x4 (ix2 b j) = Cert.Spec.gi x0 x2 x4 b j := by
  have hl : ∀ k : Fin 50000, Read.lidx_main_v19 (ix2 b j) k = ix2 b k := fun k =>
    funext fun a => by match a with | ⟨0, _⟩ => rfl | ⟨1, _⟩ => rfl
  have hrr : ∀ k : Fin 50000, Read.idx_main_v18 (Read.ridx_main_v19 (ix2 b j) k) = ix2 j k := fun k =>
    funext fun a => by match a with | ⟨0, _⟩ => rfl | ⟨1, _⟩ => rfl
  have hsum : ∑ k : Fin 50000, Read.val_main_v16 (F := Ideal) x0 (Read.lidx_main_v19 (ix2 b j) k)
      * Read.val_main_v18 (F := Ideal) x2 (Read.ridx_main_v19 (ix2 b j) k) = x2 (ix2 j (Cert.Spec.item x0 b)) := by
    rw [Finset.sum_eq_single (Cert.Spec.item x0 b)
      (fun k _ hk => by rw [hl, onehot_apply x0 hr, if_neg hk, zero_mul])
      (fun h => absurd (Finset.mem_univ _) h),
      hl, onehot_apply x0 hr, if_pos rfl, one_mul, Read.val_main_v18_apply, hrr]
  rw [Read.val_main_v22_apply, Read.val_main_v19_apply, hsum, Read.val_main_v21_apply, Read.val_main_v20_apply,
    Ideal.addf_def]
  unfold Cert.Spec.gi
  refine congrArg (x2 (ix2 j (Cert.Spec.item x0 b)) + ·) (congrArg x4 ?_)
  exact funext fun a => by match a with | ⟨0, _⟩ => rfl

/-- The reshaped hidden state at (b, k) is the hidden state at (0, b, k). -/
private theorem idx_hidden (b : Fin 512) (k : Fin 256) : Read.idx_main_v17 (ix2 b k) = ix3 0 b k := by
  funext a; refine Fin.ext ?_
  have hb := b.isLt; have hk := k.isLt
  match a with
  | ⟨0, _⟩ => rfl
  | ⟨1, _⟩ => show (b.val * 256 + k.val) / 256 % 512 = b.val; omega
  | ⟨2, _⟩ => show (b.val * 256 + k.val) % 256 = k.val; omega

/-- The hidden-side pre-activation. -/
private theorem gh_apply (b : Fin 512) (j : Fin 768) :
    Read.val_main_v27 (F := Ideal) x1 x3 x5 (ix2 b j) = Cert.Spec.gh x1 x3 x5 b j := by
  have hl : ∀ k : Fin 256, Read.lidx_main_v24 (ix2 b j) k = ix2 b k := fun k =>
    funext fun a => by match a with | ⟨0, _⟩ => rfl | ⟨1, _⟩ => rfl
  have hrr : ∀ k : Fin 256, Read.idx_main_v23 (Read.ridx_main_v24 (ix2 b j) k) = ix2 j k := fun k =>
    funext fun a => by match a with | ⟨0, _⟩ => rfl | ⟨1, _⟩ => rfl
  have hsum : ∑ k : Fin 256, Read.val_main_v17 (F := Ideal) x1 (Read.lidx_main_v24 (ix2 b j) k)
      * Read.val_main_v23 (F := Ideal) x3 (Read.ridx_main_v24 (ix2 b j) k)
      = ∑ k : Fin 256, x1 (ix3 0 b k) * x3 (ix2 j k) :=
    Finset.sum_congr rfl fun k _ => by
      rw [hl, Read.val_main_v17_apply, idx_hidden, Read.val_main_v23_apply, hrr]
  rw [Read.val_main_v27_apply, Read.val_main_v24_apply, hsum, Read.val_main_v26_apply, Read.val_main_v25_apply,
    Ideal.addf_def]
  unfold Cert.Spec.gh
  refine congrArg ((∑ k : Fin 256, x1 (ix3 0 b k) * x3 (ix2 j k)) + ·) (congrArg x5 ?_)
  exact funext fun a => by match a with | ⟨0, _⟩ => rfl

/-- The reset gate: the reference spells the logistic function as 1 / (1 + exp(−x)). -/
private theorem gateR_apply (hr : ∀ b : Fin 512, 0 ≤ (x0 (ix1 b) : BitVec 32).toInt ∧ (x0 (ix1 b) : BitVec 32).toInt < 50000)
    (b : Fin 512) (h : Fin 256) :
    Read.val_main_v40 (F := Ideal) x0 x1 x2 x3 x4 x5 (ix2 b h) = Cert.Spec.gateR x0 x1 x2 x3 x4 x5 b h := by
  rw [Read.val_main_v40_apply, Read.val_main_v39_apply, Read.val_main_cst_5_apply, Read.val_main_v38_apply,
    Read.val_main_v37_apply, Read.val_main_cst_4_apply, Read.val_main_v36_apply, Read.val_main_v35_apply,
    Read.val_main_v34_apply, Read.val_main_v28_apply, Read.val_main_v31_apply,
    show Read.idx_main_v28 (ix2 b h) = ix2 b (Cert.Spec.third0 h) from
      funext fun a => by match a with | ⟨0, _⟩ => rfl | ⟨1, _⟩ => rfl,
    show Read.idx_main_v31 (ix2 b h) = ix2 b (Cert.Spec.third0 h) from
      funext fun a => by match a with | ⟨0, _⟩ => rfl | ⟨1, _⟩ => rfl,
    gi_apply x0 x2 x4 hr, gh_apply x1 x3 x5]
  simp only [Ideal.hostDivf_def, Ideal.addf_def, Ideal.hostUnary_exp_def, Ideal.hostNegf_def, Ideal.negf_def,
    Ideal.ofBits_def, ofBits_one]
  rfl

/-- The update gate. -/
private theorem gateZ_apply (hr : ∀ b : Fin 512, 0 ≤ (x0 (ix1 b) : BitVec 32).toInt ∧ (x0 (ix1 b) : BitVec 32).toInt < 50000)
    (b : Fin 512) (h : Fin 256) :
    Read.val_main_v47 (F := Ideal) x0 x1 x2 x3 x4 x5 (ix2 b h) = Cert.Spec.gateZ x0 x1 x2 x3 x4 x5 b h := by
  rw [Read.val_main_v47_apply, Read.val_main_v46_apply, Read.val_main_cst_7_apply, Read.val_main_v45_apply,
    Read.val_main_v44_apply, Read.val_main_cst_6_apply, Read.val_main_v43_apply, Read.val_main_v42_apply,
    Read.val_main_v41_apply, Read.val_main_v29_apply, Read.val_main_v32_apply,
    show Read.idx_main_v29 (ix2 b h) = ix2 b (Cert.Spec.third1 h) from
      funext fun a => by match a with | ⟨0, _⟩ => rfl | ⟨1, _⟩ => rfl,
    show Read.idx_main_v32 (ix2 b h) = ix2 b (Cert.Spec.third1 h) from
      funext fun a => by match a with | ⟨0, _⟩ => rfl | ⟨1, _⟩ => rfl,
    gi_apply x0 x2 x4 hr, gh_apply x1 x3 x5]
  simp only [Ideal.hostDivf_def, Ideal.addf_def, Ideal.hostUnary_exp_def, Ideal.hostNegf_def, Ideal.negf_def,
    Ideal.ofBits_def, ofBits_one]
  rfl

/-- The candidate state. -/
private theorem cand_apply (hr : ∀ b : Fin 512, 0 ≤ (x0 (ix1 b) : BitVec 32).toInt ∧ (x0 (ix1 b) : BitVec 32).toInt < 50000)
    (b : Fin 512) (h : Fin 256) :
    Read.val_main_v50 (F := Ideal) x0 x1 x2 x3 x4 x5 (ix2 b h) = Cert.Spec.cand x0 x1 x2 x3 x4 x5 b h := by
  rw [Read.val_main_v50_apply, Read.val_main_v49_apply, Read.val_main_v30_apply, Read.val_main_v48_apply,
    Read.val_main_v33_apply,
    show Read.idx_main_v30 (ix2 b h) = ix2 b (Cert.Spec.third2 h) from
      funext fun a => by match a with | ⟨0, _⟩ => rfl | ⟨1, _⟩ => rfl,
    show Read.idx_main_v33 (ix2 b h) = ix2 b (Cert.Spec.third2 h) from
      funext fun a => by match a with | ⟨0, _⟩ => rfl | ⟨1, _⟩ => rfl,
    gi_apply x0 x2 x4 hr, gh_apply x1 x3 x5, gateR_apply x0 x1 x2 x3 x4 x5 hr,
    Ideal.hostUnary_tanh_def, Ideal.addf_def, Ideal.mulf_def]
  rfl

/-- The new hidden state. -/
private theorem newHid_apply (hr : ∀ b : Fin 512, 0 ≤ (x0 (ix1 b) : BitVec 32).toInt ∧ (x0 (ix1 b) : BitVec 32).toInt < 50000)
    (b : Fin 512) (h : Fin 256) :
    Read.val_main_v55 (F := Ideal) x0 x1 x2 x3 x4 x5 (ix2 b h) = Cert.Spec.newHid x0 x1 x2 x3 x4 x5 b h := by
  rw [Read.val_main_v55_apply, Read.val_main_v53_apply, Read.val_main_v54_apply, Read.val_main_v52_apply,
    Read.val_main_v51_apply, Read.val_main_cst_8_apply, Read.val_main_v17_apply, idx_hidden,
    gateZ_apply x0 x1 x2 x3 x4 x5 hr, cand_apply x0 x1 x2 x3 x4 x5 hr,
    Ideal.addf_def, Ideal.mulf_def, Ideal.mulf_def, Ideal.subf_def, Ideal.ofBits_def]
  rfl

/-- The second result (the new hidden state under a leading unit axis) is the specification's. -/
theorem ref_hidden (hr : ∀ b : Fin 512, 0 ≤ (x0 (ix1 b) : BitVec 32).toInt ∧ (x0 (ix1 b) : BitVec 32).toInt < 50000)
    (b : Fin 512) (h : Fin 256) :
    Read.val_main_v62 x0 x1 x2 x3 x4 x5 (ix3 (0 : Fin 1) b h) = Cert.Spec.newHid x0 x1 x2 x3 x4 x5 b h := by
  rw [Read.val_main_v62_apply,
    show Read.idx_main_v62 (ix3 (0 : Fin 1) b h) = ix2 b h from
      funext fun a => by match a with | ⟨0, _⟩ => rfl | ⟨1, _⟩ => rfl]
  exact newHid_apply x0 x1 x2 x3 x4 x5 hr b h

/-- The first result (the logits) is the specification's. -/
theorem ref_logits (hr : ∀ b : Fin 512, 0 ≤ (x0 (ix1 b) : BitVec 32).toInt ∧ (x0 (ix1 b) : BitVec 32).toInt < 50000)
    (b : Fin 512) (v : Fin 50000) :
    Read.val_main_v61 x0 x1 x2 x3 x4 x5 x6 x7 (ix2 b v) = Cert.Spec.logit x0 x1 x2 x3 x4 x5 x6 x7 b v := by
  have hl : ∀ k : Fin 256, Read.lidx_main_v57 (ix2 b v) k = ix2 b k := fun k =>
    funext fun a => by match a with | ⟨0, _⟩ => rfl | ⟨1, _⟩ => rfl
  have hrr : ∀ k : Fin 256, Read.idx_main_v56 (Read.ridx_main_v57 (ix2 b v) k) = ix2 v k := fun k =>
    funext fun a => by match a with | ⟨0, _⟩ => rfl | ⟨1, _⟩ => rfl
  have hsum : ∑ k : Fin 256, Read.val_main_v55 (F := Ideal) x0 x1 x2 x3 x4 x5 (Read.lidx_main_v57 (ix2 b v) k)
      * Read.val_main_v56 (F := Ideal) x6 (Read.ridx_main_v57 (ix2 b v) k)
      = ∑ k : Fin 256, Cert.Spec.newHid x0 x1 x2 x3 x4 x5 b k * x6 (ix2 v k) :=
    Finset.sum_congr rfl fun k _ => by
      rw [hl, newHid_apply x0 x1 x2 x3 x4 x5 hr, Read.val_main_v56_apply, hrr]
  rw [Read.val_main_v61_apply, Read.val_main_v60_apply, Read.val_main_v57_apply, hsum, Read.val_main_v59_apply,
    Read.val_main_v58_apply, Ideal.hostUnary_tanh_def, Ideal.addf_def]
  unfold Cert.Spec.logit
  refine congrArg (fun t => Ideal.tanh ((∑ k : Fin 256, Cert.Spec.newHid x0 x1 x2 x3 x4 x5 b k * x6 (ix2 v k)) + t))
    (congrArg x7 ?_)
  exact funext fun a => by match a with | ⟨0, _⟩ => rfl

end Cert.ReferenceIdeal.RefValue

end
-- ==== Proof.PreIds.lean ====
/-
  What the certificate's precondition says of the item ids: besides the finiteness of the seven float
  arrays it is the conjunction, over the 512 batch rows, of `0 ≤ id` and `id < 50000` as signed 32-bit
  comparisons; so every id, read as a signed word, lies in the vocabulary.
-/
import proofs.«408627_j69286412419116_1_alg».proof.Pre_finite_inputs
import Idealize.ShloMosaic.Lib.ReduceAll
import Idealize.ShloMosaic.Lib.StableHlo.Predicate
import Idealize.ShloMosaic.Lib.ValueIdx

noncomputable section

namespace Cert.Pre_finite_inputs.Ids

open Idealize.ShloMosaic Idealize.ShloMosaic.ValueIdx
open Cert.Pre_finite_inputs

variable {F : FTy → Type} [FloatOps F] [Facts]

/-- The rank-0 shape has one index. -/
private instance subsingleton_idx0 : Subsingleton S_.Idx := ⟨fun a b => funext fun d => d.elim0⟩

/-- Under the precondition every item id lies in [0, 50000), as a signed word. -/
theorem ids_in_range (a0 : IVec S512 32) (a1 : FVec F S1x512x256 .f32) (a2 : FVec F S768x50000 .f32)
    (a3 : FVec F S768x256 .f32) (a4 a5 : FVec F S768 .f32) (a6 : FVec F S50000x256 .f32) (a7 : FVec F S50000 .f32)
    (h : fn (F := F) a0 a1 a2 a3 a4 a5 a6 a7 = fun _ => 1#1) (b : Fin 512) :
    0 ≤ (a0 (ix1 b)).toInt ∧ (a0 (ix1 b)).toInt < 50000 := by
  have h0 := congrFun h ValueIdx.ix0
  dsimp only [fn, fn_part1, fn_part2] at h0
  -- the outermost two conjuncts of the chain of ANDs are the two comparisons of the ids
  obtain ⟨h1, hlt⟩ := IntOp.andi_eq_one.1 h0
  obtain ⟨-, hge⟩ := IntOp.andi_eq_one.1 h1
  -- a conjunction over all 512 rows that is 1 is 1 at row `b`
  have ge := Host.reduce_andi_all _ _ _ _ _ hge (ix1 b)
  have lt := Host.reduce_andi_all _ _ _ _ _ hlt (ix1 b)
  -- each comparison, read at row `b`, compares the id with the broadcast constant as signed words
  have ge' := IntOp.cmpi_sge.1 ge
  have lt' := IntOp.cmpi_slt.1 lt
  rw [StableHlo.Predicate.bcast_scalar _ Facts.h_S_] at ge' lt'
  have z : (0#32 : BitVec 32).toInt = 0 := by decide
  have k : (50000#32 : BitVec 32).toInt = 50000 := by decide
  exact ⟨z ▸ ge', k ▸ lt'⟩

end Cert.Pre_finite_inputs.Ids

end
-- ==== Proof.lean ====
/-
  The certificate of the one-step GRU recommender kernel against its reference: both programs run to the
  end leaving their arguments untouched, and at the extended reals they return the same logits and the
  same new hidden state, entry by entry, whenever every item id lies inside the vocabulary.

  Both sides are shown equal to one specification (Spec.lean).  On the kernel's side the one-hot rows are
  never materialised: 23 column blocks of the padded input weights are met in turn, each adding to an
  accumulator the one weight column an id selects if it falls in that block; after the last block the
  accumulator is the selected column, the gate arithmetic gives the new hidden state, and a second call
  produces the logits block by block.  On the reference's side a scatter writes the one-hot rows and a
  matrix product reads the same column.  The ids must be non-negative for the two to agree: the reference
  wraps a negative id round by the vocabulary's size, the kernel matches it against no column.
-/
import proofs.«408627_j69286412419116_1_alg».proof.Defs
import proofs.«408627_j69286412419116_1_alg».proof.Proof.Gen.Kernel
import proofs.«408627_j69286412419116_1_alg».proof.Proof.Gen.KernelIdeal
import proofs.«408627_j69286412419116_1_alg».proof.Proof.Gen.ReferenceIdeal
import proofs.«408627_j69286412419116_1_alg».proof.Proof.Gen.Pre_finite_inputs
import proofs.«408627_j69286412419116_1_alg».proof.Proof.KRun
import proofs.«408627_j69286412419116_1_alg».proof.Proof.KIRun
import proofs.«408627_j69286412419116_1_alg».proof.Proof.KIResults
import proofs.«408627_j69286412419116_1_alg».proof.Proof.RefVal
import proofs.«408627_j69286412419116_1_alg».proof.Proof.PreIds
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

section
variable [Cert.Kernel.Facts] [Cert.KernelIdeal.Facts] [Cert.ReferenceIdeal.Facts] [Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal Cert.KernelIdeal.Hand in
/-- An unscoped TensorCore reference is among those the last thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

open Cert.KernelIdeal Cert.KernelIdeal.Hand in
/-- Both idealized programs, from memories that agree on the arguments, end with the specification's logits and
    new hidden state. -/
theorem algebraic : Cert.algebraic_KernelIdeal_ReferenceIdeal := by
  intro m ρ m' ρ' hpre hagree
  have hr : ∀ c : Dev nD, IdsInRange m c := fun c b =>
    Cert.Pre_finite_inputs.Ids.ids_in_range _ _ _ _ _ _ _ _ (hpre c) b
  refine ⟨fun c => W10 m c (Proc.devRef .tc main_v10), fun c => W10 m c (Proc.devRef .tc main_v11), ?_, ?_⟩
  · refine (θ_run Cert.KernelIdeal.defs _ _).mono (fun r h c => ?_) (run_all (F := Ideal) m ρ)
    have harg : ∀ (b : Ref sig .tc) (hb : ¬ (Proc.devRef .tc b : DevRef τ sig).isScoped),
        r.2.mem ((c.tc : Thread nD τ).loc b) = W10 m c (Proc.devRef .tc b) := fun b hb => h c _ (mem_uc b hb)
    refine ⟨harg main_v10 (by decide), harg main_v11 (by decide), ?_, ?_, ?_, ?_, ?_, ?_, ?_, ?_⟩
    · exact (harg main_arg0 (by decide)).trans ((congrFun (V10_eq m c).symm _).trans (Gen.V10_main_arg0 m (outs m) c))
    · exact (harg main_arg1 (by decide)).trans ((congrFun (V10_eq m c).symm _).trans (Gen.V10_main_arg1 m (outs m) c))
    · exact (harg main_arg2 (by decide)).trans ((congrFun (V10_eq m c).symm _).trans (Gen.V10_main_arg2 m (outs m) c))
    · exact (harg main_arg3 (by decide)).trans ((congrFun (V10_eq m c).symm _).trans (Gen.V10_main_arg3 m (outs m) c))
    · exact (harg main_arg4 (by decide)).trans ((congrFun (V10_eq m c).symm _).trans (Gen.V10_main_arg4 m (outs m) c))
    · exact (harg main_arg5 (by decide)).trans ((congrFun (V10_eq m c).symm _).trans (Gen.V10_main_arg5 m (outs m) c))
    · exact (harg main_arg6 (by decide)).trans ((congrFun (V10_eq m c).symm _).trans (Gen.V10_main_arg6 m (outs m) c))
    · exact (harg main_arg7 (by decide)).trans ((congrFun (V10_eq m c).symm _).trans (Gen.V10_main_arg7 m (outs m) c))
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v61_eq, (hagree c).1, (hagree c).2.1, (hagree c).2.2.1,
        (hagree c).2.2.2.1, (hagree c).2.2.2.2.1, (hagree c).2.2.2.2.2.1, (hagree c).2.2.2.2.2.2.1, (hagree c).2.2.2.2.2.2.2]
      funext i
      obtain ⟨b, v, rfl⟩ : ∃ (b : Fin 512) (v : Fin 50000), i = ix2 b v := ⟨i 0, i 1, eq_ix2 i⟩
      exact (Cert.ReferenceIdeal.RefValue.ref_logits _ _ _ _ _ _ _ _ (hr c) b v).trans (kernel_logits m c (hr c) b v).symm
    · rw [(h c).2.1, Cert.ReferenceIdeal.Read.val_main_v62_eq, (hagree c).1, (hagree c).2.1, (hagree c).2.2.1,
        (hagree c).2.2.2.1, (hagree c).2.2.2.2.1, (hagree c).2.2.2.2.2.1]
      funext i
      obtain ⟨a, b, h', rfl⟩ : ∃ (a : Fin 1) (b : Fin 512) (h' : Fin 256), i = ix3 a b h' := ⟨i 0, i 1, i 2, eq_ix3 i⟩
      obtain rfl : a = 0 := Subsingleton.elim _ _
      exact (Cert.ReferenceIdeal.RefValue.ref_hidden _ _ _ _ _ _ (hr c) b h').trans (kernel_hidden m c (hr c) b h').symm

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
